-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v53_4)) (v1 : (c : Dev Cert.KernelIdeal.nD) → Buf (Elt Ideal) ((c.tc : Thread Cert.KernelIdeal.nD Cert.KernelIdeal.τ).loc Cert.KernelIdeal.main_v53_5)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v53_0)) (v4 : (c : Dev Cert.KernelIdeal.nD) → Buf (Elt Ideal) ((c.tc : Thread Cert.KernelIdeal.nD Cert.KernelIdeal.τ).loc Cert.KernelIdeal.main_v53_1)) (v5 : (c : Dev Cert.KernelIdeal.nD) → Buf (Elt Ideal) ((c.tc : Thread Cert.KernelIdeal.nD Cert.KernelIdeal.τ).loc Cert.KernelIdeal.main_v53_2)) (v6 : (c : Dev Cert.KernelIdeal.nD) → Buf (Elt Ideal) ((c.tc : Thread Cert.KernelIdeal.nD Cert.KernelIdeal.τ).loc Cert.KernelIdeal.main_v53_3)) (v7 : (c : Dev Cert.KernelIdeal.nD) → Buf (Elt Ideal) ((c.tc : Thread Cert.KernelIdeal.nD Cert.KernelIdeal.τ).loc Cert.KernelIdeal.main_v29)) (v8 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_4) = v0 c
          ∧ r.2.mem ((c.tc : Thread Cert.KernelIdeal.nD Cert.KernelIdeal.τ).loc Cert.KernelIdeal.main_v53_5) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v53_0) = v3 c
          ∧ r.2.mem ((c.tc : Thread Cert.KernelIdeal.nD Cert.KernelIdeal.τ).loc Cert.KernelIdeal.main_v53_1) = v4 c
          ∧ r.2.mem ((c.tc : Thread Cert.KernelIdeal.nD Cert.KernelIdeal.τ).loc Cert.KernelIdeal.main_v53_2) = v5 c
          ∧ r.2.mem ((c.tc : Thread Cert.KernelIdeal.nD Cert.KernelIdeal.τ).loc Cert.KernelIdeal.main_v53_3) = v6 c
          ∧ r.2.mem ((c.tc : Thread Cert.KernelIdeal.nD Cert.KernelIdeal.τ).loc Cert.KernelIdeal.main_v29) = v7 c
          ∧ r.2.mem ((c.tc : Thread Cert.KernelIdeal.nD Cert.KernelIdeal.τ).loc Cert.KernelIdeal.main_v30) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v64) = v5 c
          ∧ r.2.mem ((c.tc : Thread Cert.ReferenceIdeal.nD Cert.ReferenceIdeal.τ).loc Cert.ReferenceIdeal.main_v76) = v6 c
          ∧ r.2.mem ((c.tc : Thread Cert.ReferenceIdeal.nD Cert.ReferenceIdeal.τ).loc Cert.ReferenceIdeal.main_v32) = v7 c
          ∧ r.2.mem ((c.tc : Thread Cert.ReferenceIdeal.nD Cert.ReferenceIdeal.τ).loc Cert.ReferenceIdeal.main_v39) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x500000 : Shape := ⟨2, ![1, 500000]⟩
abbrev S1x250000 : Shape := ⟨2, ![1, 250000]⟩
abbrev S1x50000 : Shape := ⟨2, ![1, 50000]⟩
abbrev S10000000 : Shape := ⟨1, ![10000000]⟩
abbrev S10000000x2 : Shape := ⟨2, ![10000000, 2]⟩
abbrev S50000 : Shape := ⟨1, ![50000]⟩
abbrev S50000x2 : Shape := ⟨2, ![50000, 2]⟩
abbrev S500000 : Shape := ⟨1, ![500000]⟩
abbrev S_ : Shape := ⟨0, ![]⟩

class Facts : Prop where
  bcast_S_S1x500000 : S_.BroadcastsInDim S1x500000 (![] : Fin 0 → Fin S1x500000.rank)
  reducesTo_S1x500000_S_d0_1 : S1x500000.ReducesTo [0, 1] S_
  h_S_ : 0 < S_.numel
  bcast_S_S1x250000 : S_.BroadcastsInDim S1x250000 (![] : Fin 0 → Fin S1x250000.rank)
  reducesTo_S1x250000_S_d0_1 : S1x250000.ReducesTo [0, 1] S_
  bcast_S_S1x50000 : S_.BroadcastsInDim S1x50000 (![] : Fin 0 → Fin S1x50000.rank)
  reducesTo_S1x50000_S_d0_1 : S1x50000.ReducesTo [0, 1] S_
  bcast_S_S10000000 : S_.BroadcastsInDim S10000000 (![] : Fin 0 → Fin S10000000.rank)
  reducesTo_S10000000_S_d0 : S10000000.ReducesTo [0] S_
  bcast_S_S50000 : S_.BroadcastsInDim S50000 (![] : Fin 0 → Fin S50000.rank)
  reducesTo_S50000_S_d0 : S50000.ReducesTo [0] S_
  bcast_S_S50000x2 : S_.BroadcastsInDim S50000x2 (![] : Fin 0 → Fin S50000x2.rank)
  reducesTo_S50000x2_S_d0_1 : S50000x2.ReducesTo [0, 1] S_
  bcast_S_S500000 : S_.BroadcastsInDim S500000 (![] : Fin 0 → Fin S500000.rank)
  reducesTo_S500000_S_d0 : S500000.ReducesTo [0] S_

variable [Facts]

def fn_part6 {F : FTy → Type} [FloatOps F] (main_arg22 : FVec F S50000 .f32) (main_v98 : IVec S_ 1) (main_v101 : IVec S50000 1) (main_c_39 : IVec S_ 1) : IVec S_ 1 :=
  let main_v102 : IVec S_ 1 := (fun x v => Host.reduce IntOp.andi x v reducesTo_S50000_S_d0 h_S_) main_v101 main_c_39
  let main_v103 : IVec S_ 1 := andi main_v98 main_v102
  let main_v104 : FVec F S50000 .f32 := Host.absf main_arg22
  let main_cst_40 : FVec F S_ .f32 := constant S_ .f32 0x7F800000#32
  let main_v105 : FVec F S50000 .f32 := broadcastInDim S50000 ![] bcast_S_S50000 main_cst_40
  let main_v106 : IVec S50000 1 := cmpf .olt main_v104 main_v105
  let main_c_41 : IVec S_ 1 := constantI S_ 1 1#1
  let main_v107 : IVec S_ 1 := (fun x v => Host.reduce IntOp.andi x v reducesTo_S50000_S_d0 h_S_) main_v106 main_c_41
  let main_v108 : IVec S_ 1 := andi main_v103 main_v107
  main_v108

def fn_part5 {F : FTy → Type} [FloatOps F] (main_arg19 : FVec F S500000 .f32) (main_arg20 : FVec F S500000 .f32) (main_arg21 : FVec F S50000 .f32) (main_arg22 : FVec F S50000 .f32) (main_v83 : IVec S_ 1) (main_v84 : FVec F S50000x2 .f32) (main_cst_32 : FVec F S_ .f32) : IVec S_ 1 :=
  let main_v85 : FVec F S50000x2 .f32 := broadcastInDim S50000x2 ![] bcast_S_S50000x2 main_cst_32
  let main_v86 : IVec S50000x2 1 := cmpf .olt main_v84 main_v85
  let main_c_33 : IVec S_ 1 := constantI S_ 1 1#1
  let main_v87 : IVec S_ 1 := (fun x v => Host.reduce IntOp.andi x v reducesTo_S50000x2_S_d0_1 h_S_) main_v86 main_c_33
  let main_v88 : IVec S_ 1 := andi main_v83 main_v87
  let main_v89 : FVec F S500000 .f32 := Host.absf main_arg19
  let main_cst_34 : FVec F S_ .f32 := constant S_ .f32 0x7F800000#32
  let main_v90 : FVec F S500000 .f32 := broadcastInDim S500000 ![] bcast_S_S500000 main_cst_34
  let main_v91 : IVec S500000 1 := cmpf .olt main_v89 main_v90
  let main_c_35 : IVec S_ 1 := constantI S_ 1 1#1
  let main_v92 : IVec S_ 1 := (fun x v => Host.reduce IntOp.andi x v reducesTo_S500000_S_d0 h_S_) main_v91 main_c_35
  let main_v93 : IVec S_ 1 := andi main_v88 main_v92
  let main_v94 : FVec F S500000 .f32 := Host.absf main_arg20
  let main_cst_36 : FVec F S_ .f32 := constant S_ .f32 0x7F800000#32
  let main_v95 : FVec F S500000 .f32 := broadcastInDim S500000 ![] bcast_S_S500000 main_cst_36
  let main_v96 : IVec S500000 1 := cmpf .olt main_v94 main_v95
  let main_c_37 : IVec S_ 1 := constantI S_ 1 1#1
  let main_v97 : IVec S_ 1 := (fun x v => Host.reduce IntOp.andi x v reducesTo_S500000_S_d0 h_S_) main_v96 main_c_37
  let main_v98 : IVec S_ 1 := andi main_v93 main_v97
  let main_v99 : FVec F S50000 .f32 := Host.absf main_arg21
  let main_cst_38 : FVec F S_ .f32 := constant S_ .f32 0x7F800000#32
  let main_v100 : FVec F S50000 .f32 := broadcastInDim S50000 ![] bcast_S_S50000 main_cst_38
  let main_v101 : IVec S50000 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S50000 .f32) (main_arg16 : FVec F S50000 .f32) (main_arg17 : FVec F S50000x2 .f32) (main_arg18 : FVec F S50000x2 .f32) (main_arg19 : FVec F S500000 .f32) (main_arg20 : FVec F S500000 .f32) (main_arg21 : FVec F S50000 .f32) (main_arg22 : FVec F S50000 .f32) (main_v63 : IVec S_ 1) (main_v67 : IVec S_ 1) : IVec S_ 1 :=
  let main_v68 : IVec S_ 1 := andi main_v63 main_v67
  let main_v69 : FVec F S50000 .f32 := Host.absf main_arg15
  let main_cst_26 : FVec F S_ .f32 := constant S_ .f32 0x7F800000#32
  let main_v70 : FVec F S50000 .f32 := broadcastInDim S50000 ![] bcast_S_S50000 main_cst_26
  let main_v71 : IVec S50000 1 := cmpf .olt main_v69 main_v70
  let main_c_27 : IVec S_ 1 := constantI S_ 1 1#1
  let main_v72 : IVec S_ 1 := (fun x v => Host.reduce IntOp.andi x v reducesTo_S50000_S_d0 h_S_) main_v71 main_c_27
  let main_v73 : IVec S_ 1 := andi main_v68 main_v72
  let main_v74 : FVec F S50000 .f32 := Host.absf main_arg16
  let main_cst_28 : FVec F S_ .f32 := constant S_ .f32 0x7F800000#32
  let main_v75 : FVec F S50000 .f32 := broadcastInDim S50000 ![] bcast_S_S50000 main_cst_28
  let main_v76 : IVec S50000 1 := cmpf .olt main_v74 main_v75
  let main_c_29 : IVec S_ 1 := constantI S_ 1 1#1
  let main_v77 : IVec S_ 1 := (fun x v => Host.reduce IntOp.andi x v reducesTo_S50000_S_d0 h_S_) main_v76 main_c_29
  let main_v78 : IVec S_ 1 := andi main_v73 main_v77
  let main_v79 : FVec F S50000x2 .f32 := Host.absf main_arg17
  let main_cst_30 : FVec F S_ .f32 := constant S_ .f32 0x7F800000#32
  let main_v80 : FVec F S50000x2 .f32 := broadcastInDim S50000x2 ![] bcast_S_S50000x2 main_cst_30
  let main_v81 : IVec S50000x2 1 := cmpf .olt main_v79 main_v80
  let main_c_31 : IVec S_ 1 := constantI S_ 1 1#1
  let main_v82 : IVec S_ 1 := (fun x v => Host.reduce IntOp.andi x v reducesTo_S50000x2_S_d0_1 h_S_) main_v81 main_c_31
  let main_v83 : IVec S_ 1 := andi main_v78 main_v82
  let main_v84 : FVec F S50000x2 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S50000 .f32) (main_arg13 : FVec F S50000 .f32) (main_arg14 : FVec F S50000 .f32) (main_arg15 : FVec F S50000 .f32) (main_arg16 : FVec F S50000 .f32) (main_arg17 : FVec F S50000x2 .f32) (main_arg18 : FVec F S50000x2 .f32) (main_arg19 : FVec F S500000 .f32) (main_arg20 : FVec F S500000 .f32) (main_arg21 : FVec F S50000 .f32) (main_arg22 : FVec F S50000 .f32) (main_v48 : IVec S_ 1) (main_v49 : FVec F S50000 .f32) (main_v50 : FVec F S50000 .f32) : IVec S_ 1 :=
  let main_v51 : IVec S50000 1 := cmpf .olt main_v49 main_v50
  let main_c_19 : IVec S_ 1 := constantI S_ 1 1#1
  let main_v52 : IVec S_ 1 := (fun x v => Host.reduce IntOp.andi x v reducesTo_S50000_S_d0 h_S_) main_v51 main_c_19
  let main_v53 : IVec S_ 1 := andi main_v48 main_v52
  let main_v54 : FVec F S50000 .f32 := Host.absf main_arg12
  let main_cst_20 : FVec F S_ .f32 := constant S_ .f32 0x7F800000#32
  let main_v55 : FVec F S50000 .f32 := broadcastInDim S50000 ![] bcast_S_S50000 main_cst_20
  let main_v56 : IVec S50000 1 := cmpf .olt main_v54 main_v55
  let main_c_21 : IVec S_ 1 := constantI S_ 1 1#1
  let main_v57 : IVec S_ 1 := (fun x v => Host.reduce IntOp.andi x v reducesTo_S50000_S_d0 h_S_) main_v56 main_c_21
  let main_v58 : IVec S_ 1 := andi main_v53 main_v57
  let main_v59 : FVec F S50000 .f32 := Host.absf main_arg13
  let main_cst_22 : FVec F S_ .f32 := constant S_ .f32 0x7F800000#32
  let main_v60 : FVec F S50000 .f32 := broadcastInDim S50000 ![] bcast_S_S50000 main_cst_22
  let main_v61 : IVec S50000 1 := cmpf .olt main_v59 main_v60
  let main_c_23 : IVec S_ 1 := constantI S_ 1 1#1
  let main_v62 : IVec S_ 1 := (fun x v => Host.reduce IntOp.andi x v reducesTo_S50000_S_d0 h_S_) main_v61 main_c_23
  let main_v63 : IVec S_ 1 := andi main_v58 main_v62
  let main_v64 : FVec F S50000 .f32 := Host.absf main_arg14
  let main_cst_24 : FVec F S_ .f32 := constant S_ .f32 0x7F800000#32
  let main_v65 : FVec F S50000 .f32 := broadcastInDim S50000 ![] bcast_S_S50000 main_cst_24
  let main_v66 : IVec S50000 1 := cmpf .olt main_v64 main_v65
  let main_c_25 : IVec S_ 1 := constantI S_ 1 1#1
  let main_v67 : IVec S_ 1 := (fun x v => Host.reduce IntOp.andi x v reducesTo_S50000_S_d0 h_S_) main_v66 main_c_25
  fn_part4 (F := F) main_arg15 main_arg16 main_arg17 main_arg18 main_arg19 main_arg20 main_arg21 main_arg22 main_v63 main_v67

def fn_part2 {F : FTy → Type} [FloatOps F] (main_arg7 : FVec F S1x500000 .f32) (main_arg8 : FVec F S10000000 .f32) (main_arg10 : FVec F S50000 .f32) (main_arg11 : FVec F S50000 .f32) (main_arg12 : FVec F S50000 .f32) (main_arg13 : FVec F S50000 .f32) (main_arg14 : FVec F S50000 .f32) (main_arg15 : FVec F S50000 .f32) (main_arg16 : FVec F S50000 .f32) (main_arg17 : FVec F S50000x2 .f32) (main_arg18 : FVec F S50000x2 .f32) (main_arg19 : FVec F S500000 .f32) (main_arg20 : FVec F S500000 .f32) (main_arg21 : FVec F S50000 .f32) (main_arg22 : FVec F S50000 .f32) (main_v33 : IVec S_ 1) : IVec S_ 1 :=
  let main_v34 : FVec F S1x500000 .f32 := Host.absf main_arg7
  let main_cst_12 : FVec F S_ .f32 := constant S_ .f32 0x7F800000#32
  let main_v35 : FVec F S1x500000 .f32 := broadcastInDim S1x500000 ![] bcast_S_S1x500000 main_cst_12
  let main_v36 : IVec S1x500000 1 := cmpf .olt main_v34 main_v35
  let main_c_13 : IVec S_ 1 := constantI S_ 1 1#1
  let main_v37 : IVec S_ 1 := (fun x v => Host.reduce IntOp.andi x v reducesTo_S1x500000_S_d0_1 h_S_) main_v36 main_c_13
  let main_v38 : IVec S_ 1 := andi main_v33 main_v37
  let main_v39 : FVec F S10000000 .f32 := Host.absf main_arg8
  let main_cst_14 : FVec F S_ .f32 := constant S_ .f32 0x7F800000#32
  let main_v40 : FVec F S10000000 .f32 := broadcastInDim S10000000 ![] bcast_S_S10000000 main_cst_14
  let main_v41 : IVec S10000000 1 := cmpf .olt main_v39 main_v40
  let main_c_15 : IVec S_ 1 := constantI S_ 1 1#1
  let main_v42 : IVec S_ 1 := (fun x v => Host.reduce IntOp.andi x v reducesTo_S10000000_S_d0 h_S_) main_v41 main_c_15
  let main_v43 : IVec S_ 1 := andi main_v38 main_v42
  let main_v44 : FVec F S50000 .f32 := Host.absf main_arg10
  let main_cst_16 : FVec F S_ .f32 := constant S_ .f32 0x7F800000#32
  let main_v45 : FVec F S50000 .f32 := broadcastInDim S50000 ![] bcast_S_S50000 main_cst_16
  let main_v46 : IVec S50000 1 := cmpf .olt main_v44 main_v45
  let main_c_17 : IVec S_ 1 := constantI S_ 1 1#1
  let main_v47 : IVec S_ 1 := (fun x v => Host.reduce IntOp.andi x v reducesTo_S50000_S_d0 h_S_) main_v46 main_c_17
  let main_v48 : IVec S_ 1 := andi main_v43 main_v47
  let main_v49 : FVec F S50000 .f32 := Host.absf main_arg11
  let main_cst_18 : FVec F S_ .f32 := constant S_ .f32 0x7F800000#32
  let main_v50 : FVec F S50000 .f32 := broadcastInDim S50000 ![] bcast_S_S50000 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg4 : FVec F S1x50000 .f32) (main_arg5 : FVec F S1x50000 .f32) (main_arg6 : FVec F S1x500000 .f32) (main_arg7 : FVec F S1x500000 .f32) (main_arg8 : FVec F S10000000 .f32) (main_arg10 : FVec F S50000 .f32) (main_arg11 : FVec F S50000 .f32) (main_arg12 : FVec F S50000 .f32) (main_arg13 : FVec F S50000 .f32) (main_arg14 : FVec F S50000 .f32) (main_arg15 : FVec F S50000 .f32) (main_arg16 : FVec F S50000 .f32) (main_arg17 : FVec F S50000x2 .f32) (main_arg18 : FVec F S50000x2 .f32) (main_arg19 : FVec F S500000 .f32) (main_arg20 : FVec F S500000 .f32) (main_arg21 : FVec F S50000 .f32) (main_arg22 : FVec F S50000 .f32) (main_v13 : IVec S_ 1) (main_v16 : IVec S1x50000 1) : IVec S_ 1 :=
  let main_c_5 : IVec S_ 1 := constantI S_ 1 1#1
  let main_v17 : IVec S_ 1 := (fun x v => Host.reduce IntOp.andi x v reducesTo_S1x50000_S_d0_1 h_S_) main_v16 main_c_5
  let main_v18 : IVec S_ 1 := andi main_v13 main_v17
  let main_v19 : FVec F S1x50000 .f32 := Host.absf main_arg4
  let main_cst_6 : FVec F S_ .f32 := constant S_ .f32 0x7F800000#32
  let main_v20 : FVec F S1x50000 .f32 := broadcastInDim S1x50000 ![] bcast_S_S1x50000 main_cst_6
  let main_v21 : IVec S1x50000 1 := cmpf .olt main_v19 main_v20
  let main_c_7 : IVec S_ 1 := constantI S_ 1 1#1
  let main_v22 : IVec S_ 1 := (fun x v => Host.reduce IntOp.andi x v reducesTo_S1x50000_S_d0_1 h_S_) main_v21 main_c_7
  let main_v23 : IVec S_ 1 := andi main_v18 main_v22
  let main_v24 : FVec F S1x50000 .f32 := Host.absf main_arg5
  let main_cst_8 : FVec F S_ .f32 := constant S_ .f32 0x7F800000#32
  let main_v25 : FVec F S1x50000 .f32 := broadcastInDim S1x50000 ![] bcast_S_S1x50000 main_cst_8
  let main_v26 : IVec S1x50000 1 := cmpf .olt main_v24 main_v25
  let main_c_9 : IVec S_ 1 := constantI S_ 1 1#1
  let main_v27 : IVec S_ 1 := (fun x v => Host.reduce IntOp.andi x v reducesTo_S1x50000_S_d0_1 h_S_) main_v26 main_c_9
  let main_v28 : IVec S_ 1 := andi main_v23 main_v27
  let main_v29 : FVec F S1x500000 .f32 := Host.absf main_arg6
  let main_cst_10 : FVec F S_ .f32 := constant S_ .f32 0x7F800000#32
  let main_v30 : FVec F S1x500000 .f32 := broadcastInDim S1x500000 ![] bcast_S_S1x500000 main_cst_10
  let main_v31 : IVec S1x500000 1 := cmpf .olt main_v29 main_v30
  let main_c_11 : IVec S_ 1 := constantI S_ 1 1#1
  let main_v32 : IVec S_ 1 := (fun x v => Host.reduce IntOp.andi x v reducesTo_S1x500000_S_d0_1 h_S_) main_v31 main_c_11
  let main_v33 : IVec S_ 1 := andi main_v28 main_v32
  fn_part2 (F := F) main_arg7 main_arg8 main_arg10 main_arg11 main_arg12 main_arg13 main_arg14 main_arg15 main_arg16 main_arg17 main_arg18 main_arg19 main_arg20 main_arg21 main_arg22 main_v33

def fn {F : FTy → Type} [FloatOps F] (main_arg0 : FVec F S1x500000 .f32) (main_arg1 : FVec F S1x250000 .f32) (main_arg2 : FVec F S1x50000 .f32) (main_arg3 : FVec F S1x50000 .f32) (main_arg4 : FVec F S1x50000 .f32) (main_arg5 : FVec F S1x50000 .f32) (main_arg6 : FVec F S1x500000 .f32) (main_arg7 : FVec F S1x500000 .f32) (main_arg8 : FVec F S10000000 .f32) (main_arg9 : IVec S10000000x2 32) (main_arg10 : FVec F S50000 .f32) (main_arg11 : FVec F S50000 .f32) (main_arg12 : FVec F S50000 .f32) (main_arg13 : FVec F S50000 .f32) (main_arg14 : FVec F S50000 .f32) (main_arg15 : FVec F S50000 .f32) (main_arg16 : FVec F S50000 .f32) (main_arg17 : FVec F S50000x2 .f32) (main_arg18 : FVec F S50000x2 .f32) (main_arg19 : FVec F S500000 .f32) (main_arg20 : FVec F S500000 .f32) (main_arg21 : FVec F S50000 .f32) (main_arg22 : FVec F S50000 .f32) : IVec S_ 1 :=
  let main_v0 : FVec F S1x500000 .f32 := Host.absf main_arg0
  let main_cst : FVec F S_ .f32 := constant S_ .f32 0x7F800000#32
  let main_v1 : FVec F S1x500000 .f32 := broadcastInDim S1x500000 ![] bcast_S_S1x500000 main_cst
  let main_v2 : IVec S1x500000 1 := cmpf .olt main_v0 main_v1
  let main_c : IVec S_ 1 := constantI S_ 1 1#1
  let main_v3 : IVec S_ 1 := (fun x v => Host.reduce IntOp.andi x v reducesTo_S1x500000_S_d0_1 h_S_) main_v2 main_c
  let main_v4 : FVec F S1x250000 .f32 := Host.absf main_arg1
  let main_cst_0 : FVec F S_ .f32 := constant S_ .f32 0x7F800000#32
  let main_v5 : FVec F S1x250000 .f32 := broadcastInDim S1x250000 ![] bcast_S_S1x250000 main_cst_0
  let main_v6 : IVec S1x250000 1 := cmpf .olt main_v4 main_v5
  let main_c_1 : IVec S_ 1 := constantI S_ 1 1#1
  let main_v7 : IVec S_ 1 := (fun x v => Host.reduce IntOp.andi x v reducesTo_S1x250000_S_d0_1 h_S_) main_v6 main_c_1
  let main_v8 : IVec S_ 1 := andi main_v3 main_v7
  let main_v9 : FVec F S1x50000 .f32 := Host.absf main_arg2
  let main_cst_2 : FVec F S_ .f32 := constant S_ .f32 0x7F800000#32
  let main_v10 : FVec F S1x50000 .f32 := broadcastInDim S1x50000 ![] bcast_S_S1x50000 main_cst_2
  let main_v11 : IVec S1x50000 1 := cmpf .olt main_v9 main_v10
  let main_c_3 : IVec S_ 1 := constantI S_ 1 1#1
  let main_v12 : IVec S_ 1 := (fun x v => Host.reduce IntOp.andi x v reducesTo_S1x50000_S_d0_1 h_S_) main_v11 main_c_3
  let main_v13 : IVec S_ 1 := andi main_v8 main_v12
  let main_v14 : FVec F S1x50000 .f32 := Host.absf main_arg3
  let main_cst_4 : FVec F S_ .f32 := constant S_ .f32 0x7F800000#32
  let main_v15 : FVec F S1x50000 .f32 := broadcastInDim S1x50000 ![] bcast_S_S1x50000 main_cst_4
  let main_v16 : IVec S1x50000 1 := cmpf .olt main_v14 main_v15
  fn_part1 (F := F) main_arg4 main_arg5 main_arg6 main_arg7 main_arg8 main_arg10 main_arg11 main_arg12 main_arg13 main_arg14 main_arg15 main_arg16 main_arg17 main_arg18 main_arg19 main_arg20 main_arg21 main_arg22 main_v13 main_v16
-- ==== Kernel.lean ====
abbrev S1x500000 : Shape := ⟨2, ![1, 500000]⟩
abbrev S1x250000 : Shape := ⟨2, ![1, 250000]⟩
abbrev S1x50000 : Shape := ⟨2, ![1, 50000]⟩
abbrev S10000000 : Shape := ⟨1, ![10000000]⟩
abbrev S10000000x2 : Shape := ⟨2, ![10000000, 2]⟩
abbrev S50000 : Shape := ⟨1, ![50000]⟩
abbrev S50000x2 : Shape := ⟨2, ![50000, 2]⟩
abbrev S500000 : Shape := ⟨1, ![500000]⟩
abbrev S250000 : Shape := ⟨1, ![250000]⟩
abbrev S10000000x1 : Shape := ⟨2, ![10000000, 1]⟩
abbrev S_ : Shape := ⟨0, ![]⟩
abbrev S50000x10 : Shape := ⟨2, ![50000, 10]⟩
abbrev S50000x1 : Shape := ⟨2, ![50000, 1]⟩
abbrev S5000x10 : Shape := ⟨2, ![5000, 10]⟩
abbrev S5000x1 : Shape := ⟨2, ![5000, 1]⟩
abbrev S5000 : Shape := ⟨1, ![5000]⟩
abbrev S1x5x50000 : Shape := ⟨3, ![1, 5, 50000]⟩
abbrev S1x1x50000 : Shape := ⟨3, ![1, 1, 50000]⟩
abbrev S1x4x50000 : Shape := ⟨3, ![1, 4, 50000]⟩

abbrev nBuf : Space → Nat
  | .hbm => 93
  | .vmem => 41
  | .smem => 0
  | _ => 0

abbrev bufTy : (tb : Table) → Fin (tcTables nBuf tb) → BufTy
  | .hbm, ⟨0, _⟩ => ⟨S1x500000, .f32⟩
  | .hbm, ⟨1, _⟩ => ⟨S1x250000, .f32⟩
  | .hbm, ⟨2, _⟩ => ⟨S1x50000, .f32⟩
  | .hbm, ⟨3, _⟩ => ⟨S1x50000, .f32⟩
  | .hbm, ⟨4, _⟩ => ⟨S1x50000, .f32⟩
  | .hbm, ⟨5, _⟩ => ⟨S1x50000, .f32⟩
  | .hbm, ⟨6, _⟩ => ⟨S1x500000, .f32⟩
  | .hbm, ⟨7, _⟩ => ⟨S1x500000, .f32⟩
  | .hbm, ⟨8, _⟩ => ⟨S10000000, .f32⟩
  | .hbm, ⟨9, _⟩ => ⟨S10000000x2, .i32⟩
  | .hbm, ⟨10, _⟩ => ⟨S50000, .f32⟩
  | .hbm, ⟨11, _⟩ => ⟨S50000, .f32⟩
  | .hbm, ⟨12, _⟩ => ⟨S50000, .f32⟩
  | .hbm, ⟨13, _⟩ => ⟨S50000, .f32⟩
  | .hbm, ⟨14, _⟩ => ⟨S50000, .f32⟩
  | .hbm, ⟨15, _⟩ => ⟨S50000, .f32⟩
  | .hbm, ⟨16, _⟩ => ⟨S50000, .f32⟩
  | .hbm, ⟨17, _⟩ => ⟨S50000x2, .f32⟩
  | .hbm, ⟨18, _⟩ => ⟨S50000x2, .f32⟩
  | .hbm, ⟨19, _⟩ => ⟨S500000, .f32⟩
  | .hbm, ⟨20, _⟩ => ⟨S500000, .f32⟩
  | .hbm, ⟨21, _⟩ => ⟨S50000, .f32⟩
  | .hbm, ⟨22, _⟩ => ⟨S50000, .f32⟩
  | .hbm, ⟨23, _⟩ => ⟨S1x50000, .f32⟩
  | .hbm, ⟨24, _⟩ => ⟨S250000, .f32⟩
  | .hbm, ⟨25, _⟩ => ⟨S10000000x1, .i32⟩
  | .hbm, ⟨26, _⟩ => ⟨S10000000, .i32⟩
  | .hbm, ⟨27, _⟩ => ⟨S_, .i32⟩
  | .hbm, ⟨28, _⟩ => ⟨S10000000, .i32⟩
  | .hbm, ⟨29, _⟩ => ⟨S10000000, .i1⟩
  | .hbm, ⟨30, _⟩ => ⟨S_, .i32⟩
  | .hbm, ⟨31, _⟩ => ⟨S10000000, .i32⟩
  | .hbm, ⟨32, _⟩ => ⟨S10000000, .i32⟩
  | .hbm, ⟨33, _⟩ => ⟨S10000000, .i32⟩
  | .hbm, ⟨34, _⟩ => ⟨S10000000x1, .i32⟩
  | .hbm, ⟨35, _⟩ => ⟨S10000000, .f32⟩
  | .hbm, ⟨36, _⟩ => ⟨S10000000, .f32⟩
  | .hbm, ⟨37, _⟩ => ⟨S10000000x1, .i32⟩
  | .hbm, ⟨38, _⟩ => ⟨S10000000, .i32⟩
  | .hbm, ⟨39, _⟩ => ⟨S_, .f32⟩
  | .hbm, ⟨40, _⟩ => ⟨S500000, .f32⟩
  | .hbm, ⟨41, _⟩ => ⟨S10000000x1, .i32⟩
  | .hbm, ⟨42, _⟩ => ⟨S500000, .f32⟩
  | .hbm, ⟨43, _⟩ => ⟨S_, .f32⟩
  | .hbm, ⟨44, _⟩ => ⟨S500000, .f32⟩
  | .hbm, ⟨45, _⟩ => ⟨S500000, .f32⟩
  | .hbm, ⟨46, _⟩ => ⟨S500000, .f32⟩
  | .hbm, ⟨47, _⟩ => ⟨S500000, .f32⟩
  | .hbm, ⟨48, _⟩ => ⟨S500000, .f32⟩
  | .hbm, ⟨49, _⟩ => ⟨S50000x10, .f32⟩
  | .hbm, ⟨50, _⟩ => ⟨S500000, .f32⟩
  | .hbm, ⟨51, _⟩ => ⟨S50000x10, .f32⟩
  | .hbm, ⟨52, _⟩ => ⟨S50000x10, .f32⟩
  | .hbm, ⟨53, _⟩ => ⟨S50000x10, .f32⟩
  | .hbm, ⟨54, _⟩ => ⟨S50000x10, .f32⟩
  | .hbm, ⟨55, _⟩ => ⟨S50000x10, .f32⟩
  | .hbm, ⟨56, _⟩ => ⟨S50000x10, .f32⟩
  | .hbm, ⟨57, _⟩ => ⟨S50000x1, .f32⟩
  | .hbm, ⟨58, _⟩ => ⟨S1x500000, .f32⟩
  | .hbm, ⟨59, _⟩ => ⟨S1x500000, .f32⟩
  | .hbm, ⟨60, _⟩ => ⟨S1x50000, .f32⟩
  | .hbm, ⟨61, _⟩ => ⟨S1x50000, .f32⟩
  | .hbm, ⟨62, _⟩ => ⟨S1x50000, .f32⟩
  | .hbm, ⟨63, _⟩ => ⟨S1x50000, .f32⟩
  | .hbm, ⟨64, _⟩ => ⟨S1x50000, .f32⟩
  | .hbm, ⟨65, _⟩ => ⟨S1x50000, .f32⟩
  | .hbm, ⟨66, _⟩ => ⟨S1x50000, .f32⟩
  | .hbm, ⟨67, _⟩ => ⟨S1x50000, .f32⟩
  | .hbm, ⟨68, _⟩ => ⟨S1x50000, .f32⟩
  | .hbm, ⟨69, _⟩ => ⟨S1x50000, .f32⟩
  | .hbm, ⟨70, _⟩ => ⟨S50000x1, .f32⟩
  | .hbm, ⟨71, _⟩ => ⟨S50000, .f32⟩
  | .hbm, ⟨72, _⟩ => ⟨S1x50000, .f32⟩
  | .hbm, ⟨73, _⟩ => ⟨S50000x1, .f32⟩
  | .hbm, ⟨74, _⟩ => ⟨S50000, .f32⟩
  | .hbm, ⟨75, _⟩ => ⟨S1x50000, .f32⟩
  | .hbm, ⟨76, _⟩ => ⟨S50000x1, .f32⟩
  | .hbm, ⟨77, _⟩ => ⟨S50000, .f32⟩
  | .hbm, ⟨78, _⟩ => ⟨S1x50000, .f32⟩
  | .hbm, ⟨79, _⟩ => ⟨S50000x1, .f32⟩
  | .hbm, ⟨80, _⟩ => ⟨S50000, .f32⟩
  | .hbm, ⟨81, _⟩ => ⟨S1x50000, .f32⟩
  | .hbm, ⟨82, _⟩ => ⟨S1x50000, .f32⟩
  | .hbm, ⟨83, _⟩ => ⟨S1x50000, .f32⟩
  | .hbm, ⟨84, _⟩ => ⟨S1x50000, .f32⟩
  | .hbm, ⟨85, _⟩ => ⟨S1x50000, .f32⟩
  | .hbm, ⟨86, _⟩ => ⟨S1x50000, .f32⟩
  | .hbm, ⟨87, _⟩ => ⟨S1x50000, .f32⟩
  | .hbm, ⟨88, _⟩ => ⟨S1x5x50000, .f32⟩
  | .hbm, ⟨89, _⟩ => ⟨S1x1x50000, .f32⟩
  | .hbm, ⟨90, _⟩ => ⟨S1x4x50000, .f32⟩
  | .hbm, ⟨91, _⟩ => ⟨S1x5x50000, .f32⟩
  | .hbm, ⟨92, _⟩ => ⟨S1x250000, .f32⟩
  | .local _ .vmem, ⟨0, _⟩ => ⟨S5000x10, .f32⟩
  | .local _ .vmem, ⟨1, _⟩ => ⟨S5000x10, .f32⟩
  | .local _ .vmem, ⟨2, _⟩ => ⟨S5000x10, .f32⟩
  | .local _ .vmem, ⟨3, _⟩ => ⟨S5000x10, .f32⟩
  | .local _ .vmem, ⟨4, _⟩ => ⟨S5000x10, .f32⟩
  | .local _ .vmem, ⟨5, _⟩ => ⟨S5000x10, .f32⟩
  | .local _ .vmem, ⟨6, _⟩ => ⟨S5000x10, .f32⟩
  | .local _ .vmem, ⟨7, _⟩ => ⟨S5000x10, .f32⟩
  | .local _ .vmem, ⟨8, _⟩ => ⟨S5000x10, .f32⟩
  | .local _ .vmem, ⟨9, _⟩ => ⟨S5000x10, .f32⟩
  | .local _ .vmem, ⟨10, _⟩ => ⟨S5000x10, .f32⟩
  | .local _ .vmem, ⟨11, _⟩ => ⟨S5000x10, .f32⟩
  | .local _ .vmem, ⟨12, _⟩ => ⟨S5000x10, .f32⟩
  | .local _ .vmem, ⟨13, _⟩ => ⟨S5000x10, .f32⟩
  | .local _ .vmem, ⟨14, _⟩ => ⟨S5000x1, .f32⟩
  | .local _ .vmem, ⟨15, _⟩ => ⟨S5000x1, .f32⟩
  | .local _ .vmem, ⟨16, _⟩ => ⟨S1x50000, .f32⟩
  | .local _ .vmem, ⟨17, _⟩ => ⟨S1x50000, .f32⟩
  | .local _ .vmem, ⟨18, _⟩ => ⟨S1x50000, .f32⟩
  | .local _ .vmem, ⟨19, _⟩ => ⟨S1x50000, .f32⟩
  | .local _ .vmem, ⟨20, _⟩ => ⟨S1x50000, .f32⟩
  | .local _ .vmem, ⟨21, _⟩ => ⟨S1x50000, .f32⟩
  | .local _ .vmem, ⟨22, _⟩ => ⟨S1x50000, .f32⟩
  | .local _ .vmem, ⟨23, _⟩ => ⟨S1x50000, .f32⟩
  | .local _ .vmem, ⟨24, _⟩ => ⟨S1x50000, .f32⟩
  | .local _ .vmem, ⟨25, _⟩ => ⟨S1x50000, .f32⟩
  | .local _ .vmem, ⟨26, _⟩ => ⟨S1x50000, .f32⟩
  | .local _ .vmem, ⟨27, _⟩ => ⟨S1x50000, .f32⟩
  | .local _ .vmem, ⟨28, _⟩ => ⟨S1x50000, .f32⟩
  | .local _ .vmem, ⟨29, _⟩ => ⟨S1x50000, .f32⟩
  | .local _ .vmem, ⟨30, _⟩ => ⟨S1x50000, .f32⟩
  | .local _ .vmem, ⟨31, _⟩ => ⟨S1x50000, .f32⟩
  | .local _ .vmem, ⟨32, _⟩ => ⟨S1x50000, .f32⟩
  | .local _ .vmem, ⟨33, _⟩ => ⟨S1x50000, .f32⟩
  | .local _ .vmem, ⟨34, _⟩ => ⟨S1x50000, .f32⟩
  | .local _ .vmem, ⟨35, _⟩ => ⟨S1x50000, .f32⟩
  | .local _ .vmem, ⟨36, _⟩ => ⟨S1x50000, .f32⟩
  | .local _ .vmem, ⟨37, _⟩ => ⟨S1x50000, .f32⟩
  | .local _ .vmem, ⟨38, _⟩ => ⟨S1x50000, .f32⟩
  | .local _ .vmem, ⟨39, _⟩ => ⟨S1x50000, .f32⟩
  | .local _ .vmem, ⟨40, _⟩ => ⟨S1x50000, .f32⟩
  | _, _ => ⟨S1x500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28_0 : Ref sig .tc := ⟨.hbm, 55, rfl⟩
abbrev main_v28_1 : Ref sig .tc := ⟨.hbm, 56, rfl⟩
abbrev main_v28_2 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v53_2 : Ref sig .tc := ⟨.hbm, 84, rfl⟩
abbrev main_v53_3 : Ref sig .tc := ⟨.hbm, 85, rfl⟩
abbrev main_v53_4 : Ref sig .tc := ⟨.hbm, 86, rfl⟩
abbrev main_v53_5 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_stg15_0 : Ref sig .tc := ⟨.vmem, 31, rfl⟩
abbrev cc1_stg16_0 : Ref sig .tc := ⟨.vmem, 32, rfl⟩
abbrev cc1_stg17_0 : Ref sig .tc := ⟨.vmem, 33, rfl⟩
abbrev cc1_stg18_0 : Ref sig .tc := ⟨.vmem, 34, rfl⟩
abbrev cc1_stg19_0 : Ref sig .tc := ⟨.vmem, 35, rfl⟩
abbrev cc1_stg20_0 : Ref sig .tc := ⟨.vmem, 36, rfl⟩
abbrev cc1_stg21_0 : Ref sig .tc := ⟨.vmem, 37, rfl⟩
abbrev cc1_stg22_0 : Ref sig .tc := ⟨.vmem, 38, rfl⟩
abbrev cc1_stg23_0 : Ref sig .tc := ⟨.vmem, 39, rfl⟩
abbrev cc1_stg24_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem15_0 : DmaSem sig := 31
abbrev cc1_sem16_0 : DmaSem sig := 32
abbrev cc1_sem17_0 : DmaSem sig := 33
abbrev cc1_sem18_0 : DmaSem sig := 34
abbrev cc1_sem19_0 : DmaSem sig := 35
abbrev cc1_sem20_0 : DmaSem sig := 36
abbrev cc1_sem21_0 : DmaSem sig := 37
abbrev cc1_sem22_0 : DmaSem sig := 38
abbrev cc1_sem23_0 : DmaSem sig := 39
abbrev cc1_sem24_0 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x10 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x10 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x50000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x50000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x50000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x50000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x50000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x50000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x50000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x50000 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x50000 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x50000 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x50000 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x50000 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x50000 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x50000 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x50000 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x50000 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x50000 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S1x50000 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x50000 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1x50000 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x50000 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S1x50000 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x50000 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x50000 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

class Facts₀ : Prop where
  slices_S1x250000_S1x50000_0_0 : S1x250000.Slices ![0, 0] S1x50000
  shapeCasts_S1x250000_S250000 : S1x250000.ShapeCasts S250000
  slices_S10000000x2_S10000000x1_0_1 : S10000000x2.Slices ![0, 1] S10000000x1
  shapeCasts_S10000000x1_S10000000 : S10000000x1.ShapeCasts S10000000
  bcast_S_S10000000 : S_.BroadcastsInDim S10000000 (![] : Fin 0 → Fin S10000000.rank)
  bcast_S10000000_S10000000x1_0 : S10000000.BroadcastsInDim S10000000x1 (![0] : Fin 1 → Fin S10000000x1.rank)
  slices_S10000000x2_S10000000x1_0_0 : S10000000x2.Slices ![0, 0] S10000000x1
  bcast_S_S500000 : S_.BroadcastsInDim S500000 (![] : Fin 0 → Fin S500000.rank)
  shapeCasts_S1x500000_S500000 : S1x500000.ShapeCasts S500000
  shapeCasts_S500000_S50000x10 : S500000.ShapeCasts S50000x10
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  reduces_S5000x10_S5000 : S5000x10.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  shapeCasts_S50000x10_S1x500000 : S50000x10.ShapeCasts S1x500000
  shapeCasts_S50000x1_S1x50000 : S50000x1.ShapeCasts S1x50000
  shapeCasts_S50000_S1x50000 : S50000.ShapeCasts S1x50000
  slices_S50000x2_S50000x1_0_0 : S50000x2.Slices ![0, 0] S50000x1
  shapeCasts_S50000x1_S50000 : S50000x1.ShapeCasts S50000
  slices_S50000x2_S50000x1_0_1 : S50000x2.Slices ![0, 1] S50000x1
  inb_S1x50000_S1x50000_0_0 : ∀ a, (![0, 0] : Fin 2 → Nat) a + S1x50000.size a ≤ S1x50000.size a
  h_S1x50000 : 0 < S1x50000.numel
  shapeCasts_S1x50000_S1x50000 : S1x50000.ShapeCasts S1x50000
  natLt_1_32 : 1 < 32
  shapeCasts_S1x250000_S1x5x50000 : S1x250000.ShapeCasts S1x5x50000
  bcast_S1x50000_S1x1x50000_0_2 : S1x50000.BroadcastsInDim S1x1x50000 (![0, 2] : Fin 2 → Fin S1x1x50000.rank)
  slices_S1x5x50000_S1x4x50000_0_0_0 : S1x5x50000.Slices ![0, 0, 0] S1x4x50000
  concatenates_S1x1x50000_S1x4x50000_S1x5x50000_d1 : Shape.Concatenates [S1x1x50000, S1x4x50000] S1x5x50000 1
  shapeCasts_S1x5x50000_S1x250000 : S1x5x50000.ShapeCasts S1x250000
  gather_S250000_S10000000x1_S10000000_n_0_n_n_0_1_1_wf : GatherDims.WF S250000 S10000000x1 S10000000 [] [0] [] [0] [] 1 ![1]
  scatter_S500000_S10000000x1_S10000000_n_0_0_1_wf : ScatterDims.WF S500000 S10000000x1 S10000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S50000x10.size a
  hwx0_0 : ∀ i : grid0.Coords, EltTy.bits .f32 = 32 ∨ (Rect.block (s := S50000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x10.size a ≤ S50000x10.size a
  hwx0_1 : ∀ i : grid0.Coords, EltTy.bits .f32 = 32 ∨ (Rect.block (s := S50000x10) S5000x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x10.size a ≤ S50000x10.size a
  hwx0_2 : ∀ i : grid0.Coords, EltTy.bits .f32 = 32 ∨ (Rect.block (s := S50000x10) S5000x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S50000x10.size a
  hwx0_3 : ∀ i : grid0.Coords, EltTy.bits .f32 = 32 ∨ (Rect.block (s := S50000x10) S5000x10.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x10.size a ≤ S50000x10.size a
  hwx0_4 : ∀ i : grid0.Coords, EltTy.bits .f32 = 32 ∨ (Rect.block (s := S50000x10) S5000x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x10.size a ≤ S50000x10.size a
  hwx0_5 : ∀ i : grid0.Coords, EltTy.bits .f32 = 32 ∨ (Rect.block (s := S50000x10) S5000x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x10.size a ≤ S50000x10.size a
  hwx0_6 : ∀ i : grid0.Coords, EltTy.bits .f32 = 32 ∨ (Rect.block (s := S50000x10) S5000x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x1.size a ≤ S50000x1.size a
  hwx0_7 : ∀ i : grid0.Coords, EltTy.bits .f32 = 32 ∨ (Rect.block (s := S50000x1) S5000x1.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x50000.size a ≤ S1x50000.size a
  hwx1_0 : ∀ i : grid1.Coords, EltTy.bits .f32 = 32 ∨ (Rect.block (s := S1x50000) S1x50000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x50000.size a ≤ S1x50000.size a
  hwx1_1 : ∀ i : grid1.Coords, EltTy.bits .f32 = 32 ∨ (Rect.block (s := S1x50000) S1x50000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x50000.size a ≤ S1x50000.size a
  hwx1_2 : ∀ i : grid1.Coords, EltTy.bits .f32 = 32 ∨ (Rect.block (s := S1x50000) S1x50000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50000.size a ≤ S1x50000.size a
  hwx1_3 : ∀ i : grid1.Coords, EltTy.bits .f32 = 32 ∨ (Rect.block (s := S1x50000) S1x50000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x50000.size a ≤ S1x50000.size a
  hwx1_4 : ∀ i : grid1.Coords, EltTy.bits .f32 = 32 ∨ (Rect.block (s := S1x50000) S1x50000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x50000.size a ≤ S1x50000.size a
  hwx1_5 : ∀ i : grid1.Coords, EltTy.bits .f32 = 32 ∨ (Rect.block (s := S1x50000) S1x50000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x50000.size a ≤ S1x50000.size a
  hwx1_6 : ∀ i : grid1.Coords, EltTy.bits .f32 = 32 ∨ (Rect.block (s := S1x50000) S1x50000.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x50000.size a ≤ S1x50000.size a
  hwx1_7 : ∀ i : grid1.Coords, EltTy.bits .f32 = 32 ∨ (Rect.block (s := S1x50000) S1x50000.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x50000.size a ≤ S1x50000.size a
  hwx1_8 : ∀ i : grid1.Coords, EltTy.bits .f32 = 32 ∨ (Rect.block (s := S1x50000) S1x50000.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x50000.size a ≤ S1x50000.size a
  hwx1_9 : ∀ i : grid1.Coords, EltTy.bits .f32 = 32 ∨ (Rect.block (s := S1x50000) S1x50000.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x50000.size a ≤ S1x50000.size a
  hwx1_10 : ∀ i : grid1.Coords, EltTy.bits .f32 = 32 ∨ (Rect.block (s := S1x50000) S1x50000.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x50000.size a ≤ S1x50000.size a
  hwx1_11 : ∀ i : grid1.Coords, EltTy.bits .f32 = 32 ∨ (Rect.block (s := S1x50000) S1x50000.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x50000.size a ≤ S1x50000.size a
  hwx1_12 : ∀ i : grid1.Coords, EltTy.bits .f32 = 32 ∨ (Rect.block (s := S1x50000) S1x50000.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x50000.size a ≤ S1x50000.size a
  hwx1_13 : ∀ i : grid1.Coords, EltTy.bits .f32 = 32 ∨ (Rect.block (s := S1x50000) S1x50000.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x50000.size a ≤ S1x50000.size a
  hwx1_14 : ∀ i : grid1.Coords, EltTy.bits .f32 = 32 ∨ (Rect.block (s := S1x50000) S1x50000.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S1x50000.size a ≤ S1x50000.size a
  hwx1_15 : ∀ i : grid1.Coords, EltTy.bits .f32 = 32 ∨ (Rect.block (s := S1x50000) S1x50000.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x50000.size a ≤ S1x50000.size a
  hwx1_16 : ∀ i : grid1.Coords, EltTy.bits .f32 = 32 ∨ (Rect.block (s := S1x50000) S1x50000.size (cc1_transform_16 i) (hinb1_16 i)).WholeWords (EltTy.packing .f32)
  hstage1_17 : ∀ j, (stage1_17 j).IsWhole
  nbuf1_17 : grid1.bufCount reads1_17 true = 1
  hreads1_17 : ∀ i i' : grid1.Coords, (∀ a, reads1_17 a = true → i a = i' a) → cc1_transform_17 i = cc1_transform_17 i'
  hinb1_17 : ∀ (i : grid1.Coords) a, (cc1_transform_17 i a + 1) * S1x50000.size a ≤ S1x50000.size a
  hwx1_17 : ∀ i : grid1.Coords, EltTy.bits .f32 = 32 ∨ (Rect.block (s := S1x50000) S1x50000.size (cc1_transform_17 i) (hinb1_17 i)).WholeWords (EltTy.packing .f32)
  hstage1_18 : ∀ j, (stage1_18 j).IsWhole
  nbuf1_18 : grid1.bufCount reads1_18 true = 1
  hreads1_18 : ∀ i i' : grid1.Coords, (∀ a, reads1_18 a = true → i a = i' a) → cc1_transform_18 i = cc1_transform_18 i'
  hinb1_18 : ∀ (i : grid1.Coords) a, (cc1_transform_18 i a + 1) * S1x50000.size a ≤ S1x50000.size a
  hwx1_18 : ∀ i : grid1.Coords, EltTy.bits .f32 = 32 ∨ (Rect.block (s := S1x50000) S1x50000.size (cc1_transform_18 i) (hinb1_18 i)).WholeWords (EltTy.packing .f32)
  hstage1_19 : ∀ j, (stage1_19 j).IsWhole
  nbuf1_19 : grid1.bufCount reads1_19 true = 1
  hreads1_19 : ∀ i i' : grid1.Coords, (∀ a, reads1_19 a = true → i a = i' a) → cc1_transform_19 i = cc1_transform_19 i'
  hinb1_19 : ∀ (i : grid1.Coords) a, (cc1_transform_19 i a + 1) * S1x50000.size a ≤ S1x50000.size a
  hwx1_19 : ∀ i : grid1.Coords, EltTy.bits .f32 = 32 ∨ (Rect.block (s := S1x50000) S1x50000.size (cc1_transform_19 i) (hinb1_19 i)).WholeWords (EltTy.packing .f32)
  hstage1_20 : ∀ j, (stage1_20 j).IsWhole
  nbuf1_20 : grid1.bufCount reads1_20 true = 1
  hreads1_20 : ∀ i i' : grid1.Coords, (∀ a, reads1_20 a = true → i a = i' a) → cc1_transform_20 i = cc1_transform_20 i'
  hinb1_20 : ∀ (i : grid1.Coords) a, (cc1_transform_20 i a + 1) * S1x50000.size a ≤ S1x50000.size a
  hwx1_20 : ∀ i : grid1.Coords, EltTy.bits .f32 = 32 ∨ (Rect.block (s := S1x50000) S1x50000.size (cc1_transform_20 i) (hinb1_20 i)).WholeWords (EltTy.packing .f32)
  hstage1_21 : ∀ j, (stage1_21 j).IsWhole
  nbuf1_21 : grid1.bufCount reads1_21 true = 1
  hreads1_21 : ∀ i i' : grid1.Coords, (∀ a, reads1_21 a = true → i a = i' a) → cc1_transform_21 i = cc1_transform_21 i'
  hinb1_21 : ∀ (i : grid1.Coords) a, (cc1_transform_21 i a + 1) * S1x50000.size a ≤ S1x50000.size a
  hwx1_21 : ∀ i : grid1.Coords, EltTy.bits .f32 = 32 ∨ (Rect.block (s := S1x50000) S1x50000.size (cc1_transform_21 i) (hinb1_21 i)).WholeWords (EltTy.packing .f32)
  hstage1_22 : ∀ j, (stage1_22 j).IsWhole
  nbuf1_22 : grid1.bufCount reads1_22 true = 1
  hreads1_22 : ∀ i i' : grid1.Coords, (∀ a, reads1_22 a = true → i a = i' a) → cc1_transform_22 i = cc1_transform_22 i'
  hinb1_22 : ∀ (i : grid1.Coords) a, (cc1_transform_22 i a + 1) * S1x50000.size a ≤ S1x50000.size a
  hwx1_22 : ∀ i : grid1.Coords, EltTy.bits .f32 = 32 ∨ (Rect.block (s := S1x50000) S1x50000.size (cc1_transform_22 i) (hinb1_22 i)).WholeWords (EltTy.packing .f32)
  hstage1_23 : ∀ j, (stage1_23 j).IsWhole
  nbuf1_23 : grid1.bufCount reads1_23 true = 1
  hreads1_23 : ∀ i i' : grid1.Coords, (∀ a, reads1_23 a = true → i a = i' a) → cc1_transform_23 i = cc1_transform_23 i'
  hinb1_23 : ∀ (i : grid1.Coords) a, (cc1_transform_23 i a + 1) * S1x50000.size a ≤ S1x50000.size a
  hwx1_23 : ∀ i : grid1.Coords, EltTy.bits .f32 = 32 ∨ (Rect.block (s := S1x50000) S1x50000.size (cc1_transform_23 i) (hinb1_23 i)).WholeWords (EltTy.packing .f32)
  hstage1_24 : ∀ j, (stage1_24 j).IsWhole
  nbuf1_24 : grid1.bufCount reads1_24 true = 1
  hreads1_24 : ∀ i i' : grid1.Coords, (∀ a, reads1_24 a = true → i a = i' a) → cc1_transform_24 i = cc1_transform_24 i'
  hinb1_24 : ∀ (i : grid1.Coords) a, (cc1_transform_24 i a + 1) * S1x50000.size a ≤ S1x50000.size a
  hwx1_24 : ∀ i : grid1.Coords, EltTy.bits .f32 = 32 ∨ (Rect.block (s := S1x50000) S1x50000.size (cc1_transform_24 i) (hinb1_24 i)).WholeWords (EltTy.packing .f32)

variable [Facts₀]

def gather_S250000_S10000000x1_S10000000_n_0_n_n_0_1_1 : GatherDims S250000 S10000000x1 S10000000 where
  offsetDims := []
  collapsedSliceDims := [0]
  operandBatchingDims := []
  startIndicesBatchingDims := []
  startIndexMap := [0]
  indexVectorDim := 1
  sliceSizes := ![1]
  wf := gather_S250000_S10000000x1_S10000000_n_0_n_n_0_1_1_wf
def scatter_S500000_S10000000x1_S10000000_n_0_0_1 : ScatterDims S500000 S10000000x1 S10000000 where
  updateWindowDims := []
  insertedWindowDims := [0]
  scatterDimsToOperandDims := [0]
  indexVectorDim := 1
  wf := scatter_S500000_S10000000x1_S10000000_n_0_0_1_wf

abbrev win0_0 : Pipeline.Window sig grid0 :=
  Pipeline.Window.ofSpec (Memref.whole main_v22) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x10.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S5000x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S5000x10.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S5000x10.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S5000x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg2) S1x50000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1x50000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1x50000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1x50000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x50000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x50000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x50000.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x50000.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S1x50000.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v35) S1x50000.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v36) S1x50000.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v37) S1x50000.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v38) S1x50000.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v39) S1x50000.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v40) S1x50000.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v43) S1x50000.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v46) S1x50000.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v49) S1x50000.size cc1_transform_17 reads1_17 false true 1 stage1_17 sem1_17
    hrank1 hreads1_17 hinb1_17 nbuf1_17 (Memref.isWhole_whole _) hwx1_17 hstage1_17

abbrev win1_18 : Pipeline.Window sig grid1 :=
  Pipeline.Window.ofSpec (Memref.whole main_v52) S1x50000.size cc1_transform_18 reads1_18 false true 1 stage1_18 sem1_18
    hrank1 hreads1_18 hinb1_18 nbuf1_18 (Memref.isWhole_whole _) hwx1_18 hstage1_18

abbrev win1_19 : Pipeline.Window sig grid1 :=
  Pipeline.Window.ofSpec (Memref.whole main_v53_0) S1x50000.size cc1_transform_19 reads1_19 true true 1 stage1_19 sem1_19
    hrank1 hreads1_19 hinb1_19 nbuf1_19 (Memref.isWhole_whole _) hwx1_19 hstage1_19

abbrev win1_20 : Pipeline.Window sig grid1 :=
  Pipeline.Window.ofSpec (Memref.whole main_v53_1) S1x50000.size cc1_transform_20 reads1_20 true true 1 stage1_20 sem1_20
    hrank1 hreads1_20 hinb1_20 nbuf1_20 (Memref.isWhole_whole _) hwx1_20 hstage1_20

abbrev win1_21 : Pipeline.Window sig grid1 :=
  Pipeline.Window.ofSpec (Memref.whole main_v53_2) S1x50000.size cc1_transform_21 reads1_21 true true 1 stage1_21 sem1_21
    hrank1 hreads1_21 hinb1_21 nbuf1_21 (Memref.isWhole_whole _) hwx1_21 hstage1_21

abbrev win1_22 : Pipeline.Window sig grid1 :=
  Pipeline.Window.ofSpec (Memref.whole main_v53_3) S1x50000.size cc1_transform_22 reads1_22 true true 1 stage1_22 sem1_22
    hrank1 hreads1_22 hinb1_22 nbuf1_22 (Memref.isWhole_whole _) hwx1_22 hstage1_22

abbrev win1_23 : Pipeline.Window sig grid1 :=
  Pipeline.Window.ofSpec (Memref.whole main_v53_4) S1x50000.size cc1_transform_23 reads1_23 true true 1 stage1_23 sem1_23
    hrank1 hreads1_23 hinb1_23 nbuf1_23 (Memref.isWhole_whole _) hwx1_23 hstage1_23

abbrev win1_24 : Pipeline.Window sig grid1 :=
  Pipeline.Window.ofSpec (Memref.whole main_v53_5) S1x50000.size cc1_transform_24 reads1_24 true true 1 stage1_24 sem1_24
    hrank1 hreads1_24 hinb1_24 nbuf1_24 (Memref.isWhole_whole _) hwx1_24 hstage1_24

abbrev win1 : Fin 25 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | 21 => win1_21 | 22 => win1_22 | 23 => win1_23 | 24 => win1_24 | ⟨_ + 25, h⟩ => absurd h (Nat.not_lt.2 (Nat.le_add_left _ _))
abbrev spec1 : Fin 25 → Pipeline.WinSpec sig grid1.rank := fun w => (win1 w).toWinSpec

class Facts : Prop extends Facts₀ where

variable [Facts]
-- ==== ReferenceIdeal.lean ====
abbrev S1x500000 : Shape := ⟨2, ![1, 500000]⟩
abbrev S1x250000 : Shape := ⟨2, ![1, 250000]⟩
abbrev S1x50000 : Shape := ⟨2, ![1, 50000]⟩
abbrev S10000000 : Shape := ⟨1, ![10000000]⟩
abbrev S10000000x2 : Shape := ⟨2, ![10000000, 2]⟩
abbrev S50000 : Shape := ⟨1, ![50000]⟩
abbrev S50000x2 : Shape := ⟨2, ![50000, 2]⟩
abbrev S500000 : Shape := ⟨1, ![500000]⟩
abbrev S1x5x50000 : Shape := ⟨3, ![1, 5, 50000]⟩
abbrev S1x1x50000 : Shape := ⟨3, ![1, 1, 50000]⟩
abbrev S_ : Shape := ⟨0, ![]⟩
abbrev S10000000x1 : Shape := ⟨2, ![10000000, 1]⟩
abbrev S250000x1 : Shape := ⟨2, ![250000, 1]⟩
abbrev S500000x1 : Shape := ⟨2, ![500000, 1]⟩
abbrev S50000x1 : Shape := ⟨2, ![50000, 1]⟩
abbrev S1x50000x10 : Shape := ⟨3, ![1, 50000, 10]⟩
abbrev S1x4x50000 : Shape := ⟨3, ![1, 4, 50000]⟩

abbrev nBuf : Space → Nat
  | .hbm => 154
  | .vmem => 0
  | .smem => 0
  | _ => 0

abbrev hbmTy0_0 (i : Nat) : BufTy := match i % 128 with
  | 0 => ⟨S1x500000, .f32⟩
  | 1 => ⟨S1x250000, .f32⟩
  | 2 => ⟨S1x50000, .f32⟩
  | 3 => ⟨S1x50000, .f32⟩
  | 4 => ⟨S1x50000, .f32⟩
  | 5 => ⟨S1x50000, .f32⟩
  | 6 => ⟨S1x500000, .f32⟩
  | 7 => ⟨S1x500000, .f32⟩
  | 8 => ⟨S10000000, .f32⟩
  | 9 => ⟨S10000000x2, .i32⟩
  | 10 => ⟨S50000, .f32⟩
  | 11 => ⟨S50000, .f32⟩
  | 12 => ⟨S50000, .f32⟩
  | 13 => ⟨S50000, .f32⟩
  | 14 => ⟨S50000, .f32⟩
  | 15 => ⟨S50000, .f32⟩
  | 16 => ⟨S50000, .f32⟩
  | 17 => ⟨S50000x2, .f32⟩
  | 18 => ⟨S50000x2, .f32⟩
  | 19 => ⟨S500000, .f32⟩
  | 20 => ⟨S500000, .f32⟩
  | 21 => ⟨S50000, .f32⟩
  | 22 => ⟨S50000, .f32⟩
  | 23 => ⟨S1x5x50000, .f32⟩
  | 24 => ⟨S1x1x50000, .f32⟩
  | 25 => ⟨S1x50000, .f32⟩
  | 26 => ⟨S_, .f32⟩
  | 27 => ⟨S1x250000, .f32⟩
  | 28 => ⟨S1x250000, .f32⟩
  | 29 => ⟨S1x250000, .f32⟩
  | 30 => ⟨S1x250000, .f32⟩
  | 31 => ⟨S10000000x1, .f32⟩
  | 32 => ⟨S250000x1, .f32⟩
  | 33 => ⟨S10000000x1, .i32⟩
  | 34 => ⟨S10000000, .i32⟩
  | 35 => ⟨S_, .i32⟩
  | 36 => ⟨S10000000, .i32⟩
  | 37 => ⟨S10000000, .i1⟩
  | 38 => ⟨S_, .i32⟩
  | 39 => ⟨S10000000, .i32⟩
  | 40 => ⟨S10000000, .i32⟩
  | 41 => ⟨S10000000, .i32⟩
  | 42 => ⟨S10000000x1, .i32⟩
  | 43 => ⟨S10000000x1, .f32⟩
  | 44 => ⟨S10000000x1, .f32⟩
  | 45 => ⟨S10000000x1, .i32⟩
  | 46 => ⟨S10000000, .i32⟩
  | 47 => ⟨S_, .f32⟩
  | 48 => ⟨S500000x1, .f32⟩
  | 49 => ⟨S10000000x1, .i32⟩
  | 50 => ⟨S500000x1, .f32⟩
  | 51 => ⟨S1x500000, .f32⟩
  | 52 => ⟨S_, .f32⟩
  | 53 => ⟨S1x500000, .f32⟩
  | 54 => ⟨S1x500000, .f32⟩
  | 55 => ⟨S1x500000, .f32⟩
  | 56 => ⟨S1x500000, .f32⟩
  | 57 => ⟨S1x500000, .f32⟩
  | 58 => ⟨S1x500000, .f32⟩
  | 59 => ⟨S1x500000, .f32⟩
  | 60 => ⟨S1x500000, .f32⟩
  | 61 => ⟨S1x500000, .f32⟩
  | 62 => ⟨S1x500000, .f32⟩
  | 63 => ⟨S_, .f32⟩
  | 64 => ⟨S500000, .f32⟩
  | 65 => ⟨S500000, .f32⟩
  | 66 => ⟨S1x500000, .f32⟩
  | 67 => ⟨S1x500000, .f32⟩
  | 68 => ⟨S1x500000, .f32⟩
  | 69 => ⟨S1x50000, .f32⟩
  | 70 => ⟨S1x50000, .f32⟩
  | 71 => ⟨S1x50000, .f32⟩
  | 72 => ⟨S_, .f32⟩
  | 73 => ⟨S1x50000, .f32⟩
  | 74 => ⟨S1x50000, .f32⟩
  | 75 => ⟨S_, .f32⟩
  | 76 => ⟨S1x50000, .f32⟩
  | 77 => ⟨S1x50000, .f32⟩
  | 78 => ⟨S50000x2, .f32⟩
  | 79 => ⟨S50000x2, .f32⟩
  | 80 => ⟨S_, .f32⟩
  | 81 => ⟨S50000x2, .f32⟩
  | 82 => ⟨S50000x2, .f32⟩
  | 83 => ⟨S_, .f32⟩
  | 84 => ⟨S50000x2, .f32⟩
  | 85 => ⟨S50000x2, .f32⟩
  | 86 => ⟨S50000x1, .f32⟩
  | 87 => ⟨S50000, .f32⟩
  | 88 => ⟨S_, .f32⟩
  | 89 => ⟨S50000, .f32⟩
  | 90 => ⟨S50000, .f32⟩
  | 91 => ⟨S50000, .f32⟩
  | 92 => ⟨S1x50000, .f32⟩
  | 93 => ⟨S1x50000, .f32⟩
  | 94 => ⟨S50000x1, .f32⟩
  | 95 => ⟨S50000, .f32⟩
  | 96 => ⟨S1x50000, .f32⟩
  | 97 => ⟨S1x50000, .f32⟩
  | 98 => ⟨S1x50000, .f32⟩
  | 99 => ⟨S50000x1, .f32⟩
  | 100 => ⟨S50000, .f32⟩
  | 101 => ⟨S_, .f32⟩
  | 102 => ⟨S50000, .f32⟩
  | 103 => ⟨S50000, .f32⟩
  | 104 => ⟨S50000, .f32⟩
  | 105 => ⟨S1x50000, .f32⟩
  | 106 => ⟨S1x50000, .f32⟩
  | 107 => ⟨S50000x1, .f32⟩
  | 108 => ⟨S50000, .f32⟩
  | 109 => ⟨S1x50000, .f32⟩
  | 110 => ⟨S1x50000, .f32⟩
  | 111 => ⟨S1x50000, .f32⟩
  | 112 => ⟨S1x50000x10, .f32⟩
  | 113 => ⟨S_, .f32⟩
  | 114 => ⟨S1x50000, .f32⟩
  | 115 => ⟨S1x50000, .f32⟩
  | 116 => ⟨S1x50000, .f32⟩
  | 117 => ⟨S1x50000, .f32⟩
  | 118 => ⟨S1x50000, .f32⟩
  | 119 => ⟨S50000, .f32⟩
  | 120 => ⟨S1x50000, .f32⟩
  | 121 => ⟨S1x50000, .f32⟩
  | 122 => ⟨S1x50000, .f32⟩
  | 123 => ⟨S1x50000, .f32⟩
  | 124 => ⟨S1x50000, .f32⟩
  | 125 => ⟨S1x50000, .f32⟩
  | 126 => ⟨S1x50000, .f32⟩
  | 127 => ⟨S50000, .f32⟩
  | _ => ⟨S1x500000, .f32⟩

abbrev hbmTy0_1 (i : Nat) : BufTy := match i % 128 with
  | 0 => ⟨S1x50000, .f32⟩
  | 1 => ⟨S1x50000, .f32⟩
  | 2 => ⟨S_, .f32⟩
  | 3 => ⟨S1x50000, .f32⟩
  | 4 => ⟨S1x50000, .i1⟩
  | 5 => ⟨S1x50000, .f32⟩
  | 6 => ⟨S_, .f32⟩
  | 7 => ⟨S1x50000, .f32⟩
  | 8 => ⟨S1x50000, .i1⟩
  | 9 => ⟨S_, .f32⟩
  | 10 => ⟨S_, .f32⟩
  | 11 => ⟨S1x50000, .f32⟩
  | 12 => ⟨S1x50000, .f32⟩
  | 13 => ⟨S_, .f32⟩
  | 14 => ⟨S1x50000, .f32⟩
  | 15 => ⟨S1x50000, .i1⟩
  | 16 => ⟨S1x50000, .f32⟩
  | 17 => ⟨S1x50000, .f32⟩
  | 18 => ⟨S1x1x50000, .f32⟩
  | 19 => ⟨S1x4x50000, .f32⟩
  | 20 => ⟨S1x5x50000, .f32⟩
  | 21 => ⟨S1x250000, .f32⟩
  | 22 => ⟨S1x50000, .f32⟩
  | 23 => ⟨S1x50000, .f32⟩
  | 24 => ⟨S1x50000, .f32⟩
  | 25 => ⟨S1x50000, .f32⟩
  | _ => ⟨S1x500000, .f32⟩

abbrev hbmTy (i : Nat) : BufTy := match i / 128 with
  | 0 => hbmTy0_0 i
  | 1 => hbmTy0_1 i
  | _ => ⟨S1x500000, .f32⟩

abbrev bufTy : (tb : Table) → Fin (tcTables nBuf tb) → BufTy
  | .hbm, ⟨i, _⟩ => hbmTy i
  | _, _ => ⟨S1x500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c : Ref sig .tc := ⟨.hbm, 35, rfl⟩
abbrev main_v11 : Ref sig .tc := ⟨.hbm, 36, rfl⟩
abbrev main_v12 : Ref sig .tc := ⟨.hbm, 37, rfl⟩
abbrev main_c_0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_1 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_6 : Ref sig .tc := ⟨.hbm, 80, rfl⟩
abbrev main_v49 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_8 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_9 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_10 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_11 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_12 : Ref sig .tc := ⟨.hbm, 134, rfl⟩
abbrev main_v97 : Ref sig .tc := ⟨.hbm, 135, rfl⟩
abbrev main_v98 : Ref sig .tc := ⟨.hbm, 136, rfl⟩
abbrev main_cst_13 : Ref sig .tc := ⟨.hbm, 137, rfl⟩
abbrev main_call0_v0 : Ref sig .tc := ⟨.hbm, 138, rfl⟩
abbrev main_call0_v1 : Ref sig .tc := ⟨.hbm, 139, rfl⟩
abbrev main_v99 : Ref sig .tc := ⟨.hbm, 140, rfl⟩
abbrev main_cst_14 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]

class Facts₀ : Prop where
  shapeCasts_S1x250000_S1x5x50000 : S1x250000.ShapeCasts S1x5x50000
  slices_S1x5x50000_S1x1x50000_0_0_0 : S1x5x50000.Slices ![0, 0, 0] S1x1x50000
  shapeCasts_S1x1x50000_S1x50000 : S1x1x50000.ShapeCasts S1x50000
  bcast_S_S1x250000 : S_.BroadcastsInDim S1x250000 (![] : Fin 0 → Fin S1x250000.rank)
  bcast_S10000000_S10000000x1_0 : S10000000.BroadcastsInDim S10000000x1 (![0] : Fin 1 → Fin S10000000x1.rank)
  transposes_S1x250000_S250000x1_1_0 : S1x250000.Transposes [1, 0] S250000x1
  slices_S10000000x2_S10000000x1_0_1 : S10000000x2.Slices ![0, 1] S10000000x1
  shapeCasts_S10000000x1_S10000000 : S10000000x1.ShapeCasts S10000000
  bcast_S_S10000000 : S_.BroadcastsInDim S10000000 (![] : Fin 0 → Fin S10000000.rank)
  slices_S10000000x2_S10000000x1_0_0 : S10000000x2.Slices ![0, 0] S10000000x1
  bcast_S_S500000x1 : S_.BroadcastsInDim S500000x1 (![] : Fin 0 → Fin S500000x1.rank)
  transposes_S500000x1_S1x500000_1_0 : S500000x1.Transposes [1, 0] S1x500000
  bcast_S_S1x500000 : S_.BroadcastsInDim S1x500000 (![] : Fin 0 → Fin S1x500000.rank)
  bcast_S500000_S1x500000_1 : S500000.BroadcastsInDim S1x500000 (![1] : Fin 1 → Fin S1x500000.rank)
  bcast_S_S500000 : S_.BroadcastsInDim S500000 (![] : Fin 0 → Fin S500000.rank)
  bcast_S50000_S1x50000_1 : S50000.BroadcastsInDim S1x50000 (![1] : Fin 1 → Fin S1x50000.rank)
  bcast_S_S1x50000 : S_.BroadcastsInDim S1x50000 (![] : Fin 0 → Fin S1x50000.rank)
  bcast_S_S50000x2 : S_.BroadcastsInDim S50000x2 (![] : Fin 0 → Fin S50000x2.rank)
  slices_S50000x2_S50000x1_0_0 : S50000x2.Slices ![0, 0] S50000x1
  shapeCasts_S50000x1_S50000 : S50000x1.ShapeCasts S50000
  bcast_S_S50000 : S_.BroadcastsInDim S50000 (![] : Fin 0 → Fin S50000.rank)
  slices_S50000x2_S50000x1_0_1 : S50000x2.Slices ![0, 1] S50000x1
  shapeCasts_S1x500000_S1x50000x10 : S1x500000.ShapeCasts S1x50000x10
  reducesTo_S1x50000x10_S1x50000_d2 : S1x50000x10.ReducesTo [2] S1x50000
  h_S_ : 0 < S_.numel
  bcast_S1x50000_S1x1x50000_0_2 : S1x50000.BroadcastsInDim S1x1x50000 (![0, 2] : Fin 2 → Fin S1x1x50000.rank)
  slices_S1x5x50000_S1x4x50000_0_0_0 : S1x5x50000.Slices ![0, 0, 0] S1x4x50000
  concatenates_S1x1x50000_S1x4x50000_S1x5x50000_d1 : Shape.Concatenates [S1x1x50000, S1x4x50000] S1x5x50000 1
  shapeCasts_S1x5x50000_S1x250000 : S1x5x50000.ShapeCasts S1x250000
  gather_S250000x1_S10000000x1_S10000000x1_1_0_n_n_0_1_11_wf : GatherDims.WF S250000x1 S10000000x1 S10000000x1 [1] [0] [] [0] [] 1 ![1, 1]
  scatter_S500000x1_S10000000x1_S10000000x1_1_0_0_1_wf : ScatterDims.WF S500000x1 S10000000x1 S10000000x1 [1] [0] [0] 1

variable [Facts₀]

def gather_S250000x1_S10000000x1_S10000000x1_1_0_n_n_0_1_11 : GatherDims S250000x1 S10000000x1 S10000000x1 where
  offsetDims := [1]
  collapsedSliceDims := [0]
  operandBatchingDims := []
  startIndicesBatchingDims := []
  startIndexMap := [0]
  indexVectorDim := 1
  sliceSizes := ![1, 1]
  wf := gather_S250000x1_S10000000x1_S10000000x1_1_0_n_n_0_1_11_wf
def scatter_S500000x1_S10000000x1_S10000000x1_1_0_0_1 : ScatterDims S500000x1 S10000000x1 S10000000x1 where
  updateWindowDims := [1]
  insertedWindowDims := [0]
  scatterDimsToOperandDims := [0]
  indexVectorDim := 1
  wf := scatter_S500000x1_S10000000x1_S10000000x1_1_0_0_1_wf

class Facts : Prop extends Facts₀ where

variable [Facts]
-- ==== Proof.Spec.lean ====
/-
  One time step of a column of leaky integrate-and-fire neurons, entry by entry on the extended reals.

  There are 50000 neurons, each with 10 synaptic receptors (500000 synapse slots, slot 10 n + t belonging to neuron n)
  and a spike history of 5 steps (250000 history slots, the newest step first).  Ten million weighted edges carry
  history slots to synapse slots.  Every function below gives ONE entry of one result as a function of the argument
  arrays, the arrays taken as plain functions of their flat positions.
-/
import Idealize.ShloMosaic.PureOps.Ideal
import Idealize.ShloMosaic.Lib.ValueIdx

noncomputable section

open scoped BigOperators

namespace Cert.Spec

open Idealize.ShloMosaic

/-- The literals the two programs share, as the extended reals their words denote (never evaluated: the same word
    stands on both sides). -/
abbrev zero : EReal := Ideal.ofBits .f32 0x00000000#32
abbrev one : EReal := Ideal.ofBits .f32 0x3F800000#32
abbrev negOne : EReal := Ideal.ofBits .f32 0xBF800000#32
abbrev half : EReal := Ideal.ofBits .f32 0x3F000000#32

/-- The history slot an edge reads: its second entry, counted from the end when it is negative, then clamped into
    the 250000 slots. -/
def col (idx : Fin 10000000 → Fin 2 → BitVec 32) (e : Fin 10000000) : Fin 250000 :=
  ⟨min (Scalar.select (IntOp.cmpi .slt (idx e 1) 0#32) (IntOp.addi (idx e 1) 250000#32) (idx e 1)).toInt.toNat (250000 - 1),
    by omega⟩

/-- The current arriving at synapse slot q: the weighted history entries of the edges whose first entry, read signed,
    is q (an edge whose first entry is no slot is dropped), summed from zero, times one, plus the external input. -/
def recIn (w : Fin 10000000 → EReal) (idx : Fin 10000000 → Fin 2 → BitVec 32) (z : Fin 250000 → EReal)
    (inp : Fin 500000 → EReal) (q : Fin 500000) : EReal :=
  (zero + ∑ e ∈ Finset.univ.filter (fun e : Fin 10000000 => (idx e 0).toInt = (q.val : ℤ)), w e * z (col idx e)) * one
    + inp q

/-- The rising phase of the synaptic current at slot q after the step. -/
def newPscRise (sd pr rin pini : Fin 500000 → EReal) (q : Fin 500000) : EReal :=
  sd q * pr q + rin q * pini q

/-- The synaptic current at slot q after the step. -/
def newPsc (psc sd pr : Fin 500000 → EReal) (q : Fin 500000) : EReal :=
  psc q * sd q + one * sd q * pr q

/-- A neuron's input current: its ten receptors' synaptic currents summed from zero. -/
def inCur (psc : Fin 500000 → EReal) (n : Fin 50000) : EReal :=
  zero + ∑ t : Fin 10, psc ⟨10 * n.val + t.val, by omega⟩

/-- The refractory counter after the step: the old one, plus the refractory time if the neuron has just fired, less
    one step, never below zero. -/
def newR (r pz tref : EReal) : EReal := max (r + pz * tref - one) zero

/-- An after-spike current after the step: decayed at the rate the logistic of its stored constant gives, plus its
    amplitude if the neuron has just fired. -/
def newAsc (k asc pz amp : EReal) : EReal := Ideal.exp (negOne * Ideal.logistic k) * asc + pz * amp

/-- The membrane potential before the reset. -/
def preV (decay v cf ic a1 a2 g el : EReal) : EReal := decay * v + cf * (ic + a1 + a2 + g * el)

/-- The spike of the step: one when the potential, measured from the threshold in units of threshold minus rest, is
    positive and the neuron is not refractory, else zero. -/
def spike (pv vth el nr : EReal) : EReal :=
  Scalar.select (Ideal.cmp .ogt nr zero) zero
    (((BitVec.setWidth 32 (Ideal.cmp .ogt (Ideal.div (pv - vth) (vth - el)) zero)).toInt : ℝ) : EReal)

/-- The membrane potential after the step: reset where the neuron fires. -/
def newV (sp vreset pv : EReal) : EReal := Scalar.select (Ideal.cmp .ogt sp half) vreset pv

/-- The reported potential. -/
def outV (nv vs vo : EReal) : EReal := nv * vs + vo

/-- The spike history after the step: the new spikes first, then the four newest old steps. -/
def newZbuf (nz : Fin 50000 → EReal) (z : Fin 250000 → EReal) (p : Fin 250000) : EReal :=
  if h : p.val < 50000 then nz ⟨p.val, h⟩ else z ⟨p.val - 50000, by omega⟩

end Cert.Spec

end
-- ==== Proof.Region1Value.lean ====
/-
  The membrane update (the second pipelined kernel), as whole arrays: one grid point, nineteen [1 × 50000] argument
  arrays, six [1 × 50000] result arrays, every entry a function of the same entry of the arguments (Spec.lean's formulas).
-/
import proofs.«421398_j54142357733913_2_alg».proof.Proof.KernelIdealFrame
import proofs.«421398_j54142357733913_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The nineteen argument arrays of the membrane update as the region finds them. -/
abbrev r1v (c : Dev nD) : FVec Ideal S1x50000 .f32 := V c main_arg2
abbrev r1r (c : Dev nD) : FVec Ideal S1x50000 .f32 := V c main_arg3
abbrev r1a1 (c : Dev nD) : FVec Ideal S1x50000 .f32 := V c main_arg4
abbrev r1a2 (c : Dev nD) : FVec Ideal S1x50000 .f32 := V c main_arg5
abbrev r1pz (c : Dev nD) : FVec Ideal S1x50000 .f32 := V c main_v0
abbrev r1ic (c : Dev nD) : FVec Ideal S1x50000 .f32 := V c main_v31
abbrev r1vth (c : Dev nD) : FVec Ideal S1x50000 .f32 := V c main_v32
abbrev r1el (c : Dev nD) : FVec Ideal S1x50000 .f32 := V c main_v33
abbrev r1vreset (c : Dev nD) : FVec Ideal S1x50000 .f32 := V c main_v34
abbrev r1g (c : Dev nD) : FVec Ideal S1x50000 .f32 := V c main_v35
abbrev r1decay (c : Dev nD) : FVec Ideal S1x50000 .f32 := V c main_v36
abbrev r1cf (c : Dev nD) : FVec Ideal S1x50000 .f32 := V c main_v37
abbrev r1tref (c : Dev nD) : FVec Ideal S1x50000 .f32 := V c main_v38
abbrev r1vs (c : Dev nD) : FVec Ideal S1x50000 .f32 := V c main_v39
abbrev r1vo (c : Dev nD) : FVec Ideal S1x50000 .f32 := V c main_v40
abbrev r1k0 (c : Dev nD) : FVec Ideal S1x50000 .f32 := V c main_v43
abbrev r1k1 (c : Dev nD) : FVec Ideal S1x50000 .f32 := V c main_v46
abbrev r1amp0 (c : Dev nD) : FVec Ideal S1x50000 .f32 := V c main_v49
abbrev r1amp1 (c : Dev nD) : FVec Ideal S1x50000 .f32 := V c main_v52

/-- The new refractory counter, the potential before the reset, the spike and the potential after it, at one entry. -/
def r1nr (c : Dev nD) (i : S1x50000.Idx) : EReal := Cert.Spec.newR (r1r V c i) (r1pz V c i) (r1tref V c i)
def r1pv (c : Dev nD) (i : S1x50000.Idx) : EReal :=
  Cert.Spec.preV (r1decay V c i) (r1v V c i) (r1cf V c i) (r1ic V c i) (r1a1 V c i) (r1a2 V c i) (r1g V c i) (r1el V c i)
def r1sp (c : Dev nD) (i : S1x50000.Idx) : EReal := Cert.Spec.spike (r1pv V c i) (r1vth V c i) (r1el V c i) (r1nr V c i)
def r1nv (c : Dev nD) (i : S1x50000.Idx) : EReal := Cert.Spec.newV (r1sp V c i) (r1vreset V c i) (r1pv V c i)

/-! ## The argument blocks

  The grid has one point and every window's block is its whole [1 × 50000] array at offsets (0, 0), so each argument
  block is the argument array itself. -/

/-- The offsets (0, 0), as the constant-zero function. -/
theorem r1hz : (![0, 0] : Fin 2 → Nat) = fun _ => 0 := funext fun a => by fin_cases a <;> rfl

theorem r1blk_0 (c : Dev nD) (t : Fin cfg1.N) : (iblk1 V c 0 t : Vec Ideal S1x50000 .f32) = r1v V c := by
  obtain rfl := fin_N1 t
  unfold iblk1
  have hz' : (fun a => win1_0.index t1_0 a * main_arg2.ty.shape.size a) = fun _ => 0 := funext fun a => by fin_cases a <;> decide
  exact Memref.read_access_unit_zero (Elt Ideal) main_arg2 hz' (fun a => by rw [congrFun hz' a]; simp) (V c main_arg2)
theorem r1blk_1 (c : Dev nD) (t : Fin cfg1.N) : (iblk1 V c 1 t : Vec Ideal S1x50000 .f32) = r1r V c := by
  obtain rfl := fin_N1 t
  unfold iblk1
  have hz' : (fun a => win1_1.index t1_0 a * main_arg3.ty.shape.size a) = fun _ => 0 := funext fun a => by fin_cases a <;> decide
  exact Memref.read_access_unit_zero (Elt Ideal) main_arg3 hz' (fun a => by rw [congrFun hz' a]; simp) (V c main_arg3)
theorem r1blk_2 (c : Dev nD) (t : Fin cfg1.N) : (iblk1 V c 2 t : Vec Ideal S1x50000 .f32) = r1a1 V c := by
  obtain rfl := fin_N1 t
  unfold iblk1
  have hz' : (fun a => win1_2.index t1_0 a * main_arg4.ty.shape.size a) = fun _ => 0 := funext fun a => by fin_cases a <;> decide
  exact Memref.read_access_unit_zero (Elt Ideal) main_arg4 hz' (fun a => by rw [congrFun hz' a]; simp) (V c main_arg4)
theorem r1blk_3 (c : Dev nD) (t : Fin cfg1.N) : (iblk1 V c 3 t : Vec Ideal S1x50000 .f32) = r1a2 V c := by
  obtain rfl := fin_N1 t
  unfold iblk1
  have hz' : (fun a => win1_3.index t1_0 a * main_arg5.ty.shape.size a) = fun _ => 0 := funext fun a => by fin_cases a <;> decide
  exact Memref.read_access_unit_zero (Elt Ideal) main_arg5 hz' (fun a => by rw [congrFun hz' a]; simp) (V c main_arg5)
theorem r1blk_4 (c : Dev nD) (t : Fin cfg1.N) : (iblk1 V c 4 t : Vec Ideal S1x50000 .f32) = r1pz V c := by
  obtain rfl := fin_N1 t
  unfold iblk1
  have hz' : (fun a => win1_4.index t1_0 a * main_v0.ty.shape.size a) = fun _ => 0 := funext fun a => by fin_cases a <;> decide
  exact Memref.read_access_unit_zero (Elt Ideal) main_v0 hz' (fun a => by rw [congrFun hz' a]; simp) (V c main_v0)
theorem r1blk_5 (c : Dev nD) (t : Fin cfg1.N) : (iblk1 V c 5 t : Vec Ideal S1x50000 .f32) = r1ic V c := by
  obtain rfl := fin_N1 t
  unfold iblk1
  have hz' : (fun a => win1_5.index t1_0 a * main_v31.ty.shape.size a) = fun _ => 0 := funext fun a => by fin_cases a <;> decide
  exact Memref.read_access_unit_zero (Elt Ideal) main_v31 hz' (fun a => by rw [congrFun hz' a]; simp) (V c main_v31)
theorem r1blk_6 (c : Dev nD) (t : Fin cfg1.N) : (iblk1 V c 6 t : Vec Ideal S1x50000 .f32) = r1vth V c := by
  obtain rfl := fin_N1 t
  unfold iblk1
  have hz' : (fun a => win1_6.index t1_0 a * main_v32.ty.shape.size a) = fun _ => 0 := funext fun a => by fin_cases a <;> decide
  exact Memref.read_access_unit_zero (Elt Ideal) main_v32 hz' (fun a => by rw [congrFun hz' a]; simp) (V c main_v32)
theorem r1blk_7 (c : Dev nD) (t : Fin cfg1.N) : (iblk1 V c 7 t : Vec Ideal S1x50000 .f32) = r1el V c := by
  obtain rfl := fin_N1 t
  unfold iblk1
  have hz' : (fun a => win1_7.index t1_0 a * main_v33.ty.shape.size a) = fun _ => 0 := funext fun a => by fin_cases a <;> decide
  exact Memref.read_access_unit_zero (Elt Ideal) main_v33 hz' (fun a => by rw [congrFun hz' a]; simp) (V c main_v33)
theorem r1blk_8 (c : Dev nD) (t : Fin cfg1.N) : (iblk1 V c 8 t : Vec Ideal S1x50000 .f32) = r1vreset V c := by
  obtain rfl := fin_N1 t
  unfold iblk1
  have hz' : (fun a => win1_8.index t1_0 a * main_v34.ty.shape.size a) = fun _ => 0 := funext fun a => by fin_cases a <;> decide
  exact Memref.read_access_unit_zero (Elt Ideal) main_v34 hz' (fun a => by rw [congrFun hz' a]; simp) (V c main_v34)
theorem r1blk_9 (c : Dev nD) (t : Fin cfg1.N) : (iblk1 V c 9 t : Vec Ideal S1x50000 .f32) = r1g V c := by
  obtain rfl := fin_N1 t
  unfold iblk1
  have hz' : (fun a => win1_9.index t1_0 a * main_v35.ty.shape.size a) = fun _ => 0 := funext fun a => by fin_cases a <;> decide
  exact Memref.read_access_unit_zero (Elt Ideal) main_v35 hz' (fun a => by rw [congrFun hz' a]; simp) (V c main_v35)
theorem r1blk_10 (c : Dev nD) (t : Fin cfg1.N) : (iblk1 V c 10 t : Vec Ideal S1x50000 .f32) = r1decay V c := by
  obtain rfl := fin_N1 t
  unfold iblk1
  have hz' : (fun a => win1_10.index t1_0 a * main_v36.ty.shape.size a) = fun _ => 0 := funext fun a => by fin_cases a <;> decide
  exact Memref.read_access_unit_zero (Elt Ideal) main_v36 hz' (fun a => by rw [congrFun hz' a]; simp) (V c main_v36)
theorem r1blk_11 (c : Dev nD) (t : Fin cfg1.N) : (iblk1 V c 11 t : Vec Ideal S1x50000 .f32) = r1cf V c := by
  obtain rfl := fin_N1 t
  unfold iblk1
  have hz' : (fun a => win1_11.index t1_0 a * main_v37.ty.shape.size a) = fun _ => 0 := funext fun a => by fin_cases a <;> decide
  exact Memref.read_access_unit_zero (Elt Ideal) main_v37 hz' (fun a => by rw [congrFun hz' a]; simp) (V c main_v37)
theorem r1blk_12 (c : Dev nD) (t : Fin cfg1.N) : (iblk1 V c 12 t : Vec Ideal S1x50000 .f32) = r1tref V c := by
  obtain rfl := fin_N1 t
  unfold iblk1
  have hz' : (fun a => win1_12.index t1_0 a * main_v38.ty.shape.size a) = fun _ => 0 := funext fun a => by fin_cases a <;> decide
  exact Memref.read_access_unit_zero (Elt Ideal) main_v38 hz' (fun a => by rw [congrFun hz' a]; simp) (V c main_v38)
theorem r1blk_13 (c : Dev nD) (t : Fin cfg1.N) : (iblk1 V c 13 t : Vec Ideal S1x50000 .f32) = r1vs V c := by
  obtain rfl := fin_N1 t
  unfold iblk1
  have hz' : (fun a => win1_13.index t1_0 a * main_v39.ty.shape.size a) = fun _ => 0 := funext fun a => by fin_cases a <;> decide
  exact Memref.read_access_unit_zero (Elt Ideal) main_v39 hz' (fun a => by rw [congrFun hz' a]; simp) (V c main_v39)
theorem r1blk_14 (c : Dev nD) (t : Fin cfg1.N) : (iblk1 V c 14 t : Vec Ideal S1x50000 .f32) = r1vo V c := by
  obtain rfl := fin_N1 t
  unfold iblk1
  have hz' : (fun a => win1_14.index t1_0 a * main_v40.ty.shape.size a) = fun _ => 0 := funext fun a => by fin_cases a <;> decide
  exact Memref.read_access_unit_zero (Elt Ideal) main_v40 hz' (fun a => by rw [congrFun hz' a]; simp) (V c main_v40)
theorem r1blk_15 (c : Dev nD) (t : Fin cfg1.N) : (iblk1 V c 15 t : Vec Ideal S1x50000 .f32) = r1k0 V c := by
  obtain rfl := fin_N1 t
  unfold iblk1
  have hz' : (fun a => win1_15.index t1_0 a * main_v43.ty.shape.size a) = fun _ => 0 := funext fun a => by fin_cases a <;> decide
  exact Memref.read_access_unit_zero (Elt Ideal) main_v43 hz' (fun a => by rw [congrFun hz' a]; simp) (V c main_v43)
theorem r1blk_16 (c : Dev nD) (t : Fin cfg1.N) : (iblk1 V c 16 t : Vec Ideal S1x50000 .f32) = r1k1 V c := by
  obtain rfl := fin_N1 t
  unfold iblk1
  have hz' : (fun a => win1_16.index t1_0 a * main_v46.ty.shape.size a) = fun _ => 0 := funext fun a => by fin_cases a <;> decide
  exact Memref.read_access_unit_zero (Elt Ideal) main_v46 hz' (fun a => by rw [congrFun hz' a]; simp) (V c main_v46)
theorem r1blk_17 (c : Dev nD) (t : Fin cfg1.N) : (iblk1 V c 17 t : Vec Ideal S1x50000 .f32) = r1amp0 V c := by
  obtain rfl := fin_N1 t
  unfold iblk1
  have hz' : (fun a => win1_17.index t1_0 a * main_v49.ty.shape.size a) = fun _ => 0 := funext fun a => by fin_cases a <;> decide
  exact Memref.read_access_unit_zero (Elt Ideal) main_v49 hz' (fun a => by rw [congrFun hz' a]; simp) (V c main_v49)
theorem r1blk_18 (c : Dev nD) (t : Fin cfg1.N) : (iblk1 V c 18 t : Vec Ideal S1x50000 .f32) = r1amp1 V c := by
  obtain rfl := fin_N1 t
  unfold iblk1
  have hz' : (fun a => win1_18.index t1_0 a * main_v52.ty.shape.size a) = fun _ => 0 := funext fun a => by fin_cases a <;> decide
  exact Memref.read_access_unit_zero (Elt Ideal) main_v52 hz' (fun a => by rw [congrFun hz' a]; simp) (V c main_v52)

/-! ## The body's arithmetic at an entry

  Every operation of the body is pointwise, so each stored value at an entry is the entry formula of the same entry of
  the loaded blocks. -/

/-- A cast between equal shapes is the identity, so each of the eleven re-shaped loads is the load itself. -/
theorem r1pay3_eq (x : Vec Ideal S1x50000 .f32) : k1_pay3 x = x := shapeCast_self x _
theorem r1pay4_eq (x : Vec Ideal S1x50000 .f32) : k1_pay4 x = x := shapeCast_self x _
theorem r1pay5_eq (x : Vec Ideal S1x50000 .f32) : k1_pay5 x = x := shapeCast_self x _
theorem r1pay6_eq (x : Vec Ideal S1x50000 .f32) : k1_pay6 x = x := shapeCast_self x _
theorem r1pay7_eq (x : Vec Ideal S1x50000 .f32) : k1_pay7 x = x := shapeCast_self x _
theorem r1pay8_eq (x : Vec Ideal S1x50000 .f32) : k1_pay8 x = x := shapeCast_self x _
theorem r1pay9_eq (x : Vec Ideal S1x50000 .f32) : k1_pay9 x = x := shapeCast_self x _
theorem r1pay10_eq (x : Vec Ideal S1x50000 .f32) : k1_pay10 x = x := shapeCast_self x _
theorem r1pay11_eq (x : Vec Ideal S1x50000 .f32) : k1_pay11 x = x := shapeCast_self x _
theorem r1pay12_eq (x : Vec Ideal S1x50000 .f32) : k1_pay12 x = x := shapeCast_self x _
theorem r1pay13_eq (x : Vec Ideal S1x50000 .f32) : k1_pay13 x = x := shapeCast_self x _

/-- The new refractory counter at an entry: the old one plus fired × refractory time, less one, clamped at zero
    from below; the literals are the same words on both sides. -/
theorem r1newR_apply (x1 x4 x12 : Vec Ideal S1x50000 .f32) (i : S1x50000.Idx) :
    k1_pay14 x1 (k1_pay3 x4) (k1_pay11 x12) i = Cert.Spec.newR (x1 i) (x4 i) (x12 i) := by
  rw [r1pay3_eq, r1pay11_eq]; rfl

/-- An after-spike current at an entry: the logistic is one operation in the body and is by definition
    1 / (1 + exp (−x)) on the extended reals, the reading the entry formula uses. -/
theorem r1newAsc0_apply (x2 x4 x15 x17 : Vec Ideal S1x50000 .f32) (i : S1x50000.Idx) :
    k1_pay15 x2 (k1_pay3 x4) x15 x17 i = Cert.Spec.newAsc (x15 i) (x2 i) (x4 i) (x17 i) := by
  rw [r1pay3_eq]; unfold k1_pay15; simp only [shapeCast_self]; rfl

theorem r1newAsc1_apply (x3 x4 x16 x18 : Vec Ideal S1x50000 .f32) (i : S1x50000.Idx) :
    k1_pay16 x3 (k1_pay3 x4) x16 x18 i = Cert.Spec.newAsc (x16 i) (x3 i) (x4 i) (x18 i) := by
  rw [r1pay3_eq]; unfold k1_pay16; simp only [shapeCast_self]; rfl

/-- The potential before the reset at an entry. -/
theorem r1preV_apply (x0 x2 x3 x5 x7 x9 x10 x11 : Vec Ideal S1x50000 .f32) (i : S1x50000.Idx) :
    k1_pay17 x0 x2 x3 (k1_pay4 x5) (k1_pay6 x7) (k1_pay8 x9) (k1_pay9 x10) (k1_pay10 x11) i
      = Cert.Spec.preV (x10 i) (x0 i) (x11 i) (x5 i) (x2 i) (x3 i) (x9 i) (x7 i) := by
  rw [r1pay4_eq, r1pay6_eq, r1pay8_eq, r1pay9_eq, r1pay10_eq]; rfl

/-- The spike at an entry: the body widens the one-bit comparison to a word and reads it as a signed integer, which
    is the entry formula's spelling; the refractory test is on the new counter. -/
theorem r1spike_apply (x0 x1 x2 x3 x4 x5 x6 x7 x9 x10 x11 x12 : Vec Ideal S1x50000 .f32) (i : S1x50000.Idx) :
    k1_pay18 x0 x1 x2 x3 (k1_pay3 x4) (k1_pay4 x5) (k1_pay5 x6) (k1_pay6 x7) (k1_pay8 x9) (k1_pay9 x10) (k1_pay10 x11) (k1_pay11 x12) i
      = Cert.Spec.spike (Cert.Spec.preV (x10 i) (x0 i) (x11 i) (x5 i) (x2 i) (x3 i) (x9 i) (x7 i)) (x6 i) (x7 i)
          (Cert.Spec.newR (x1 i) (x4 i) (x12 i)) := by
  unfold k1_pay18
  simp only [select_apply, cmpf_apply, sitofp_apply, extui_apply, divf_apply, subf_apply, broadcast_apply, r1newR_apply, r1preV_apply]
  rw [r1pay5_eq, r1pay6_eq]; rfl

/-- The potential after the reset at an entry, from the spike and the potential before it. -/
theorem r1newV_apply (x8 : Vec Ideal S1x50000 .f32) (pv sp : FVec Ideal S1x50000 .f32) (i : S1x50000.Idx) :
    k1_pay1 (k1_pay7 x8) pv sp (k1_pay19 (F := Ideal)) i = Cert.Spec.newV (sp i) (x8 i) (pv i) := by
  rw [r1pay7_eq]; rfl

/-- The reported potential at an entry. -/
theorem r1outV_apply (x8 x13 x14 : Vec Ideal S1x50000 .f32) (pv sp : FVec Ideal S1x50000 .f32) (i : S1x50000.Idx) :
    k1_pay2 (k1_pay7 x8) (k1_pay12 x13) (k1_pay13 x14) pv sp (k1_pay19 (F := Ideal)) i
      = Cert.Spec.outV (Cert.Spec.newV (sp i) (x8 i) (pv i)) (x13 i) (x14 i) := by
  unfold k1_pay2
  rw [addf_apply, mulf_apply, r1newV_apply, r1pay12_eq, r1pay13_eq]; rfl

/-! ## What the body leaves in each result window's buffer -/

/-- What the body leaves in result window 19's buffer, entry by entry: the one store's payload (the store fills the
    buffer, the loads read whole blocks). -/
theorem r1out19_eq (x0 x1 x2 x3 x4 x5 x6 x7 x8 x9 x10 x11 x12 x13 x14 x15 x16 x17 x18 : Vec Ideal S1x50000 .f32) :
    out1_19 x0 x1 x2 x3 x4 x5 x6 x7 x8 x9 x10 x11 x12 x13 x14 x15 x16 x17 x18 = fun i => (Cert.Spec.newV (Cert.Spec.spike (Cert.Spec.preV (x10 i) (x0 i) (x11 i) (x5 i) (x2 i) (x3 i) (x9 i) (x7 i)) (x6 i) (x7 i) (Cert.Spec.newR (x1 i) (x4 i) (x12 i))) (x8 i) (Cert.Spec.preV (x10 i) (x0 i) (x11 i) (x5 i) (x2 i) (x3 i) (x9 i) (x7 i))) := by
  unfold out1_19
  rw [View.canon_unit_zero r1hz]
  simp only [View.ld_unit_zero (S := S1x50000) r1hz]
  funext i
  rw [r1newV_apply, r1spike_apply, r1preV_apply]

/-- What the body leaves in result window 20's buffer, entry by entry: the one store's payload (the store fills the
    buffer, the loads read whole blocks). -/
theorem r1out20_eq (x0 x1 x2 x3 x4 x5 x6 x7 x8 x9 x10 x11 x12 x13 x14 x15 x16 x17 x18 : Vec Ideal S1x50000 .f32) :
    out1_20 x0 x1 x2 x3 x4 x5 x6 x7 x8 x9 x10 x11 x12 x13 x14 x15 x16 x17 x18 = fun i => (Cert.Spec.newR (x1 i) (x4 i) (x12 i)) := by
  unfold out1_20
  rw [View.canon_unit_zero r1hz]
  simp only [View.ld_unit_zero (S := S1x50000) r1hz]
  funext i
  rw [r1newR_apply]

/-- What the body leaves in result window 21's buffer, entry by entry: the one store's payload (the store fills the
    buffer, the loads read whole blocks). -/
theorem r1out21_eq (x0 x1 x2 x3 x4 x5 x6 x7 x8 x9 x10 x11 x12 x13 x14 x15 x16 x17 x18 : Vec Ideal S1x50000 .f32) :
    out1_21 x0 x1 x2 x3 x4 x5 x6 x7 x8 x9 x10 x11 x12 x13 x14 x15 x16 x17 x18 = fun i => (Cert.Spec.newAsc (x15 i) (x2 i) (x4 i) (x17 i)) := by
  unfold out1_21
  rw [View.canon_unit_zero r1hz]
  simp only [View.ld_unit_zero (S := S1x50000) r1hz]
  funext i
  rw [r1newAsc0_apply]

/-- What the body leaves in result window 22's buffer, entry by entry: the one store's payload (the store fills the
    buffer, the loads read whole blocks). -/
theorem r1out22_eq (x0 x1 x2 x3 x4 x5 x6 x7 x8 x9 x10 x11 x12 x13 x14 x15 x16 x17 x18 : Vec Ideal S1x50000 .f32) :
    out1_22 x0 x1 x2 x3 x4 x5 x6 x7 x8 x9 x10 x11 x12 x13 x14 x15 x16 x17 x18 = fun i => (Cert.Spec.newAsc (x16 i) (x3 i) (x4 i) (x18 i)) := by
  unfold out1_22
  rw [View.canon_unit_zero r1hz]
  simp only [View.ld_unit_zero (S := S1x50000) r1hz]
  funext i
  rw [r1newAsc1_apply]

/-- What the body leaves in result window 23's buffer, entry by entry: the one store's payload (the store fills the
    buffer, the loads read whole blocks). -/
theorem r1out23_eq (x0 x1 x2 x3 x4 x5 x6 x7 x8 x9 x10 x11 x12 x13 x14 x15 x16 x17 x18 : Vec Ideal S1x50000 .f32) :
    out1_23 x0 x1 x2 x3 x4 x5 x6 x7 x8 x9 x10 x11 x12 x13 x14 x15 x16 x17 x18 = fun i => (Cert.Spec.spike (Cert.Spec.preV (x10 i) (x0 i) (x11 i) (x5 i) (x2 i) (x3 i) (x9 i) (x7 i)) (x6 i) (x7 i) (Cert.Spec.newR (x1 i) (x4 i) (x12 i))) := by
  unfold out1_23
  rw [View.canon_unit_zero r1hz]
  simp only [View.ld_unit_zero (S := S1x50000) r1hz]
  funext i
  rw [r1spike_apply]

/-- What the body leaves in result window 24's buffer, entry by entry: the one store's payload (the store fills the
    buffer, the loads read whole blocks). -/
theorem r1out24_eq (x0 x1 x2 x3 x4 x5 x6 x7 x8 x9 x10 x11 x12 x13 x14 x15 x16 x17 x18 : Vec Ideal S1x50000 .f32) :
    out1_24 x0 x1 x2 x3 x4 x5 x6 x7 x8 x9 x10 x11 x12 x13 x14 x15 x16 x17 x18 = fun i => (Cert.Spec.outV (Cert.Spec.newV (Cert.Spec.spike (Cert.Spec.preV (x10 i) (x0 i) (x11 i) (x5 i) (x2 i) (x3 i) (x9 i) (x7 i)) (x6 i) (x7 i) (Cert.Spec.newR (x1 i) (x4 i) (x12 i))) (x8 i) (Cert.Spec.preV (x10 i) (x0 i) (x11 i) (x5 i) (x2 i) (x3 i) (x9 i) (x7 i))) (x13 i) (x14 i)) := by
  unfold out1_24
  rw [View.canon_unit_zero r1hz]
  simp only [View.ld_unit_zero (S := S1x50000) r1hz]
  funext i
  rw [r1outV_apply, r1spike_apply, r1preV_apply]

/-! ## The result arrays after the run

  The single write-back of each result window writes its whole array, so the array ends holding the body's values. -/

theorem arr1_19 (c : Dev nD) : ((dat1 V c).arrAt 19 cfg1.N : FVec Ideal S1x50000 .f32) = fun i => r1nv V c i := by
  refine (dat1 V c).arrAt_eq_of_cover 19 (fun i => r1nv V c i) (fun t _ => ?_) (fun i => ⟨t1_0, flush1_19 t1_0, ?_⟩)
  · -- the one write-back writes the whole array: block (0, 0) of a [1 × 50000] array in [1 × 50000] blocks
    obtain rfl := fin_N1 t
    show (cfg1.win 19).cut (grid1.coords t1_0) ((dat1 V c).after 19 t1_0) = _
    rw [after1_19, r1out19_eq]
    simp only [r1blk_0, r1blk_1, r1blk_2, r1blk_3, r1blk_4, r1blk_5, r1blk_6, r1blk_7, r1blk_8, r1blk_9, r1blk_10, r1blk_11, r1blk_12, r1blk_13, r1blk_14, r1blk_15, r1blk_16, r1blk_17, r1blk_18]
    have hz' : (fun a => win1_19.index t1_0 a * main_v53_0.ty.shape.size a) = fun _ => 0 := funext fun a => by fin_cases a <;> decide
    exact (Memref.read_access_unit_zero (Elt Ideal) main_v53_0 hz' (fun a => by rw [congrFun hz' a]; simp) (fun i => r1nv V c i)).symm
  · -- every index lies in that block: its offsets are 0 and its extents are the array's
    show i ∈ ((View.whole main_v53_0).slice (win1_19.rect t1_0)).set
    rw [View.set_slice_whole, Rect.mem_set_unit]
    intro a
    have h0 : (i 0 : Nat) < 1 := (i 0).isLt
    have h1 : (i 1 : Nat) < 50000 := (i 1).isLt
    match a with
    | ⟨0, _⟩ =>
      show win1_19.index t1_0 0 * win1_19.size 0 ≤ (i 0 : Nat) ∧ (i 0 : Nat) < win1_19.index t1_0 0 * win1_19.size 0 + win1_19.xsize (grid1.coords t1_0) 0
      rw [show win1_19.index t1_0 0 * win1_19.size 0 = 0 from by decide +kernel, show win1_19.xsize (grid1.coords t1_0) 0 = 1 from by decide +kernel]; omega
    | ⟨1, _⟩ =>
      show win1_19.index t1_0 1 * win1_19.size 1 ≤ (i 1 : Nat) ∧ (i 1 : Nat) < win1_19.index t1_0 1 * win1_19.size 1 + win1_19.xsize (grid1.coords t1_0) 1
      rw [show win1_19.index t1_0 1 * win1_19.size 1 = 0 from by decide +kernel, show win1_19.xsize (grid1.coords t1_0) 1 = 50000 from by decide +kernel]; omega

theorem arr1_20 (c : Dev nD) : ((dat1 V c).arrAt 20 cfg1.N : FVec Ideal S1x50000 .f32) = fun i => r1nr V c i := by
  refine (dat1 V c).arrAt_eq_of_cover 20 (fun i => r1nr V c i) (fun t _ => ?_) (fun i => ⟨t1_0, flush1_20 t1_0, ?_⟩)
  · -- the one write-back writes the whole array: block (0, 0) of a [1 × 50000] array in [1 × 50000] blocks
    obtain rfl := fin_N1 t
    show (cfg1.win 20).cut (grid1.coords t1_0) ((dat1 V c).after 20 t1_0) = _
    rw [after1_20, r1out20_eq]
    simp only [r1blk_0, r1blk_1, r1blk_2, r1blk_3, r1blk_4, r1blk_5, r1blk_6, r1blk_7, r1blk_8, r1blk_9, r1blk_10, r1blk_11, r1blk_12, r1blk_13, r1blk_14, r1blk_15, r1blk_16, r1blk_17, r1blk_18]
    have hz' : (fun a => win1_20.index t1_0 a * main_v53_1.ty.shape.size a) = fun _ => 0 := funext fun a => by fin_cases a <;> decide
    exact (Memref.read_access_unit_zero (Elt Ideal) main_v53_1 hz' (fun a => by rw [congrFun hz' a]; simp) (fun i => r1nr V c i)).symm
  · -- every index lies in that block: its offsets are 0 and its extents are the array's
    show i ∈ ((View.whole main_v53_1).slice (win1_20.rect t1_0)).set
    rw [View.set_slice_whole, Rect.mem_set_unit]
    intro a
    have h0 : (i 0 : Nat) < 1 := (i 0).isLt
    have h1 : (i 1 : Nat) < 50000 := (i 1).isLt
    match a with
    | ⟨0, _⟩ =>
      show win1_20.index t1_0 0 * win1_20.size 0 ≤ (i 0 : Nat) ∧ (i 0 : Nat) < win1_20.index t1_0 0 * win1_20.size 0 + win1_20.xsize (grid1.coords t1_0) 0
      rw [show win1_20.index t1_0 0 * win1_20.size 0 = 0 from by decide +kernel, show win1_20.xsize (grid1.coords t1_0) 0 = 1 from by decide +kernel]; omega
    | ⟨1, _⟩ =>
      show win1_20.index t1_0 1 * win1_20.size 1 ≤ (i 1 : Nat) ∧ (i 1 : Nat) < win1_20.index t1_0 1 * win1_20.size 1 + win1_20.xsize (grid1.coords t1_0) 1
      rw [show win1_20.index t1_0 1 * win1_20.size 1 = 0 from by decide +kernel, show win1_20.xsize (grid1.coords t1_0) 1 = 50000 from by decide +kernel]; omega

theorem arr1_21 (c : Dev nD) : ((dat1 V c).arrAt 21 cfg1.N : FVec Ideal S1x50000 .f32)
    = fun i => Cert.Spec.newAsc (r1k0 V c i) (r1a1 V c i) (r1pz V c i) (r1amp0 V c i) := by
  refine (dat1 V c).arrAt_eq_of_cover 21 (fun i => Cert.Spec.newAsc (r1k0 V c i) (r1a1 V c i) (r1pz V c i) (r1amp0 V c i)) (fun t _ => ?_) (fun i => ⟨t1_0, flush1_21 t1_0, ?_⟩)
  · -- the one write-back writes the whole array: block (0, 0) of a [1 × 50000] array in [1 × 50000] blocks
    obtain rfl := fin_N1 t
    show (cfg1.win 21).cut (grid1.coords t1_0) ((dat1 V c).after 21 t1_0) = _
    rw [after1_21, r1out21_eq]
    simp only [r1blk_0, r1blk_1, r1blk_2, r1blk_3, r1blk_4, r1blk_5, r1blk_6, r1blk_7, r1blk_8, r1blk_9, r1blk_10, r1blk_11, r1blk_12, r1blk_13, r1blk_14, r1blk_15, r1blk_16, r1blk_17, r1blk_18]
    have hz' : (fun a => win1_21.index t1_0 a * main_v53_2.ty.shape.size a) = fun _ => 0 := funext fun a => by fin_cases a <;> decide
    exact (Memref.read_access_unit_zero (Elt Ideal) main_v53_2 hz' (fun a => by rw [congrFun hz' a]; simp) (fun i => Cert.Spec.newAsc (r1k0 V c i) (r1a1 V c i) (r1pz V c i) (r1amp0 V c i))).symm
  · -- every index lies in that block: its offsets are 0 and its extents are the array's
    show i ∈ ((View.whole main_v53_2).slice (win1_21.rect t1_0)).set
    rw [View.set_slice_whole, Rect.mem_set_unit]
    intro a
    have h0 : (i 0 : Nat) < 1 := (i 0).isLt
    have h1 : (i 1 : Nat) < 50000 := (i 1).isLt
    match a with
    | ⟨0, _⟩ =>
      show win1_21.index t1_0 0 * win1_21.size 0 ≤ (i 0 : Nat) ∧ (i 0 : Nat) < win1_21.index t1_0 0 * win1_21.size 0 + win1_21.xsize (grid1.coords t1_0) 0
      rw [show win1_21.index t1_0 0 * win1_21.size 0 = 0 from by decide +kernel, show win1_21.xsize (grid1.coords t1_0) 0 = 1 from by decide +kernel]; omega
    | ⟨1, _⟩ =>
      show win1_21.index t1_0 1 * win1_21.size 1 ≤ (i 1 : Nat) ∧ (i 1 : Nat) < win1_21.index t1_0 1 * win1_21.size 1 + win1_21.xsize (grid1.coords t1_0) 1
      rw [show win1_21.index t1_0 1 * win1_21.size 1 = 0 from by decide +kernel, show win1_21.xsize (grid1.coords t1_0) 1 = 50000 from by decide +kernel]; omega

theorem arr1_22 (c : Dev nD) : ((dat1 V c).arrAt 22 cfg1.N : FVec Ideal S1x50000 .f32)
    = fun i => Cert.Spec.newAsc (r1k1 V c i) (r1a2 V c i) (r1pz V c i) (r1amp1 V c i) := by
  refine (dat1 V c).arrAt_eq_of_cover 22 (fun i => Cert.Spec.newAsc (r1k1 V c i) (r1a2 V c i) (r1pz V c i) (r1amp1 V c i)) (fun t _ => ?_) (fun i => ⟨t1_0, flush1_22 t1_0, ?_⟩)
  · -- the one write-back writes the whole array: block (0, 0) of a [1 × 50000] array in [1 × 50000] blocks
    obtain rfl := fin_N1 t
    show (cfg1.win 22).cut (grid1.coords t1_0) ((dat1 V c).after 22 t1_0) = _
    rw [after1_22, r1out22_eq]
    simp only [r1blk_0, r1blk_1, r1blk_2, r1blk_3, r1blk_4, r1blk_5, r1blk_6, r1blk_7, r1blk_8, r1blk_9, r1blk_10, r1blk_11, r1blk_12, r1blk_13, r1blk_14, r1blk_15, r1blk_16, r1blk_17, r1blk_18]
    have hz' : (fun a => win1_22.index t1_0 a * main_v53_3.ty.shape.size a) = fun _ => 0 := funext fun a => by fin_cases a <;> decide
    exact (Memref.read_access_unit_zero (Elt Ideal) main_v53_3 hz' (fun a => by rw [congrFun hz' a]; simp) (fun i => Cert.Spec.newAsc (r1k1 V c i) (r1a2 V c i) (r1pz V c i) (r1amp1 V c i))).symm
  · -- every index lies in that block: its offsets are 0 and its extents are the array's
    show i ∈ ((View.whole main_v53_3).slice (win1_22.rect t1_0)).set
    rw [View.set_slice_whole, Rect.mem_set_unit]
    intro a
    have h0 : (i 0 : Nat) < 1 := (i 0).isLt
    have h1 : (i 1 : Nat) < 50000 := (i 1).isLt
    match a with
    | ⟨0, _⟩ =>
      show win1_22.index t1_0 0 * win1_22.size 0 ≤ (i 0 : Nat) ∧ (i 0 : Nat) < win1_22.index t1_0 0 * win1_22.size 0 + win1_22.xsize (grid1.coords t1_0) 0
      rw [show win1_22.index t1_0 0 * win1_22.size 0 = 0 from by decide +kernel, show win1_22.xsize (grid1.coords t1_0) 0 = 1 from by decide +kernel]; omega
    | ⟨1, _⟩ =>
      show win1_22.index t1_0 1 * win1_22.size 1 ≤ (i 1 : Nat) ∧ (i 1 : Nat) < win1_22.index t1_0 1 * win1_22.size 1 + win1_22.xsize (grid1.coords t1_0) 1
      rw [show win1_22.index t1_0 1 * win1_22.size 1 = 0 from by decide +kernel, show win1_22.xsize (grid1.coords t1_0) 1 = 50000 from by decide +kernel]; omega

theorem arr1_23 (c : Dev nD) : ((dat1 V c).arrAt 23 cfg1.N : FVec Ideal S1x50000 .f32) = fun i => r1sp V c i := by
  refine (dat1 V c).arrAt_eq_of_cover 23 (fun i => r1sp V c i) (fun t _ => ?_) (fun i => ⟨t1_0, flush1_23 t1_0, ?_⟩)
  · -- the one write-back writes the whole array: block (0, 0) of a [1 × 50000] array in [1 × 50000] blocks
    obtain rfl := fin_N1 t
    show (cfg1.win 23).cut (grid1.coords t1_0) ((dat1 V c).after 23 t1_0) = _
    rw [after1_23, r1out23_eq]
    simp only [r1blk_0, r1blk_1, r1blk_2, r1blk_3, r1blk_4, r1blk_5, r1blk_6, r1blk_7, r1blk_8, r1blk_9, r1blk_10, r1blk_11, r1blk_12, r1blk_13, r1blk_14, r1blk_15, r1blk_16, r1blk_17, r1blk_18]
    have hz' : (fun a => win1_23.index t1_0 a * main_v53_4.ty.shape.size a) = fun _ => 0 := funext fun a => by fin_cases a <;> decide
    exact (Memref.read_access_unit_zero (Elt Ideal) main_v53_4 hz' (fun a => by rw [congrFun hz' a]; simp) (fun i => r1sp V c i)).symm
  · -- every index lies in that block: its offsets are 0 and its extents are the array's
    show i ∈ ((View.whole main_v53_4).slice (win1_23.rect t1_0)).set
    rw [View.set_slice_whole, Rect.mem_set_unit]
    intro a
    have h0 : (i 0 : Nat) < 1 := (i 0).isLt
    have h1 : (i 1 : Nat) < 50000 := (i 1).isLt
    match a with
    | ⟨0, _⟩ =>
      show win1_23.index t1_0 0 * win1_23.size 0 ≤ (i 0 : Nat) ∧ (i 0 : Nat) < win1_23.index t1_0 0 * win1_23.size 0 + win1_23.xsize (grid1.coords t1_0) 0
      rw [show win1_23.index t1_0 0 * win1_23.size 0 = 0 from by decide +kernel, show win1_23.xsize (grid1.coords t1_0) 0 = 1 from by decide +kernel]; omega
    | ⟨1, _⟩ =>
      show win1_23.index t1_0 1 * win1_23.size 1 ≤ (i 1 : Nat) ∧ (i 1 : Nat) < win1_23.index t1_0 1 * win1_23.size 1 + win1_23.xsize (grid1.coords t1_0) 1
      rw [show win1_23.index t1_0 1 * win1_23.size 1 = 0 from by decide +kernel, show win1_23.xsize (grid1.coords t1_0) 1 = 50000 from by decide +kernel]; omega

theorem arr1_24 (c : Dev nD) : ((dat1 V c).arrAt 24 cfg1.N : FVec Ideal S1x50000 .f32)
    = fun i => Cert.Spec.outV (r1nv V c i) (r1vs V c i) (r1vo V c i) := by
  refine (dat1 V c).arrAt_eq_of_cover 24 (fun i => Cert.Spec.outV (r1nv V c i) (r1vs V c i) (r1vo V c i)) (fun t _ => ?_) (fun i => ⟨t1_0, flush1_24 t1_0, ?_⟩)
  · -- the one write-back writes the whole array: block (0, 0) of a [1 × 50000] array in [1 × 50000] blocks
    obtain rfl := fin_N1 t
    show (cfg1.win 24).cut (grid1.coords t1_0) ((dat1 V c).after 24 t1_0) = _
    rw [after1_24, r1out24_eq]
    simp only [r1blk_0, r1blk_1, r1blk_2, r1blk_3, r1blk_4, r1blk_5, r1blk_6, r1blk_7, r1blk_8, r1blk_9, r1blk_10, r1blk_11, r1blk_12, r1blk_13, r1blk_14, r1blk_15, r1blk_16, r1blk_17, r1blk_18]
    have hz' : (fun a => win1_24.index t1_0 a * main_v53_5.ty.shape.size a) = fun _ => 0 := funext fun a => by fin_cases a <;> decide
    exact (Memref.read_access_unit_zero (Elt Ideal) main_v53_5 hz' (fun a => by rw [congrFun hz' a]; simp) (fun i => Cert.Spec.outV (r1nv V c i) (r1vs V c i) (r1vo V c i))).symm
  · -- every index lies in that block: its offsets are 0 and its extents are the array's
    show i ∈ ((View.whole main_v53_5).slice (win1_24.rect t1_0)).set
    rw [View.set_slice_whole, Rect.mem_set_unit]
    intro a
    have h0 : (i 0 : Nat) < 1 := (i 0).isLt
    have h1 : (i 1 : Nat) < 50000 := (i 1).isLt
    match a with
    | ⟨0, _⟩ =>
      show win1_24.index t1_0 0 * win1_24.size 0 ≤ (i 0 : Nat) ∧ (i 0 : Nat) < win1_24.index t1_0 0 * win1_24.size 0 + win1_24.xsize (grid1.coords t1_0) 0
      rw [show win1_24.index t1_0 0 * win1_24.size 0 = 0 from by decide +kernel, show win1_24.xsize (grid1.coords t1_0) 0 = 1 from by decide +kernel]; omega
    | ⟨1, _⟩ =>
      show win1_24.index t1_0 1 * win1_24.size 1 ≤ (i 1 : Nat) ∧ (i 1 : Nat) < win1_24.index t1_0 1 * win1_24.size 1 + win1_24.xsize (grid1.coords t1_0) 1
      rw [show win1_24.index t1_0 1 * win1_24.size 1 = 0 from by decide +kernel, show win1_24.xsize (grid1.coords t1_0) 1 = 50000 from by decide +kernel]; omega

end Cert.KernelIdeal.Val

end
-- ==== Proof.Results.lean ====
/-
  The nine results of the step, each entry as a function of the argument arrays (Spec.lean has the entry-level
  formulas; here they are put together over one record of the arguments, taken as functions of flat positions).
  Both programs are shown to end with exactly these entries.
-/
import proofs.«421398_j54142357733913_2_alg».proof.Proof.Spec

noncomputable section

namespace Cert.Spec

/-- The argument arrays, each as a function of its flat position (a two-column array of its row and column). -/
structure Args where
  inp : Fin 500000 → EReal
  z : Fin 250000 → EReal
  v : Fin 50000 → EReal
  r : Fin 50000 → EReal
  a1 : Fin 50000 → EReal
  a2 : Fin 50000 → EReal
  pr : Fin 500000 → EReal
  psc : Fin 500000 → EReal
  w : Fin 10000000 → EReal
  idx : Fin 10000000 → Fin 2 → BitVec 32
  vth : Fin 50000 → EReal
  el : Fin 50000 → EReal
  vreset : Fin 50000 → EReal
  g : Fin 50000 → EReal
  decay : Fin 50000 → EReal
  cf : Fin 50000 → EReal
  tref : Fin 50000 → EReal
  k : Fin 50000 → Fin 2 → EReal
  amps : Fin 50000 → Fin 2 → EReal
  sd : Fin 500000 → EReal
  pini : Fin 500000 → EReal
  vs : Fin 50000 → EReal
  vo : Fin 50000 → EReal

namespace Args

variable (A : Args)

/-- Whether neuron n fired at the newest recorded step: the first 50000 history slots. -/
def pz (n : Fin 50000) : EReal := A.z ⟨n.val, by omega⟩

/-- The current arriving at synapse slot q. -/
def rin (q : Fin 500000) : EReal := recIn A.w A.idx A.z A.inp q

/-- Result 8 of 9 (new_psc_rise), slot q. -/
def outPscRise (q : Fin 500000) : EReal := newPscRise A.sd A.pr A.rin A.pini q

/-- Result 9 of 9 (new_psc), slot q. -/
def outPsc (q : Fin 500000) : EReal := newPsc A.psc A.sd A.pr q

/-- Result 5 of 9 (new_r), neuron n. -/
def outR (n : Fin 50000) : EReal := newR (A.r n) (A.pz n) (A.tref n)

/-- Result 6 of 9 (new_asc_1), neuron n. -/
def outAsc1 (n : Fin 50000) : EReal := newAsc (A.k n 0) (A.a1 n) (A.pz n) (A.amps n 0)

/-- Result 7 of 9 (new_asc_2), neuron n. -/
def outAsc2 (n : Fin 50000) : EReal := newAsc (A.k n 1) (A.a2 n) (A.pz n) (A.amps n 1)

/-- The membrane potential before the reset, neuron n. -/
def pv (n : Fin 50000) : EReal :=
  preV (A.decay n) (A.v n) (A.cf n) (inCur A.psc n) (A.a1 n) (A.a2 n) (A.g n) (A.el n)

/-- Result 1 of 9 (new_z), neuron n. -/
def outZ (n : Fin 50000) : EReal := spike (A.pv n) (A.vth n) (A.el n) (A.outR n)

/-- Result 4 of 9 (new_v), neuron n. -/
def outNewV (n : Fin 50000) : EReal := newV (A.outZ n) (A.vreset n) (A.pv n)

/-- Result 2 of 9 (out_v), neuron n. -/
def outOutV (n : Fin 50000) : EReal := outV (A.outNewV n) (A.vs n) (A.vo n)

/-- Result 3 of 9 (new_z_buf), history slot p. -/
def outZbuf (p : Fin 250000) : EReal := newZbuf A.outZ A.z p

end Args

open Idealize.ShloMosaic Idealize.ShloMosaic.ValueIdx

/-- A one-row array from its entries. -/
def row {N : ℕ} (f : Fin N → EReal) : (⟨2, ![1, N]⟩ : Shape).Idx → EReal := fun i => f (i 1)

/-- A one-row array whose entries are known is that row. -/
theorem eq_row {N : ℕ} {x : (⟨2, ![1, N]⟩ : Shape).Idx → EReal} {f : Fin N → EReal}
    (h : ∀ n : Fin N, x (ix2 0 n) = f n) : x = row f := by
  funext i
  obtain ⟨a, b, rfl⟩ : ∃ (a : Fin 1) (b : Fin N), i = ix2 a b := ⟨i 0, i 1, eq_ix2 i⟩
  obtain rfl : a = 0 := Subsingleton.elim _ _
  exact h b

end Cert.Spec

end
-- ==== Proof.KernelArgs.lean ====
/-
  The kernel program's argument arrays, as the record of flat functions the step's results are stated over.
-/
import proofs.«421398_j54142357733913_2_alg».proof.Proof.KernelIdealFrame
import proofs.«421398_j54142357733913_2_alg».proof.Proof.Results

noncomputable section

namespace Cert.KernelIdeal.Val

open Idealize.ShloMosaic Idealize.ShloMosaic.TcCoe Idealize.SL.Sem Idealize.ShloMosaic.ValueIdx
open Cert.KernelIdeal

/-- A memory of the kernel program at the exact instance. -/
abbrev Mem := (ℓ : Loc nD τ sig) → Buf (Elt Ideal) ℓ

/-- Device c's argument arrays in the memory m, each entry by its flat position. -/
def args (m : Mem) (c : Dev nD) : Cert.Spec.Args where
  inp q := (m ((c.tc : Thread nD τ).loc main_arg0) : FVec Ideal S1x500000 .f32) (ix2 0 q)
  z p := (m ((c.tc : Thread nD τ).loc main_arg1) : FVec Ideal S1x250000 .f32) (ix2 0 p)
  v n := (m ((c.tc : Thread nD τ).loc main_arg2) : FVec Ideal S1x50000 .f32) (ix2 0 n)
  r n := (m ((c.tc : Thread nD τ).loc main_arg3) : FVec Ideal S1x50000 .f32) (ix2 0 n)
  a1 n := (m ((c.tc : Thread nD τ).loc main_arg4) : FVec Ideal S1x50000 .f32) (ix2 0 n)
  a2 n := (m ((c.tc : Thread nD τ).loc main_arg5) : FVec Ideal S1x50000 .f32) (ix2 0 n)
  pr q := (m ((c.tc : Thread nD τ).loc main_arg6) : FVec Ideal S1x500000 .f32) (ix2 0 q)
  psc q := (m ((c.tc : Thread nD τ).loc main_arg7) : FVec Ideal S1x500000 .f32) (ix2 0 q)
  w e := (m ((c.tc : Thread nD τ).loc main_arg8) : FVec Ideal S10000000 .f32) (ix1 e)
  idx e t := (m ((c.tc : Thread nD τ).loc main_arg9) : IVec S10000000x2 32) (ix2 e t)
  vth n := (m ((c.tc : Thread nD τ).loc main_arg10) : FVec Ideal S50000 .f32) (ix1 n)
  el n := (m ((c.tc : Thread nD τ).loc main_arg11) : FVec Ideal S50000 .f32) (ix1 n)
  vreset n := (m ((c.tc : Thread nD τ).loc main_arg12) : FVec Ideal S50000 .f32) (ix1 n)
  g n := (m ((c.tc : Thread nD τ).loc main_arg13) : FVec Ideal S50000 .f32) (ix1 n)
  decay n := (m ((c.tc : Thread nD τ).loc main_arg14) : FVec Ideal S50000 .f32) (ix1 n)
  cf n := (m ((c.tc : Thread nD τ).loc main_arg15) : FVec Ideal S50000 .f32) (ix1 n)
  tref n := (m ((c.tc : Thread nD τ).loc main_arg16) : FVec Ideal S50000 .f32) (ix1 n)
  k n t := (m ((c.tc : Thread nD τ).loc main_arg17) : FVec Ideal S50000x2 .f32) (ix2 n t)
  amps n t := (m ((c.tc : Thread nD τ).loc main_arg18) : FVec Ideal S50000x2 .f32) (ix2 n t)
  sd q := (m ((c.tc : Thread nD τ).loc main_arg19) : FVec Ideal S500000 .f32) (ix1 q)
  pini q := (m ((c.tc : Thread nD τ).loc main_arg20) : FVec Ideal S500000 .f32) (ix1 q)
  vs n := (m ((c.tc : Thread nD τ).loc main_arg21) : FVec Ideal S50000 .f32) (ix1 n)
  vo n := (m ((c.tc : Thread nD τ).loc main_arg22) : FVec Ideal S50000 .f32) (ix1 n)

end Cert.KernelIdeal.Val

end
-- ==== Proof.Region0Value.lean ====
/-
  The synapse update (the first of the two pipelined kernels), as whole arrays: whatever the five [50000 × 10] arrays
  hold when the region is entered, its three result arrays end holding, entry by entry,
    decay · rise + current · initial,   psc · decay + (1 · decay) · rise,   and the row sums of psc.
  The grid has ten points; point t works on rows 5000 t … 5000 t + 4999 of every array, so the ten blocks tile the arrays.
-/
import proofs.«421398_j54142357733913_2_alg».proof.Proof.KernelIdealFrame
import proofs.«421398_j54142357733913_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (V : (c : Dev nD) → (b : Ref sig .tc) → Buf (Elt Ideal) ((c : Thread nD τ).loc b))

/-- The five argument arrays of the synapse update as the region finds them: the synaptic current, its rising phase,
    the arriving current, the decay and the initial amplitude, each [50000 × 10]. -/
abbrev r0psc (c : Dev nD) : FVec Ideal S50000x10 .f32 := V c main_v22
abbrev r0pr (c : Dev nD) : FVec Ideal S50000x10 .f32 := V c main_v24
abbrev r0rin (c : Dev nD) : FVec Ideal S50000x10 .f32 := V c main_v25
abbrev r0sd (c : Dev nD) : FVec Ideal S50000x10 .f32 := V c main_v26
abbrev r0pini (c : Dev nD) : FVec Ideal S50000x10 .f32 := V c main_v27

/-! ## The body on one block, entry by entry -/

/-- The body loads and stores every staging block whole: its rectangles sit at zero offsets. -/
theorem zeroOffsets : (![0, 0] : Fin 2 → Nat) = fun _ => 0 := funext fun a => by fin_cases a <;> rfl

/-- The block the body leaves for the rising phase: decay · rise + current · initial, entry by entry
    (the shape casts are to the same shape). -/
theorem riseBlock (x0 x1 x2 x3 x4 : Vec Ideal S5000x10 .f32) :
    out0_5 x0 x1 x2 x3 x4 = fun j => x3 j * x1 j + x2 j * x4 j := by
  unfold out0_5
  rw [View.canon_unit_zero zeroOffsets]
  simp only [View.ld_unit_zero (S := S5000x10) zeroOffsets]
  unfold k0_pay4 k0_pay3 k0_pay2
  simp only [shapeCast_self]
  rfl

/-- The block the body leaves for the synaptic current: psc · decay + (1 · decay) · rise, entry by entry. -/
theorem pscBlock (x0 x1 x2 x3 x4 : Vec Ideal S5000x10 .f32) :
    out0_6 x0 x1 x2 x3 x4 = fun j => x0 j * x3 j + Cert.Spec.one * x3 j * x1 j := by
  unfold out0_6
  rw [View.canon_unit_zero zeroOffsets]
  simp only [View.ld_unit_zero (S := S5000x10) zeroOffsets]
  unfold k0_pay5 k0_pay3 k0_pay2 k0_pay1
  simp only [shapeCast_self]
  rfl

/-- The block the body leaves for the input current: row p of the psc block, summed over its ten columns
    (the sum's accumulator is the neutral word, so the sum starts from nothing). -/
theorem rowSumBlock (x0 x1 x2 x3 x4 : Vec Ideal S5000x10 .f32) (p : Fin 5000) (q : Fin 1) :
    out0_7 x0 x1 x2 x3 x4 (ix2 p q) = ∑ k : Fin 10, x0 (ix2 p k) := by
  unfold out0_7
  rw [View.canon_unit_zero zeroOffsets]
  simp only [View.ld_unit_zero (S := S5000x10) zeroOffsets]
  unfold k0_pay6 k0_pay1
  simp only [shapeCast_self]
  refine (shapeCast_apply _ _ (ix2 p q) (ix1 p) ?_).trans ?_
  · rw [Shape.rowMajor_val_one, Shape.rowMajor_val_two]
    show p.val = p.val * 1 + q.val
    omega
  refine (Ideal.multiReduction_add_single x0 0x00000000#32 reduces_S5000x10_S5000 _ _ (ix1 p)).trans ?_
  refine Finset.sum_congr rfl fun k _ => congrArg x0 (funext fun a => Fin.ext ?_)
  match a with
  | ⟨0, _⟩ => rfl
  | ⟨1, _⟩ => rfl

/-! ## Where the blocks sit -/

/-- The windows' index maps, evaluated at the ten points: every window's block at point t is block row t, block
    column 0. -/
theorem blockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-- Entry j of window 1's block at point t is the same entry of its array as in window 0's block: a block's
    coordinate is block index × block size + the coordinate inside the block, and the block indices agree. -/
theorem sameRows1 (t : Fin cfg0.N) (j : S5000x10.Idx) :
    (((cfg0.win 1).blk t).view.emb j : S50000x10.Idx) = ((cfg0.win 0).blk t).view.emb j := by
  obtain ⟨⟨a0, b0⟩, ⟨a1, b1⟩, ⟨a2, b2⟩, ⟨a3, b3⟩, ⟨a4, b4⟩, ⟨a5, b5⟩, ⟨a6, b6⟩, -⟩ := blockIndex t
  refine Shape.idx_ext₂ ?_ ?_
  · show win0_1.index t (0 : Fin 2) * 5000 + 1 * (j 0).val = win0_0.index t (0 : Fin 2) * 5000 + 1 * (j 0).val
    omega
  · show win0_1.index t (1 : Fin 2) * 10 + 1 * (j 1).val = win0_0.index t (1 : Fin 2) * 10 + 1 * (j 1).val
    omega

/-- Entry j of window 2's block at point t is the same entry of its array as in window 0's block: a block's
    coordinate is block index × block size + the coordinate inside the block, and the block indices agree. -/
theorem sameRows2 (t : Fin cfg0.N) (j : S5000x10.Idx) :
    (((cfg0.win 2).blk t).view.emb j : S50000x10.Idx) = ((cfg0.win 0).blk t).view.emb j := by
  obtain ⟨⟨a0, b0⟩, ⟨a1, b1⟩, ⟨a2, b2⟩, ⟨a3, b3⟩, ⟨a4, b4⟩, ⟨a5, b5⟩, ⟨a6, b6⟩, -⟩ := blockIndex t
  refine Shape.idx_ext₂ ?_ ?_
  · show win0_2.index t (0 : Fin 2) * 5000 + 1 * (j 0).val = win0_0.index t (0 : Fin 2) * 5000 + 1 * (j 0).val
    omega
  · show win0_2.index t (1 : Fin 2) * 10 + 1 * (j 1).val = win0_0.index t (1 : Fin 2) * 10 + 1 * (j 1).val
    omega

/-- Entry j of window 3's block at point t is the same entry of its array as in window 0's block: a block's
    coordinate is block index × block size + the coordinate inside the block, and the block indices agree. -/
theorem sameRows3 (t : Fin cfg0.N) (j : S5000x10.Idx) :
    (((cfg0.win 3).blk t).view.emb j : S50000x10.Idx) = ((cfg0.win 0).blk t).view.emb j := by
  obtain ⟨⟨a0, b0⟩, ⟨a1, b1⟩, ⟨a2, b2⟩, ⟨a3, b3⟩, ⟨a4, b4⟩, ⟨a5, b5⟩, ⟨a6, b6⟩, -⟩ := blockIndex t
  refine Shape.idx_ext₂ ?_ ?_
  · show win0_3.index t (0 : Fin 2) * 5000 + 1 * (j 0).val = win0_0.index t (0 : Fin 2) * 5000 + 1 * (j 0).val
    omega
  · show win0_3.index t (1 : Fin 2) * 10 + 1 * (j 1).val = win0_0.index t (1 : Fin 2) * 10 + 1 * (j 1).val
    omega

/-- Entry j of window 4's block at point t is the same entry of its array as in window 0's block: a block's
    coordinate is block index × block size + the coordinate inside the block, and the block indices agree. -/
theorem sameRows4 (t : Fin cfg0.N) (j : S5000x10.Idx) :
    (((cfg0.win 4).blk t).view.emb j : S50000x10.Idx) = ((cfg0.win 0).blk t).view.emb j := by
  obtain ⟨⟨a0, b0⟩, ⟨a1, b1⟩, ⟨a2, b2⟩, ⟨a3, b3⟩, ⟨a4, b4⟩, ⟨a5, b5⟩, ⟨a6, b6⟩, -⟩ := blockIndex t
  refine Shape.idx_ext₂ ?_ ?_
  · show win0_4.index t (0 : Fin 2) * 5000 + 1 * (j 0).val = win0_0.index t (0 : Fin 2) * 5000 + 1 * (j 0).val
    omega
  · show win0_4.index t (1 : Fin 2) * 10 + 1 * (j 1).val = win0_0.index t (1 : Fin 2) * 10 + 1 * (j 1).val
    omega

/-- Entry j of window 5's block at point t is the same entry of its array as in window 0's block: a block's
    coordinate is block index × block size + the coordinate inside the block, and the block indices agree. -/
theorem sameRows5 (t : Fin cfg0.N) (j : S5000x10.Idx) :
    (((cfg0.win 5).blk t).view.emb j : S50000x10.Idx) = ((cfg0.win 0).blk t).view.emb j := by
  obtain ⟨⟨a0, b0⟩, ⟨a1, b1⟩, ⟨a2, b2⟩, ⟨a3, b3⟩, ⟨a4, b4⟩, ⟨a5, b5⟩, ⟨a6, b6⟩, -⟩ := blockIndex t
  refine Shape.idx_ext₂ ?_ ?_
  · show win0_5.index t (0 : Fin 2) * 5000 + 1 * (j 0).val = win0_0.index t (0 : Fin 2) * 5000 + 1 * (j 0).val
    omega
  · show win0_5.index t (1 : Fin 2) * 10 + 1 * (j 1).val = win0_0.index t (1 : Fin 2) * 10 + 1 * (j 1).val
    omega

/-- Entry j of window 6's block at point t is the same entry of its array as in window 0's block: a block's
    coordinate is block index × block size + the coordinate inside the block, and the block indices agree. -/
theorem sameRows6 (t : Fin cfg0.N) (j : S5000x10.Idx) :
    (((cfg0.win 6).blk t).view.emb j : S50000x10.Idx) = ((cfg0.win 0).blk t).view.emb j := by
  obtain ⟨⟨a0, b0⟩, ⟨a1, b1⟩, ⟨a2, b2⟩, ⟨a3, b3⟩, ⟨a4, b4⟩, ⟨a5, b5⟩, ⟨a6, b6⟩, -⟩ := blockIndex t
  refine Shape.idx_ext₂ ?_ ?_
  · show win0_6.index t (0 : Fin 2) * 5000 + 1 * (j 0).val = win0_0.index t (0 : Fin 2) * 5000 + 1 * (j 0).val
    omega
  · show win0_6.index t (1 : Fin 2) * 10 + 1 * (j 1).val = win0_0.index t (1 : Fin 2) * 10 + 1 * (j 1).val
    omega

/-! ## What each point writes back, as a block of one whole-array function -/

/-- The new rising phase as one function of the arrays the region finds. -/
abbrev newRise (c : Dev nD) : FVec Ideal S50000x10 .f32 :=
  fun i => r0sd V c i * r0pr V c i + r0rin V c i * r0pini V c i

/-- What point t writes back to the rising phase's array is block t of that function. -/
theorem riseFlushed (c : Dev nD) (t : Fin cfg0.N) :
    (dat0 V c).flushed 5 t = ((cfg0.win 5).blk t).view.read (Elt Ideal) (newRise V c) := by
  show (cfg0.win 5).cut (grid0.coords t) ((dat0 V c).after 5 t) = _
  rw [after0_5]
  funext j
  refine (congrFun (riseBlock (iblk0 V c 0 t) (iblk0 V c 1 t) (iblk0 V c 2 t) (iblk0 V c 3 t) (iblk0 V c 4 t)) j).trans ?_
  show r0sd V c (((cfg0.win 3).blk t).view.emb j) * r0pr V c (((cfg0.win 1).blk t).view.emb j)
      + r0rin V c (((cfg0.win 2).blk t).view.emb j) * r0pini V c (((cfg0.win 4).blk t).view.emb j)
    = r0sd V c (((cfg0.win 5).blk t).view.emb j) * r0pr V c (((cfg0.win 5).blk t).view.emb j)
      + r0rin V c (((cfg0.win 5).blk t).view.emb j) * r0pini V c (((cfg0.win 5).blk t).view.emb j)
  rw [sameRows1 t j, sameRows2 t j, sameRows3 t j, sameRows4 t j, sameRows5 t j]

/-- The new synaptic current as one function of the arrays the region finds. -/
abbrev newPsc (c : Dev nD) : FVec Ideal S50000x10 .f32 :=
  fun i => r0psc V c i * r0sd V c i + Cert.Spec.one * r0sd V c i * r0pr V c i

/-- What point t writes back to the synaptic current's array is block t of that function. -/
theorem pscFlushed (c : Dev nD) (t : Fin cfg0.N) :
    (dat0 V c).flushed 6 t = ((cfg0.win 6).blk t).view.read (Elt Ideal) (newPsc V c) := by
  show (cfg0.win 6).cut (grid0.coords t) ((dat0 V c).after 6 t) = _
  rw [after0_6]
  funext j
  refine (congrFun (pscBlock (iblk0 V c 0 t) (iblk0 V c 1 t) (iblk0 V c 2 t) (iblk0 V c 3 t) (iblk0 V c 4 t)) j).trans ?_
  show r0psc V c (((cfg0.win 0).blk t).view.emb j) * r0sd V c (((cfg0.win 3).blk t).view.emb j)
      + Cert.Spec.one * r0sd V c (((cfg0.win 3).blk t).view.emb j) * r0pr V c (((cfg0.win 1).blk t).view.emb j)
    = r0psc V c (((cfg0.win 6).blk t).view.emb j) * r0sd V c (((cfg0.win 6).blk t).view.emb j)
      + Cert.Spec.one * r0sd V c (((cfg0.win 6).blk t).view.emb j) * r0pr V c (((cfg0.win 6).blk t).view.emb j)
  rw [sameRows1 t j, sameRows3 t j, sameRows6 t j]

/-! ## The blocks tile the arrays -/

/-- An entry of the array is in point t's block of window 5 iff each coordinate is in the block's range. -/
theorem mem_blk5 (t : Fin cfg0.N) (i : S50000x10.Idx) :
    i ∈ ((cfg0.win 5).blk t).view.set ↔ ∀ a : Fin 2, win0_5.index t a * S5000x10.size a ≤ (i a).val ∧ (i a).val < win0_5.index t a * S5000x10.size a + S5000x10.size a := by
  show i ∈ ((View.whole main_v28_0).slice (win0_5.rect t)).set ↔ _
  rw [View.set_slice_whole, Rect.mem_set_unit]
  exact Iff.rfl

/-- The ten blocks tile the array: row r lies in the block of point r / 5000. -/
theorem cover5 (i : S50000x10.Idx) :
    ∃ t : Fin cfg0.N, (cfg0.win 5).flush t = true ∧ i ∈ ((cfg0.win 5).blk t).view.set := by
  have hi0 : (i 0).val < 50000 := idx2_lt0 i
  have hi1 : (i 1).val < 10 := idx2_lt1 i
  have hN : cfg0.N = 10 := N_0
  let t : Fin cfg0.N := ⟨(i 0).val / 5000, by omega⟩
  obtain ⟨-, -, -, -, -, ⟨a5, b5⟩, ⟨a6, b6⟩, -⟩ := blockIndex t
  have ht : t.val = (i 0).val / 5000 := rfl
  refine ⟨t, flush0_5 t, ?_⟩
  rw [mem_blk5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 10 ≤ (i 1).val ∧ (i 1).val < win0_5.index t (1 : Fin 2) * 10 + 10; omega

/-- An entry of the array is in point t's block of window 6 iff each coordinate is in the block's range. -/
theorem mem_blk6 (t : Fin cfg0.N) (i : S50000x10.Idx) :
    i ∈ ((cfg0.win 6).blk t).view.set ↔ ∀ a : Fin 2, win0_6.index t a * S5000x10.size a ≤ (i a).val ∧ (i a).val < win0_6.index t a * S5000x10.size a + S5000x10.size a := by
  show i ∈ ((View.whole main_v28_1).slice (win0_6.rect t)).set ↔ _
  rw [View.set_slice_whole, Rect.mem_set_unit]
  exact Iff.rfl

/-- The ten blocks tile the array: row r lies in the block of point r / 5000. -/
theorem cover6 (i : S50000x10.Idx) :
    ∃ t : Fin cfg0.N, (cfg0.win 6).flush t = true ∧ i ∈ ((cfg0.win 6).blk t).view.set := by
  have hi0 : (i 0).val < 50000 := idx2_lt0 i
  have hi1 : (i 1).val < 10 := idx2_lt1 i
  have hN : cfg0.N = 10 := N_0
  let t : Fin cfg0.N := ⟨(i 0).val / 5000, by omega⟩
  obtain ⟨-, -, -, -, -, ⟨a5, b5⟩, ⟨a6, b6⟩, -⟩ := blockIndex t
  have ht : t.val = (i 0).val / 5000 := rfl
  refine ⟨t, flush0_6 t, ?_⟩
  rw [mem_blk6]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 10 ≤ (i 1).val ∧ (i 1).val < win0_6.index t (1 : Fin 2) * 10 + 10; omega

/-! ## The input current -/

/-- Each neuron's input current as one function of the synaptic current's array: its row, summed. -/
abbrev rowSums (c : Dev nD) : FVec Ideal S50000x1 .f32 :=
  fun i => ∑ k : Fin 10, r0psc V c (ix2 (⟨(i 0).val, idx2_lt0 i⟩ : Fin 50000) k)

/-- What point t writes back to the input current's array is block t of that function: row p of the psc block at
    point t is row 5000 t + p of the psc array, which is also the row the output's block puts entry p on. -/
theorem rowSumsFlushed (c : Dev nD) (t : Fin cfg0.N) :
    (dat0 V c).flushed 7 t = ((cfg0.win 7).blk t).view.read (Elt Ideal) (rowSums V c) := by
  show (cfg0.win 7).cut (grid0.coords t) ((dat0 V c).after 7 t) = _
  rw [after0_7]
  obtain ⟨⟨a0, b0⟩, -, -, -, -, -, -, ⟨a7, b7⟩⟩ := blockIndex t
  funext j
  obtain ⟨p, q, rfl⟩ : ∃ (p : Fin 5000) (q : Fin 1), j = ix2 p q := ⟨j 0, j 1, eq_ix2 j⟩
  refine (rowSumBlock (iblk0 V c 0 t) (iblk0 V c 1 t) (iblk0 V c 2 t) (iblk0 V c 3 t) (iblk0 V c 4 t) p q).trans ?_
  show ∑ k : Fin 10, r0psc V c (((cfg0.win 0).blk t).view.emb (ix2 p k))
    = ∑ k : Fin 10, r0psc V c (ix2 (⟨((((cfg0.win 7).blk t).view.emb (ix2 p q) : S50000x1.Idx) 0).val, idx2_lt0 _⟩ : Fin 50000) k)
  refine Finset.sum_congr rfl fun k _ => congrArg (r0psc V c) (Shape.idx_ext₂ ?_ ?_)
  · show win0_0.index t (0 : Fin 2) * 5000 + 1 * p.val = win0_7.index t (0 : Fin 2) * 5000 + 1 * p.val
    omega
  · show win0_0.index t (1 : Fin 2) * 10 + 1 * k.val = k.val
    omega

/-- An entry of the array is in point t's block of window 7 iff each coordinate is in the block's range. -/
theorem mem_blk7 (t : Fin cfg0.N) (i : S50000x1.Idx) :
    i ∈ ((cfg0.win 7).blk t).view.set ↔ ∀ a : Fin 2, win0_7.index t a * S5000x1.size a ≤ (i a).val ∧ (i a).val < win0_7.index t a * S5000x1.size a + S5000x1.size a := by
  show i ∈ ((View.whole main_v28_2).slice (win0_7.rect t)).set ↔ _
  rw [View.set_slice_whole, Rect.mem_set_unit]
  exact Iff.rfl

/-- The ten blocks tile the array: row r lies in the block of point r / 5000. -/
theorem cover7 (i : S50000x1.Idx) :
    ∃ t : Fin cfg0.N, (cfg0.win 7).flush t = true ∧ i ∈ ((cfg0.win 7).blk t).view.set := by
  have hi0 : (i 0).val < 50000 := idx2_lt0 i
  have hi1 : (i 1).val < 1 := idx2_lt1 i
  have hN : cfg0.N = 10 := N_0
  let t : Fin cfg0.N := ⟨(i 0).val / 5000, by omega⟩
  obtain ⟨-, -, -, -, -, -, -, ⟨a7, b7⟩⟩ := blockIndex t
  have ht : t.val = (i 0).val / 5000 := rfl
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 1 ≤ (i 1).val ∧ (i 1).val < win0_7.index t (1 : Fin 2) * 1 + 1; omega

/-! ## The three result arrays, whole -/

/-- The new rising phase, whole. -/
theorem arr0_5 (c : Dev nD) : ((dat0 V c).arrAt 5 cfg0.N : FVec Ideal S50000x10 .f32)
    = fun i => r0sd V c i * r0pr V c i + r0rin V c i * r0pini V c i := by
  exact (dat0 V c).arrAt_eq_of_cover 5 (newRise V c) (fun t _ => riseFlushed V c t) cover5

/-- The new synaptic current, whole. -/
theorem arr0_6 (c : Dev nD) : ((dat0 V c).arrAt 6 cfg0.N : FVec Ideal S50000x10 .f32)
    = fun i => r0psc V c i * r0sd V c i + Cert.Spec.one * r0sd V c i * r0pr V c i := by
  exact (dat0 V c).arrAt_eq_of_cover 6 (newPsc V c) (fun t _ => pscFlushed V c t) cover6

/-- Each neuron's input current: its row of the synaptic current, summed. -/
theorem arr0_7 (c : Dev nD) (n : Fin 50000) : ((dat0 V c).arrAt 7 cfg0.N : FVec Ideal S50000x1 .f32) (ix2 n 0)
    = ∑ t : Fin 10, r0psc V c (ix2 n t) := by
  exact congrFun ((dat0 V c).arrAt_eq_of_cover 7 (rowSums V c) (fun t _ => rowSumsFlushed V c t) cover7) (ix2 n 0)

end Cert.KernelIdeal.Val

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.Host0Value.lean ====
/-
  What the host operations before the synapse update leave in the arrays the two kernels read, entry by entry:
  the newest recorded spikes (the first 50000 history slots), the four synapse arrays laid out as [50000 × 10]
  (entry (n, t) is slot 10 n + t), and the current arriving at every synapse slot (a gather of history slots along the
  edges, the weighted values scattered onto the synapse slots and summed, plus the external input).
-/
import proofs.«421398_j54142357733913_2_alg».proof.Proof.KernelIdealFrame
import proofs.«421398_j54142357733913_2_alg».proof.Proof.KernelArgs
import proofs.«421398_j54142357733913_2_alg».proof.Proof.LibScatterGather
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

/-! ## Layout operations at one entry -/

/-- A flat vector laid out as [a × b] reads, at (n, t), the vector at b n + t: both positions are the same in row-major
    order. -/
private theorem shapeCast_flat_ab_apply {α : Type} {N a b : ℕ} (x : (⟨1, ![N]⟩ : Shape).Idx → α)
    (h : (⟨1, ![N]⟩ : Shape).ShapeCasts ⟨2, ![a, b]⟩) (n : Fin a) (t : Fin b) (q : Fin N) (hq : q.val = b * n.val + t.val) :
    shapeCast ⟨2, ![a, b]⟩ x h (ix2 n t) = x (ix1 q) :=
  shapeCast_apply x h _ _ (by
    rw [Shape.rowMajor_val_two, Shape.rowMajor_val_one]
    show q.val = n.val * b + t.val
    rw [hq, Nat.mul_comm])

/-- An [n × 1] column flattened reads, at e, the column at (e, 0). -/
private theorem shapeCast_col_flat_apply {α : Type} {n : ℕ} (x : (⟨2, ![n, 1]⟩ : Shape).Idx → α)
    (h : (⟨2, ![n, 1]⟩ : Shape).ShapeCasts ⟨1, ![n]⟩) (e : Fin n) :
    shapeCast ⟨1, ![n]⟩ x h (ix1 e) = x (ix2 e (0 : Fin 1)) :=
  shapeCast_apply x h _ _ (by
    rw [Shape.rowMajor_val_two, Shape.rowMajor_val_one]
    show e.val * 1 + 0 = e.val
    omega)

/-- The rank-1 index at a coordinate, in its two spellings. -/
private theorem ofFin_eq_ix1 {n : ℕ} (k : Fin n) : Shape.Idx.ofFin k = ix1 k := by
  funext a; match a with | ⟨0, _⟩ => rfl

/-! ## The edge table's columns and the slots they name -/

/-- Column 0 of the [E × 2] edge table (the synapse slot an edge lands on), as a flat vector of words. -/
private abbrev dstVec (E : IVec S10000000x2 32) : IVec S10000000 32 :=
  shapeCast S10000000 (extractStridedSlice S10000000x1 ![0, 0] E slices_S10000000x2_S10000000x1_0_0) shapeCasts_S10000000x1_S10000000

/-- Column 1 of the edge table (the history position an edge reads), as a flat vector of words. -/
private abbrev srcVec (E : IVec S10000000x2 32) : IVec S10000000 32 :=
  shapeCast S10000000 (extractStridedSlice S10000000x1 ![0, 1] E slices_S10000000x2_S10000000x1_0_1) shapeCasts_S10000000x1_S10000000

/-- The history position of every edge, a negative one counted from the end, as an [E × 1] column of start positions. -/
private abbrev slotCol (E : IVec S10000000x2 32) : IVec S10000000x1 32 :=
  broadcastInDim S10000000x1 ![0] bcast_S10000000_S10000000x1_0
    (select (cmpi .slt (srcVec E) (broadcastInDim S10000000 ![] bcast_S_S10000000 (constantI S_ 32 0#32)))
      (addi (srcVec E) (broadcastInDim S10000000 ![] bcast_S_S10000000 (constantI S_ 32 250000#32)))
      (srcVec E))

/-- The current arriving at every synapse slot, as the host operations compute it: the flat history gathered along the
    edges' positions, times the weights, scattered onto zeros along the edges' slots and summed, times one, plus the
    external input. -/
private abbrev recVec (A0 : FVec Ideal S1x500000 .f32) (A1 : FVec Ideal S1x250000 .f32) (A8 : FVec Ideal S10000000 .f32)
    (A9 : IVec S10000000x2 32) : FVec Ideal S500000 .f32 :=
  addf
    (mulf
      (Host.scatterAdd (F := Ideal) scatter_S500000_S10000000x1_S10000000_n_0_0_1
        (broadcastInDim S500000 ![] bcast_S_S500000 (constant (F := Ideal) S_ .f32 0x00000000#32))
        (broadcastInDim S10000000x1 ![0] bcast_S10000000_S10000000x1_0 (dstVec A9))
        (mulf A8
          (Host.gather gather_S250000_S10000000x1_S10000000_n_0_n_n_0_1_1
            (shapeCast S250000 A1 shapeCasts_S1x250000_S250000) (slotCol A9))))
      (broadcastInDim S500000 ![] bcast_S_S500000 (constant (F := Ideal) S_ .f32 0x3F800000#32)))
    (shapeCast S500000 A0 shapeCasts_S1x500000_S500000)

/-- Entry e of column 0 is the table's entry (e, 0). -/
private theorem dstVec_apply (E : IVec S10000000x2 32) (e : Fin 10000000) : dstVec E (ix1 e) = E (ix2 e (0 : Fin 2)) :=
  (shapeCast_col_flat_apply _ _ e).trans (slice2_axis1_apply 0 E _ e (0 : Fin 1) (0 : Fin 2) rfl)

/-- Entry e of column 1 is the table's entry (e, 1). -/
private theorem srcVec_apply (E : IVec S10000000x2 32) (e : Fin 10000000) : srcVec E (ix1 e) = E (ix2 e (1 : Fin 2)) :=
  (shapeCast_col_flat_apply _ _ e).trans (slice2_axis1_apply 1 E _ e (0 : Fin 1) (1 : Fin 2) rfl)

/-- Row e of the column of start positions: the edge's second entry, 250000 added when it is negative. -/
private theorem slotCol_apply (E : IVec S10000000x2 32) (e : Fin 10000000) :
    slotCol E (StableHlo.Predicate.ixP e)
      = Scalar.select (IntOp.cmpi .slt (E (ix2 e (1 : Fin 2))) 0#32) (IntOp.addi (E (ix2 e (1 : Fin 2))) 250000#32) (E (ix2 e (1 : Fin 2))) := by
  refine (StableHlo.Predicate.bcast_col1 _ _ e).trans ?_
  rw [ofFin_eq_ix1]
  show Scalar.select (IntOp.cmpi .slt (srcVec E (ix1 e)) 0#32) (IntOp.addi (srcVec E (ix1 e)) 250000#32) (srcVec E (ix1 e)) = _
  rw [srcVec_apply]

/-- Row e of the column of slots an update lands on: the edge's first entry. -/
private theorem dstCol_apply (A9 : IVec S10000000x2 32) (e : Fin 10000000) :
    (broadcastInDim S10000000x1 ![0] bcast_S10000000_S10000000x1_0 (dstVec A9)) (StableHlo.Predicate.ixP e) = A9 (ix2 e (0 : Fin 2)) := by
  refine (StableHlo.Predicate.bcast_col1 _ _ e).trans ?_
  rw [ofFin_eq_ix1]
  exact dstVec_apply A9 e

/-- The gathered history at edge e: the history entry at the edge's position, read signed and clamped into the 250000
    slots. -/
private theorem gathered_apply (A1 : FVec Ideal S1x250000 .f32) (A9 : IVec S10000000x2 32) (e : Fin 10000000) :
    Host.gather gather_S250000_S10000000x1_S10000000_n_0_n_n_0_1_1
        (shapeCast S250000 A1 shapeCasts_S1x250000_S250000) (slotCol A9) (ix1 e)
      = A1 (ix2 0 (Cert.Spec.col (fun e k => A9 (ix2 e k)) e)) := by
  rw [← ofFin_eq_ix1,
    StableHlo.Predicate.gather_take gather_S250000_S10000000x1_S10000000_n_0_n_n_0_1_1 rfl rfl rfl rfl _ _ e (by decide),
    ofFin_eq_ix1]
  refine (shapeCast_1a_a_apply A1 _ _).trans ?_
  refine congrArg (fun p : Fin 250000 => A1 (ix2 0 p)) (Fin.ext ?_)
  exact congrArg (fun w : BitVec 32 => min w.toInt.toNat (250000 - 1)) (slotCol_apply A9 e)

/-- THE CURRENT AT SLOT q: the scatter reads the target's zero plus the sum of the updates whose slot, read signed, is q;
    an update is the edge's weight times the history entry at its clamped position; then the product with one and the
    external input's entry. -/
private theorem recVec_apply (A0 : FVec Ideal S1x500000 .f32) (A1 : FVec Ideal S1x250000 .f32) (A8 : FVec Ideal S10000000 .f32)
    (A9 : IVec S10000000x2 32) (q : Fin 500000) :
    recVec A0 A1 A8 A9 (ix1 q)
      = Cert.Spec.recIn (fun e => A8 (ix1 e)) (fun e k => A9 (ix2 e k)) (fun p => A1 (ix2 0 p)) (fun r => A0 (ix2 0 r)) q := by
  unfold recVec
  rw [addf_apply, mulf_apply, Cert.LibSG.scatterAdd_flat scatter_S500000_S10000000x1_S10000000_n_0_0_1 rfl rfl rfl rfl,
    shapeCast_1a_a_apply]
  unfold Cert.Spec.recIn
  refine congrArg₂ (· + ·) (congrArg₂ (· * ·) (congrArg₂ (· + ·) rfl ?_) rfl) rfl
  exact Finset.sum_congr (Finset.filter_congr fun e _ => by rw [dstCol_apply])
    (fun e _ => by rw [mulf_apply, gathered_apply])

/-! ## The six arrays -/

variable (m : Mem) (ρ : Dev nD → PrngReg)

theorem V1_v0 (c : Dev nD) (n : Fin 50000) :
    (V1 m ρ c main_v0 : FVec Ideal S1x50000 .f32) (ix2 0 n) = (args m c).pz n := by
  have e : (V1 m ρ c main_v0 : FVec Ideal S1x50000 .f32)
      = extractStridedSlice S1x50000 ![0, 0] (m ((c.tc : Thread nD τ).loc main_arg1) : FVec Ideal S1x250000 .f32)
          slices_S1x250000_S1x50000_0_0 := by
    show StableHlo.after hostOps0 _ (Proc.devRef .tc main_v0) = _
    after_results
    all_goals rfl
  rw [e]
  exact slice2_axis1_apply 0 _ _ (0 : Fin 1) n ⟨n.val, by omega⟩ (Nat.zero_add _).symm

theorem V1_v22 (c : Dev nD) (n : Fin 50000) (t : Fin 10) :
    (V1 m ρ c main_v22 : FVec Ideal S50000x10 .f32) (ix2 n t) = (args m c).psc ⟨10 * n.val + t.val, by omega⟩ := by
  have e : (V1 m ρ c main_v22 : FVec Ideal S50000x10 .f32)
      = shapeCast S50000x10 (shapeCast S500000 (m ((c.tc : Thread nD τ).loc main_arg7) : FVec Ideal S1x500000 .f32)
          shapeCasts_S1x500000_S500000) shapeCasts_S500000_S50000x10 := by
    show StableHlo.after hostOps0 _ (Proc.devRef .tc main_v22) = _
    after_results
    all_goals rfl
  rw [e]
  refine (shapeCast_flat_ab_apply _ _ n t ⟨10 * n.val + t.val, by omega⟩ rfl).trans ?_
  exact shapeCast_1a_a_apply _ _ _

theorem V1_v24 (c : Dev nD) (n : Fin 50000) (t : Fin 10) :
    (V1 m ρ c main_v24 : FVec Ideal S50000x10 .f32) (ix2 n t) = (args m c).pr ⟨10 * n.val + t.val, by omega⟩ := by
  have e : (V1 m ρ c main_v24 : FVec Ideal S50000x10 .f32)
      = shapeCast S50000x10 (shapeCast S500000 (m ((c.tc : Thread nD τ).loc main_arg6) : FVec Ideal S1x500000 .f32)
          shapeCasts_S1x500000_S500000) shapeCasts_S500000_S50000x10 := by
    show StableHlo.after hostOps0 _ (Proc.devRef .tc main_v24) = _
    after_results
    all_goals rfl
  rw [e]
  refine (shapeCast_flat_ab_apply _ _ n t ⟨10 * n.val + t.val, by omega⟩ rfl).trans ?_
  exact shapeCast_1a_a_apply _ _ _

set_option maxHeartbeats 2000000 in
theorem V1_v25 (c : Dev nD) (n : Fin 50000) (t : Fin 10) :
    (V1 m ρ c main_v25 : FVec Ideal S50000x10 .f32) (ix2 n t) = (args m c).rin ⟨10 * n.val + t.val, by omega⟩ := by
  have e : (V1 m ρ c main_v25 : FVec Ideal S50000x10 .f32)
      = shapeCast S50000x10
          (recVec (m ((c.tc : Thread nD τ).loc main_arg0)) (m ((c.tc : Thread nD τ).loc main_arg1))
            (m ((c.tc : Thread nD τ).loc main_arg8)) (m ((c.tc : Thread nD τ).loc main_arg9)))
          shapeCasts_S500000_S50000x10 := by
    show StableHlo.after (hostOps0 (F := Ideal)) (W0 m ρ c) (Proc.devRef .tc main_v25) = _
    after_results_simp
    all_goals rfl
  rw [e]
  refine (shapeCast_flat_ab_apply _ _ n t ⟨10 * n.val + t.val, by omega⟩ rfl).trans ?_
  exact recVec_apply _ _ _ _ _

theorem V1_v26 (c : Dev nD) (n : Fin 50000) (t : Fin 10) :
    (V1 m ρ c main_v26 : FVec Ideal S50000x10 .f32) (ix2 n t) = (args m c).sd ⟨10 * n.val + t.val, by omega⟩ := by
  have e : (V1 m ρ c main_v26 : FVec Ideal S50000x10 .f32)
      = shapeCast S50000x10 (m ((c.tc : Thread nD τ).loc main_arg19) : FVec Ideal S500000 .f32) shapeCasts_S500000_S50000x10 := by
    show StableHlo.after hostOps0 _ (Proc.devRef .tc main_v26) = _
    after_results
    all_goals rfl
  rw [e]
  exact shapeCast_flat_ab_apply _ _ n t ⟨10 * n.val + t.val, by omega⟩ rfl

theorem V1_v27 (c : Dev nD) (n : Fin 50000) (t : Fin 10) :
    (V1 m ρ c main_v27 : FVec Ideal S50000x10 .f32) (ix2 n t) = (args m c).pini ⟨10 * n.val + t.val, by omega⟩ := by
  have e : (V1 m ρ c main_v27 : FVec Ideal S50000x10 .f32)
      = shapeCast S50000x10 (m ((c.tc : Thread nD τ).loc main_arg20) : FVec Ideal S500000 .f32) shapeCasts_S500000_S50000x10 := by
    show StableHlo.after hostOps0 _ (Proc.devRef .tc main_v27) = _
    after_results
    all_goals rfl
  rw [e]
  exact shapeCast_flat_ab_apply _ _ n t ⟨10 * n.val + t.val, by omega⟩ rfl

end Cert.KernelIdeal.Val

end
-- ==== Proof.Host1Value.lean ====
/-
  What the membrane update finds in its nineteen argument arrays, entry by entry, and the two synaptic results.

  Between the two kernels the host only re-lays arrays: the synapse update's three results [50000 × 10], [50000 × 10]
  and [50000 × 1] become rows [1 × 500000], [1 × 500000] and [1 × 50000]; every per-neuron argument vector becomes a
  row; the two columns of the after-spike constants and amplitudes are taken apart. The first four arguments and the
  newest recorded spikes pass through untouched.
-/
import proofs.«421398_j54142357733913_2_alg».proof.Proof.KernelIdealFrame
import proofs.«421398_j54142357733913_2_alg».proof.Proof.KernelArgs
import proofs.«421398_j54142357733913_2_alg».proof.Proof.Region0Value
import proofs.«421398_j54142357733913_2_alg».proof.Proof.Host0Value
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

-- membership of a reference in a literal list is decided over the signature's many references
set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (m : Mem) (ρ : Dev nD → PrngReg)

/-! ## Which arrays the host operations write -/

/-- The arrays the host operations before the synapse update write. -/
private abbrev host1Writes0 : List (Ref sig .tc) :=
  [main_v0, main_v1, main_v2, main_v3, main_c, main_v4, main_v5, main_c_0, main_v6, main_v7, main_v8, main_v9, main_v10,
   main_v11, main_v12, main_v13, main_cst, main_v14, main_v15, main_v16, main_cst_1, main_v17, main_v18, main_v19, main_v20,
   main_v21, main_v22, main_v23, main_v24, main_v25, main_v26, main_v27]

/-- The arrays the host operations between the two updates write. -/
private abbrev host1Writes1 : List (Ref sig .tc) :=
  [main_v29, main_v30, main_v31, main_v32, main_v33, main_v34, main_v35, main_v36, main_v37, main_v38, main_v39, main_v40,
   main_v41, main_v42, main_v43, main_v44, main_v45, main_v46, main_v47, main_v48, main_v49, main_v50, main_v51, main_v52]

private theorem host1_ops0_writes : (hostOps0 : List (HloOp τ sig (Elt Ideal))).Forall fun op =>
    op.writes ⊆ (host1Writes0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

private theorem host1_ops1_writes : (hostOps1 : List (HloOp τ sig (Elt Ideal))).Forall fun op =>
    op.writes ⊆ (host1Writes1.map (Proc.devRef (τ := τ) .tc)).toFinset := by
  simp only [hostOps1, List.Forall, StableHlo.unary_writes, StableHlo.reshape_writes, Finset.singleton_subset_iff,
    List.mem_toFinset]
  repeat' apply And.intro
  all_goals exact List.mem_map_of_mem (by decide)

/-- An array the first host operations do not write is, when the synapse update begins, as launched. -/
private theorem host1_W1_of (c : Dev nD) (r : Ref sig .tc) (h : r ∉ host1Writes0) :
    W1 m ρ c (Proc.devRef .tc r) = m ((c : Thread nD τ).loc r) :=
  StableHlo.after_of_writes_sub hostOps0 _ host1_ops0_writes h

/-- An array neither the first host operations nor the synapse update write is, after the synapse update, as launched. -/
private theorem host1_W2_of (c : Dev nD) (r : Ref sig .tc) (h : r ∉ host1Writes0) (hr : ∀ w, Pipeline.arrRef spec0 w ≠ r) :
    W2 m ρ c (Proc.devRef .tc r) = m ((c : Thread nD τ).loc r) :=
  (W2_of_ne m ρ c r hr).trans (host1_W1_of m ρ c r h)

/-- An array the host operations between the two updates do not write is, when the membrane update begins, as the
    synapse update left it. -/
private theorem host1_W3_of (c : Dev nD) (r : Ref sig .tc) (h : r ∉ host1Writes1) :
    W3 m ρ c (Proc.devRef .tc r) = W2 m ρ c (Proc.devRef .tc r) :=
  StableHlo.after_of_writes_sub hostOps1 _ host1_ops1_writes h

/-- An argument nothing writes before the membrane update. -/
private theorem host1_V3_arg (c : Dev nD) (r : Ref sig .tc) (h1 : r ∉ host1Writes1) (h0 : r ∉ host1Writes0)
    (hr : ∀ w, Pipeline.arrRef spec0 w ≠ r) : V3 m ρ c r = m ((c : Thread nD τ).loc r) :=
  (host1_W3_of m ρ c r h1).trans (host1_W2_of m ρ c r h0 hr)

/-! ## The re-layings read at an entry -/

/-- A vector re-laid as a row: entry (0, n) of the row is entry n of the vector. -/
private theorem host1_row_of_vec (X : FVec Ideal S50000 .f32) (h : S50000.ShapeCasts S1x50000) (n : Fin 50000) :
    (shapeCast S1x50000 X h : FVec Ideal S1x50000 .f32) (ix2 0 n) = X (ix1 n) :=
  shapeCast_a_1a_apply X h 0 n

/-- A column re-laid as a row: both have row-major position n. -/
private theorem host1_row_of_col (X : FVec Ideal S50000x1 .f32) (h : S50000x1.ShapeCasts S1x50000) (n : Fin 50000) :
    (shapeCast S1x50000 X h : FVec Ideal S1x50000 .f32) (ix2 0 n) = X (ix2 n 0) :=
  shapeCast_apply X h _ _ (by
    rw [Shape.rowMajor_val_two, Shape.rowMajor_val_two]
    show n.val * 1 + 0 = 0 * 50000 + n.val
    omega)

/-- A [50000 × 10] array re-laid as a row: slot q is entry (q / 10, q % 10). -/
private theorem host1_row_of_mat (X : FVec Ideal S50000x10 .f32) (h : S50000x10.ShapeCasts S1x500000) (q : Fin 500000) :
    (shapeCast S1x500000 X h : FVec Ideal S1x500000 .f32) (ix2 0 q)
      = X (ix2 (⟨q.val / 10, by omega⟩ : Fin 50000) (⟨q.val % 10, by omega⟩ : Fin 10)) :=
  shapeCast_apply X h _ _ (by
    rw [Shape.rowMajor_val_two, Shape.rowMajor_val_two]
    show q.val / 10 * 10 + q.val % 10 = 0 * 500000 + q.val
    omega)

/-- Column k of a [50000 × 2] array, cut out, flattened and re-laid as a row. -/
private theorem host1_row_of_cut (o : Nat) (X : FVec Ideal S50000x2 .f32) (hs : S50000x2.Slices ![0, o] S50000x1)
    (h1 : S50000x1.ShapeCasts S50000) (h2 : S50000.ShapeCasts S1x50000) (n : Fin 50000) (k : Fin 2) (hk : k.val = o) :
    (shapeCast S1x50000 (shapeCast S50000 (extractStridedSlice S50000x1 ![0, o] X hs) h1) h2 : FVec Ideal S1x50000 .f32) (ix2 0 n)
      = X (ix2 n k) := by
  refine (shapeCast_a_1a_apply _ h2 0 n).trans ?_
  refine (shapeCast_apply _ h1 (ix1 n) (ix2 n (0 : Fin 1)) (by
    rw [Shape.rowMajor_val_two, Shape.rowMajor_val_one]
    show n.val * 1 + 0 = n.val
    omega)).trans ?_
  exact slice2_axis1_apply o X hs n 0 k (by rw [hk]; rfl)

/-- Slot q of the row belongs to neuron q / 10, receptor q % 10. -/
private theorem host1_slot_eq (q : Fin 500000) (n : Fin 50000) (t : Fin 10) (hn : n.val = q.val / 10) (ht : t.val = q.val % 10) :
    (⟨10 * n.val + t.val, by omega⟩ : Fin 500000) = q :=
  Fin.ext (by show 10 * n.val + t.val = q.val; omega)

/-- A neuron's input current from its row sum: the sum starts from the zero literal, which is the real number zero. -/
private theorem host1_inCur_of (X : FVec Ideal S50000x1 .f32) (P : FVec Ideal S50000x10 .f32) (psc : Fin 500000 → EReal)
    (n : Fin 50000) (hX : X (ix2 n 0) = ∑ t : Fin 10, P (ix2 n t))
    (hP : ∀ t : Fin 10, P (ix2 n t) = psc ⟨10 * n.val + t.val, by omega⟩) :
    X (ix2 n 0) = Cert.Spec.inCur psc n := by
  rw [hX]
  unfold Cert.Spec.inCur Cert.Spec.zero
  rw [Ideal.ofBits_zero_f32, zero_add]
  exact Finset.sum_congr rfl fun t _ => hP t

/-- The membrane potential: an argument of the program, written by nothing before the membrane update. -/
theorem V3_arg2 (c : Dev nD) (n : Fin 50000) :
    (V3 m ρ c main_arg2 : FVec Ideal S1x50000 .f32) (ix2 0 n) = (args m c).v n := by
  exact congrFun (host1_V3_arg m ρ c main_arg2 (by decide) (by decide) (by decide)) (ix2 0 n)

/-- The refractory counter. -/
theorem V3_arg3 (c : Dev nD) (n : Fin 50000) :
    (V3 m ρ c main_arg3 : FVec Ideal S1x50000 .f32) (ix2 0 n) = (args m c).r n := by
  exact congrFun (host1_V3_arg m ρ c main_arg3 (by decide) (by decide) (by decide)) (ix2 0 n)

/-- The first after-spike current. -/
theorem V3_arg4 (c : Dev nD) (n : Fin 50000) :
    (V3 m ρ c main_arg4 : FVec Ideal S1x50000 .f32) (ix2 0 n) = (args m c).a1 n := by
  exact congrFun (host1_V3_arg m ρ c main_arg4 (by decide) (by decide) (by decide)) (ix2 0 n)

/-- The second after-spike current. -/
theorem V3_arg5 (c : Dev nD) (n : Fin 50000) :
    (V3 m ρ c main_arg5 : FVec Ideal S1x50000 .f32) (ix2 0 n) = (args m c).a2 n := by
  exact congrFun (host1_V3_arg m ρ c main_arg5 (by decide) (by decide) (by decide)) (ix2 0 n)

/-- The newest recorded spikes: written before the synapse update, untouched since. -/
theorem V3_v0 (c : Dev nD) (n : Fin 50000) :
    (V3 m ρ c main_v0 : FVec Ideal S1x50000 .f32) (ix2 0 n) = (args m c).pz n := by
  have e : V3 m ρ c main_v0 = V1 m ρ c main_v0 :=
    (host1_W3_of m ρ c main_v0 (by decide)).trans (W2_of_ne m ρ c main_v0 (by decide))
  exact (congrFun e (ix2 0 n)).trans (V1_v0 m ρ c n)

/-- The input current: the synapse update's row sums of the synaptic current, re-laid as a row; the sum starts from the zero literal, which is the real number zero. -/
theorem V3_v31 (c : Dev nD) (n : Fin 50000) :
    (V3 m ρ c main_v31 : FVec Ideal S1x50000 .f32) (ix2 0 n) = Cert.Spec.inCur (args m c).psc n := by
  have e : (V3 m ρ c main_v31 : FVec Ideal S1x50000 .f32)
      = shapeCast S1x50000 (W2 m ρ c (Proc.devRef .tc main_v28_2) : FVec Ideal S50000x1 .f32) shapeCasts_S50000x1_S1x50000 := by
    show StableHlo.after hostOps1 _ (Proc.devRef .tc main_v31) = _
    after_results; rfl
  refine (congrFun e (ix2 0 n)).trans ((host1_row_of_col _ _ n).trans ?_)
  exact host1_inCur_of _ (r0psc (V1 m ρ) c) _ n
    ((congrFun (W2_arr m ρ c 7) (ix2 n 0)).trans (arr0_7 (V1 m ρ) c n)) (fun t => V1_v22 m ρ c n t)

/-- The threshold. -/
theorem V3_v32 (c : Dev nD) (n : Fin 50000) :
    (V3 m ρ c main_v32 : FVec Ideal S1x50000 .f32) (ix2 0 n) = (args m c).vth n := by
  have e : (V3 m ρ c main_v32 : FVec Ideal S1x50000 .f32)
      = shapeCast S1x50000 (W2 m ρ c (Proc.devRef .tc main_arg10) : FVec Ideal S50000 .f32) shapeCasts_S50000_S1x50000 := by
    show StableHlo.after hostOps1 _ (Proc.devRef .tc main_v32) = _
    after_results; rfl
  refine (congrFun e (ix2 0 n)).trans ((host1_row_of_vec _ _ n).trans ?_)
  exact congrFun (host1_W2_of m ρ c main_arg10 (by decide) (by decide)) (ix1 n)

/-- The resting potential. -/
theorem V3_v33 (c : Dev nD) (n : Fin 50000) :
    (V3 m ρ c main_v33 : FVec Ideal S1x50000 .f32) (ix2 0 n) = (args m c).el n := by
  have e : (V3 m ρ c main_v33 : FVec Ideal S1x50000 .f32)
      = shapeCast S1x50000 (W2 m ρ c (Proc.devRef .tc main_arg11) : FVec Ideal S50000 .f32) shapeCasts_S50000_S1x50000 := by
    show StableHlo.after hostOps1 _ (Proc.devRef .tc main_v33) = _
    after_results; rfl
  refine (congrFun e (ix2 0 n)).trans ((host1_row_of_vec _ _ n).trans ?_)
  exact congrFun (host1_W2_of m ρ c main_arg11 (by decide) (by decide)) (ix1 n)

/-- The reset potential. -/
theorem V3_v34 (c : Dev nD) (n : Fin 50000) :
    (V3 m ρ c main_v34 : FVec Ideal S1x50000 .f32) (ix2 0 n) = (args m c).vreset n := by
  have e : (V3 m ρ c main_v34 : FVec Ideal S1x50000 .f32)
      = shapeCast S1x50000 (W2 m ρ c (Proc.devRef .tc main_arg12) : FVec Ideal S50000 .f32) shapeCasts_S50000_S1x50000 := by
    show StableHlo.after hostOps1 _ (Proc.devRef .tc main_v34) = _
    after_results; rfl
  refine (congrFun e (ix2 0 n)).trans ((host1_row_of_vec _ _ n).trans ?_)
  exact congrFun (host1_W2_of m ρ c main_arg12 (by decide) (by decide)) (ix1 n)

/-- The conductance. -/
theorem V3_v35 (c : Dev nD) (n : Fin 50000) :
    (V3 m ρ c main_v35 : FVec Ideal S1x50000 .f32) (ix2 0 n) = (args m c).g n := by
  have e : (V3 m ρ c main_v35 : FVec Ideal S1x50000 .f32)
      = shapeCast S1x50000 (W2 m ρ c (Proc.devRef .tc main_arg13) : FVec Ideal S50000 .f32) shapeCasts_S50000_S1x50000 := by
    show StableHlo.after hostOps1 _ (Proc.devRef .tc main_v35) = _
    after_results; rfl
  refine (congrFun e (ix2 0 n)).trans ((host1_row_of_vec _ _ n).trans ?_)
  exact congrFun (host1_W2_of m ρ c main_arg13 (by decide) (by decide)) (ix1 n)

/-- The decay. -/
theorem V3_v36 (c : Dev nD) (n : Fin 50000) :
    (V3 m ρ c main_v36 : FVec Ideal S1x50000 .f32) (ix2 0 n) = (args m c).decay n := by
  have e : (V3 m ρ c main_v36 : FVec Ideal S1x50000 .f32)
      = shapeCast S1x50000 (W2 m ρ c (Proc.devRef .tc main_arg14) : FVec Ideal S50000 .f32) shapeCasts_S50000_S1x50000 := by
    show StableHlo.after hostOps1 _ (Proc.devRef .tc main_v36) = _
    after_results; rfl
  refine (congrFun e (ix2 0 n)).trans ((host1_row_of_vec _ _ n).trans ?_)
  exact congrFun (host1_W2_of m ρ c main_arg14 (by decide) (by decide)) (ix1 n)

/-- The current factor. -/
theorem V3_v37 (c : Dev nD) (n : Fin 50000) :
    (V3 m ρ c main_v37 : FVec Ideal S1x50000 .f32) (ix2 0 n) = (args m c).cf n := by
  have e : (V3 m ρ c main_v37 : FVec Ideal S1x50000 .f32)
      = shapeCast S1x50000 (W2 m ρ c (Proc.devRef .tc main_arg15) : FVec Ideal S50000 .f32) shapeCasts_S50000_S1x50000 := by
    show StableHlo.after hostOps1 _ (Proc.devRef .tc main_v37) = _
    after_results; rfl
  refine (congrFun e (ix2 0 n)).trans ((host1_row_of_vec _ _ n).trans ?_)
  exact congrFun (host1_W2_of m ρ c main_arg15 (by decide) (by decide)) (ix1 n)

/-- The refractory time. -/
theorem V3_v38 (c : Dev nD) (n : Fin 50000) :
    (V3 m ρ c main_v38 : FVec Ideal S1x50000 .f32) (ix2 0 n) = (args m c).tref n := by
  have e : (V3 m ρ c main_v38 : FVec Ideal S1x50000 .f32)
      = shapeCast S1x50000 (W2 m ρ c (Proc.devRef .tc main_arg16) : FVec Ideal S50000 .f32) shapeCasts_S50000_S1x50000 := by
    show StableHlo.after hostOps1 _ (Proc.devRef .tc main_v38) = _
    after_results; rfl
  refine (congrFun e (ix2 0 n)).trans ((host1_row_of_vec _ _ n).trans ?_)
  exact congrFun (host1_W2_of m ρ c main_arg16 (by decide) (by decide)) (ix1 n)

/-- The voltage scale. -/
theorem V3_v39 (c : Dev nD) (n : Fin 50000) :
    (V3 m ρ c main_v39 : FVec Ideal S1x50000 .f32) (ix2 0 n) = (args m c).vs n := by
  have e : (V3 m ρ c main_v39 : FVec Ideal S1x50000 .f32)
      = shapeCast S1x50000 (W2 m ρ c (Proc.devRef .tc main_arg21) : FVec Ideal S50000 .f32) shapeCasts_S50000_S1x50000 := by
    show StableHlo.after hostOps1 _ (Proc.devRef .tc main_v39) = _
    after_results; rfl
  refine (congrFun e (ix2 0 n)).trans ((host1_row_of_vec _ _ n).trans ?_)
  exact congrFun (host1_W2_of m ρ c main_arg21 (by decide) (by decide)) (ix1 n)

/-- The voltage offset. -/
theorem V3_v40 (c : Dev nD) (n : Fin 50000) :
    (V3 m ρ c main_v40 : FVec Ideal S1x50000 .f32) (ix2 0 n) = (args m c).vo n := by
  have e : (V3 m ρ c main_v40 : FVec Ideal S1x50000 .f32)
      = shapeCast S1x50000 (W2 m ρ c (Proc.devRef .tc main_arg22) : FVec Ideal S50000 .f32) shapeCasts_S50000_S1x50000 := by
    show StableHlo.after hostOps1 _ (Proc.devRef .tc main_v40) = _
    after_results; rfl
  refine (congrFun e (ix2 0 n)).trans ((host1_row_of_vec _ _ n).trans ?_)
  exact congrFun (host1_W2_of m ρ c main_arg22 (by decide) (by decide)) (ix1 n)

/-- The first after-spike constant: column 0 of the [50000 × 2] array. -/
theorem V3_v43 (c : Dev nD) (n : Fin 50000) :
    (V3 m ρ c main_v43 : FVec Ideal S1x50000 .f32) (ix2 0 n) = (args m c).k n 0 := by
  have e : (V3 m ρ c main_v43 : FVec Ideal S1x50000 .f32)
      = shapeCast S1x50000 (shapeCast S50000 (extractStridedSlice S50000x1 ![0, 0]
          (W2 m ρ c (Proc.devRef .tc main_arg17) : FVec Ideal S50000x2 .f32) slices_S50000x2_S50000x1_0_0)
          shapeCasts_S50000x1_S50000) shapeCasts_S50000_S1x50000 := by
    show StableHlo.after hostOps1 _ (Proc.devRef .tc main_v43) = _
    after_results; rfl
  refine (congrFun e (ix2 0 n)).trans ((host1_row_of_cut 0 _ _ _ _ n 0 rfl).trans ?_)
  exact congrFun (host1_W2_of m ρ c main_arg17 (by decide) (by decide)) (ix2 n 0)

/-- The second after-spike constant: column 1. -/
theorem V3_v46 (c : Dev nD) (n : Fin 50000) :
    (V3 m ρ c main_v46 : FVec Ideal S1x50000 .f32) (ix2 0 n) = (args m c).k n 1 := by
  have e : (V3 m ρ c main_v46 : FVec Ideal S1x50000 .f32)
      = shapeCast S1x50000 (shapeCast S50000 (extractStridedSlice S50000x1 ![0, 1]
          (W2 m ρ c (Proc.devRef .tc main_arg17) : FVec Ideal S50000x2 .f32) slices_S50000x2_S50000x1_0_1)
          shapeCasts_S50000x1_S50000) shapeCasts_S50000_S1x50000 := by
    show StableHlo.after hostOps1 _ (Proc.devRef .tc main_v46) = _
    after_results; rfl
  refine (congrFun e (ix2 0 n)).trans ((host1_row_of_cut 1 _ _ _ _ n 1 rfl).trans ?_)
  exact congrFun (host1_W2_of m ρ c main_arg17 (by decide) (by decide)) (ix2 n 1)

/-- The first after-spike amplitude. -/
theorem V3_v49 (c : Dev nD) (n : Fin 50000) :
    (V3 m ρ c main_v49 : FVec Ideal S1x50000 .f32) (ix2 0 n) = (args m c).amps n 0 := by
  have e : (V3 m ρ c main_v49 : FVec Ideal S1x50000 .f32)
      = shapeCast S1x50000 (shapeCast S50000 (extractStridedSlice S50000x1 ![0, 0]
          (W2 m ρ c (Proc.devRef .tc main_arg18) : FVec Ideal S50000x2 .f32) slices_S50000x2_S50000x1_0_0)
          shapeCasts_S50000x1_S50000) shapeCasts_S50000_S1x50000 := by
    show StableHlo.after hostOps1 _ (Proc.devRef .tc main_v49) = _
    after_results; rfl
  refine (congrFun e (ix2 0 n)).trans ((host1_row_of_cut 0 _ _ _ _ n 0 rfl).trans ?_)
  exact congrFun (host1_W2_of m ρ c main_arg18 (by decide) (by decide)) (ix2 n 0)

/-- The second after-spike amplitude. -/
theorem V3_v52 (c : Dev nD) (n : Fin 50000) :
    (V3 m ρ c main_v52 : FVec Ideal S1x50000 .f32) (ix2 0 n) = (args m c).amps n 1 := by
  have e : (V3 m ρ c main_v52 : FVec Ideal S1x50000 .f32)
      = shapeCast S1x50000 (shapeCast S50000 (extractStridedSlice S50000x1 ![0, 1]
          (W2 m ρ c (Proc.devRef .tc main_arg18) : FVec Ideal S50000x2 .f32) slices_S50000x2_S50000x1_0_1)
          shapeCasts_S50000x1_S50000) shapeCasts_S50000_S1x50000 := by
    show StableHlo.after hostOps1 _ (Proc.devRef .tc main_v52) = _
    after_results; rfl
  refine (congrFun e (ix2 0 n)).trans ((host1_row_of_cut 1 _ _ _ _ n 1 rfl).trans ?_)
  exact congrFun (host1_W2_of m ρ c main_arg18 (by decide) (by decide)) (ix2 n 1)

/-- Result 8 of 9: the synapse update's new rising phase, re-laid as a row (entry (n, t) of the [50000 × 10] array is
    slot 10 n + t). -/
theorem V3_v29 (c : Dev nD) (q : Fin 500000) :
    (V3 m ρ c main_v29 : FVec Ideal S1x500000 .f32) (ix2 0 q) = (args m c).outPscRise q := by
  have e : (V3 m ρ c main_v29 : FVec Ideal S1x500000 .f32)
      = shapeCast S1x500000 (W2 m ρ c (Proc.devRef .tc main_v28_0) : FVec Ideal S50000x10 .f32) shapeCasts_S50000x10_S1x500000 := by
    show StableHlo.after hostOps1 _ (Proc.devRef .tc main_v29) = _
    after_results; rfl
  have hq := host1_slot_eq q ⟨q.val / 10, by omega⟩ ⟨q.val % 10, by omega⟩ rfl rfl
  refine (congrFun e (ix2 0 q)).trans ((host1_row_of_mat _ _ q).trans ?_)
  refine (congrFun ((W2_arr m ρ c 5).trans (arr0_5 (V1 m ρ) c)) _).trans ?_
  dsimp only [r0sd, r0pr, r0rin, r0pini]
  rw [V1_v26 m ρ c, V1_v24 m ρ c, V1_v25 m ρ c, V1_v27 m ρ c, hq]
  rfl

/-- Result 9 of 9: the synapse update's new synaptic current, re-laid as a row. -/
theorem V3_v30 (c : Dev nD) (q : Fin 500000) :
    (V3 m ρ c main_v30 : FVec Ideal S1x500000 .f32) (ix2 0 q) = (args m c).outPsc q := by
  have e : (V3 m ρ c main_v30 : FVec Ideal S1x500000 .f32)
      = shapeCast S1x500000 (W2 m ρ c (Proc.devRef .tc main_v28_1) : FVec Ideal S50000x10 .f32) shapeCasts_S50000x10_S1x500000 := by
    show StableHlo.after hostOps1 _ (Proc.devRef .tc main_v30) = _
    after_results; rfl
  have hq := host1_slot_eq q ⟨q.val / 10, by omega⟩ ⟨q.val % 10, by omega⟩ rfl rfl
  refine (congrFun e (ix2 0 q)).trans ((host1_row_of_mat _ _ q).trans ?_)
  refine (congrFun ((W2_arr m ρ c 6).trans (arr0_6 (V1 m ρ) c)) _).trans ?_
  dsimp only [r0psc, r0sd, r0pr]
  rw [V1_v22 m ρ c, V1_v26 m ρ c, V1_v24 m ρ c, hq]
  rfl

end Cert.KernelIdeal.Val

end
-- ==== Proof.LibHistory.lean ====
/-
  A history of five steps of 50000 entries each, kept as one row of 250000 with the newest step first. Putting a new
  step in front and dropping the oldest is: lay the row out as [1 × 5 × 50000], keep steps 0 … 3, put the new step,
  as [1 × 1 × 50000], in front of them, and flatten again. Read at slot p, the result is entry p of the new step when
  p < 50000, and slot p − 50000 of the old row otherwise.
-/
import Idealize.ShloMosaic.Lib.Pipeline.Value
import Idealize.ShloMosaic.Lib.ValueIdx

noncomputable section

namespace Cert.LibHistory

open Idealize.ShloMosaic Idealize.ShloMosaic.ValueIdx

/-- The old row, the row laid out by steps, one step as a row, one step as a slab, and the four kept steps. -/
abbrev Row : Shape := ⟨2, ![1, 250000]⟩
abbrev Steps : Shape := ⟨3, ![1, 5, 50000]⟩
abbrev Step : Shape := ⟨2, ![1, 50000]⟩
abbrev Slab : Shape := ⟨3, ![1, 1, 50000]⟩
abbrev Kept : Shape := ⟨3, ![1, 4, 50000]⟩

/-- The first 50000 slots of the new row are the new step. -/
theorem shifted_new {α : Type} (s : Step.Idx → α) (z : Row.Idx → α)
    (hb : Step.BroadcastsInDim Slab ![0, 2]) (hc1 : Row.ShapeCasts Steps) (hs : Steps.Slices ![0, 0, 0] Kept)
    (hcat : Shape.Concatenates [Slab, Kept] Steps 1) (hc2 : Steps.ShapeCasts Row) (p : Fin 250000) (h : p.val < 50000) :
    shapeCast Row (concatenate Steps 1 [⟨Slab, broadcastInDim Slab ![0, 2] hb s⟩,
        ⟨Kept, extractStridedSlice Kept ![0, 0, 0] (shapeCast Steps z hc1) hs⟩] hcat) hc2 (ix2 0 p)
      = s (ix2 0 ⟨p.val, h⟩) := by
  rw [shapeCast_apply _ hc2 (ix2 0 p) (ix3 0 0 ⟨p.val, h⟩ : Steps.Idx)
    (by rw [Shape.rowMajor_val_two, Shape.rowMajor_val_three]; show ((0 : ℕ) * 5 + 0) * 50000 + p.val = 0 * 250000 + p.val; omega)]
  rw [concatenate_pair_apply_left (t := Steps) (s₁ := Slab) (s₂ := Kept) (1 : Fin 3) _ _ hcat (ix3 0 0 ⟨p.val, h⟩ : Steps.Idx) rfl (ix3 0 0 ⟨p.val, h⟩ : Slab.Idx)
    (fun b => by match b with | ⟨0, _⟩ => rfl | ⟨1, _⟩ => rfl | ⟨2, _⟩ => rfl)]
  exact broadcastInDim_apply ![0, 2] hb s (ix3 0 0 ⟨p.val, h⟩ : Slab.Idx) (ix2 0 ⟨p.val, h⟩)
    (fun a => by match a with | ⟨0, _⟩ => rfl | ⟨1, _⟩ => rfl)

/-- From slot 50000 on, the new row is the old row moved back by one step. -/
theorem shifted_old {α : Type} (s : Step.Idx → α) (z : Row.Idx → α)
    (hb : Step.BroadcastsInDim Slab ![0, 2]) (hc1 : Row.ShapeCasts Steps) (hs : Steps.Slices ![0, 0, 0] Kept)
    (hcat : Shape.Concatenates [Slab, Kept] Steps 1) (hc2 : Steps.ShapeCasts Row) (p : Fin 250000) (h : ¬ p.val < 50000) :
    shapeCast Row (concatenate Steps 1 [⟨Slab, broadcastInDim Slab ![0, 2] hb s⟩,
        ⟨Kept, extractStridedSlice Kept ![0, 0, 0] (shapeCast Steps z hc1) hs⟩] hcat) hc2 (ix2 0 p)
      = z (ix2 0 ⟨p.val - 50000, by omega⟩) := by
  have hp := p.isLt
  have hq : p.val / 50000 < 5 := by omega
  have hq1 : p.val / 50000 - 1 < 4 := by omega
  have hr : p.val % 50000 < 50000 := Nat.mod_lt _ (by decide)
  rw [shapeCast_apply _ hc2 (ix2 0 p) (ix3 0 ⟨p.val / 50000, hq⟩ ⟨p.val % 50000, hr⟩ : Steps.Idx)
    (by rw [Shape.rowMajor_val_two, Shape.rowMajor_val_three]
        show ((0 : ℕ) * 5 + p.val / 50000) * 50000 + p.val % 50000 = 0 * 250000 + p.val; omega)]
  rw [concatenate_pair_apply_right (t := Steps) (s₁ := Slab) (s₂ := Kept) (1 : Fin 3) _ _ hcat (ix3 0 ⟨p.val / 50000, hq⟩ ⟨p.val % 50000, hr⟩ : Steps.Idx) rfl rfl
    (ix3 0 ⟨p.val / 50000 - 1, hq1⟩ ⟨p.val % 50000, hr⟩ : Kept.Idx)
    (fun b hb' => by match b with | ⟨0, _⟩ => rfl | ⟨1, _⟩ => exact absurd rfl hb' | ⟨2, _⟩ => rfl)
    (by show p.val / 50000 - 1 + 1 = p.val / 50000; omega)]
  rw [extractStridedSlice_apply ![0, 0, 0] _ hs _ (ix3 0 ⟨p.val / 50000 - 1, by omega⟩ ⟨p.val % 50000, hr⟩ : Steps.Idx)
    (fun a => by match a with | ⟨0, _⟩ => rfl | ⟨1, _⟩ => exact (Nat.zero_add _).symm | ⟨2, _⟩ => exact (Nat.zero_add _).symm)]
  exact shapeCast_apply z hc1 _ (ix2 0 ⟨p.val - 50000, by omega⟩)
    (by rw [Shape.rowMajor_val_two, Shape.rowMajor_val_three]
        show (0 : ℕ) * 250000 + (p.val - 50000) = ((0 : ℕ) * 5 + (p.val / 50000 - 1)) * 50000 + p.val % 50000; omega)

/-- Slot p of the new row. -/
theorem shifted_apply {α : Type} (s : Step.Idx → α) (z : Row.Idx → α)
    (hb : Step.BroadcastsInDim Slab ![0, 2]) (hc1 : Row.ShapeCasts Steps) (hs : Steps.Slices ![0, 0, 0] Kept)
    (hcat : Shape.Concatenates [Slab, Kept] Steps 1) (hc2 : Steps.ShapeCasts Row) (p : Fin 250000) :
    shapeCast Row (concatenate Steps 1 [⟨Slab, broadcastInDim Slab ![0, 2] hb s⟩,
        ⟨Kept, extractStridedSlice Kept ![0, 0, 0] (shapeCast Steps z hc1) hs⟩] hcat) hc2 (ix2 0 p)
      = if h : p.val < 50000 then s (ix2 0 ⟨p.val, h⟩) else z (ix2 0 ⟨p.val - 50000, by omega⟩) := by
  by_cases h : p.val < 50000
  · rw [dif_pos h]; exact shifted_new s z hb hc1 hs hcat hc2 p h
  · rw [dif_neg h]; exact shifted_old s z hb hc1 hs hcat hc2 p h

end Cert.LibHistory

end
-- ==== Proof.KernelValue.lean ====
/-
  The kernel program ends with the step's nine results (Results.lean), entry by entry.

  After the membrane update the host writes only the buffers of the new spike history, so six results are the membrane
  update's six arrays, read at what that kernel found in its arguments; two are the synapse update's arrays as the host
  re-laid them between the kernels; the ninth, the new history, is the new spikes followed by the four newest old steps.
-/
import proofs.«421398_j54142357733913_2_alg».proof.Proof.KernelRun
import proofs.«421398_j54142357733913_2_alg».proof.Proof.Region1Value
import proofs.«421398_j54142357733913_2_alg».proof.Proof.Host1Value
import proofs.«421398_j54142357733913_2_alg».proof.Proof.LibHistory
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP

variable (m : Mem) (ρ : Dev nD → PrngReg)

/-- A buffer none of the host operations after the membrane update writes holds after them what it held before. -/
theorem W5_of_not_written (c : Dev nD) (b : Ref sig .tc)
    (hb : ∀ op ∈ (hostOps2 : List (HloOp τ sig (Elt Ideal))), Proc.devRef (τ := τ) .tc b ∉ op.writes) :
    W5 m ρ c (Proc.devRef .tc b) = W4 m ρ c (Proc.devRef .tc b) :=
  StableHlo.after_of_forall_not_mem (b := Proc.devRef .tc b) _ _ hb

/-- The five operations after the membrane update each write one buffer; the buffer asked about is none of them. -/
local macro "silent2" : tactic => `(tactic| (
  refine List.forall_iff_forall_mem.mp ?_
  simp only [hostOps2, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Result 4 of 9: the membrane potential after the reset. -/
theorem W5_newV (c : Dev nD) :
    (W5 m ρ c (Proc.devRef .tc main_v53_0) : FVec Ideal S1x50000 .f32) = Cert.Spec.row (args m c).outNewV := by
  rw [W5_of_not_written m ρ c main_v53_0 (by silent2)]
  refine ((W4_arr m ρ c 19).trans (arr1_19 (V3 m ρ) c)).trans (Cert.Spec.eq_row fun n => ?_)
  show r1nv (V3 m ρ) c (ix2 0 n) = _
  simp only [r1nv, r1sp, r1pv, r1nr, r1v, r1r, r1a1, r1a2, r1pz, r1ic, r1vth, r1el, r1vreset, r1g, r1decay, r1cf, r1tref, r1vs, r1vo, r1k0, r1k1, r1amp0, r1amp1, V3_arg2 m ρ c n, V3_arg3 m ρ c n, V3_arg4 m ρ c n, V3_arg5 m ρ c n, V3_v0 m ρ c n, V3_v31 m ρ c n, V3_v32 m ρ c n, V3_v33 m ρ c n, V3_v34 m ρ c n, V3_v35 m ρ c n, V3_v36 m ρ c n, V3_v37 m ρ c n, V3_v38 m ρ c n, V3_v39 m ρ c n, V3_v40 m ρ c n, V3_v43 m ρ c n, V3_v46 m ρ c n, V3_v49 m ρ c n, V3_v52 m ρ c n]
  rfl

/-- Result 5 of 9: the refractory counter. -/
theorem W5_newR (c : Dev nD) :
    (W5 m ρ c (Proc.devRef .tc main_v53_1) : FVec Ideal S1x50000 .f32) = Cert.Spec.row (args m c).outR := by
  rw [W5_of_not_written m ρ c main_v53_1 (by silent2)]
  refine ((W4_arr m ρ c 20).trans (arr1_20 (V3 m ρ) c)).trans (Cert.Spec.eq_row fun n => ?_)
  show r1nr (V3 m ρ) c (ix2 0 n) = _
  simp only [r1nv, r1sp, r1pv, r1nr, r1v, r1r, r1a1, r1a2, r1pz, r1ic, r1vth, r1el, r1vreset, r1g, r1decay, r1cf, r1tref, r1vs, r1vo, r1k0, r1k1, r1amp0, r1amp1, V3_arg2 m ρ c n, V3_arg3 m ρ c n, V3_arg4 m ρ c n, V3_arg5 m ρ c n, V3_v0 m ρ c n, V3_v31 m ρ c n, V3_v32 m ρ c n, V3_v33 m ρ c n, V3_v34 m ρ c n, V3_v35 m ρ c n, V3_v36 m ρ c n, V3_v37 m ρ c n, V3_v38 m ρ c n, V3_v39 m ρ c n, V3_v40 m ρ c n, V3_v43 m ρ c n, V3_v46 m ρ c n, V3_v49 m ρ c n, V3_v52 m ρ c n]
  rfl

/-- Result 6 of 9: the first after-spike current. -/
theorem W5_asc1 (c : Dev nD) :
    (W5 m ρ c (Proc.devRef .tc main_v53_2) : FVec Ideal S1x50000 .f32) = Cert.Spec.row (args m c).outAsc1 := by
  rw [W5_of_not_written m ρ c main_v53_2 (by silent2)]
  refine ((W4_arr m ρ c 21).trans (arr1_21 (V3 m ρ) c)).trans (Cert.Spec.eq_row fun n => ?_)
  show Cert.Spec.newAsc (r1k0 (V3 m ρ) c (ix2 0 n)) (r1a1 (V3 m ρ) c (ix2 0 n)) (r1pz (V3 m ρ) c (ix2 0 n)) (r1amp0 (V3 m ρ) c (ix2 0 n)) = _
  simp only [r1nv, r1sp, r1pv, r1nr, r1v, r1r, r1a1, r1a2, r1pz, r1ic, r1vth, r1el, r1vreset, r1g, r1decay, r1cf, r1tref, r1vs, r1vo, r1k0, r1k1, r1amp0, r1amp1, V3_arg2 m ρ c n, V3_arg3 m ρ c n, V3_arg4 m ρ c n, V3_arg5 m ρ c n, V3_v0 m ρ c n, V3_v31 m ρ c n, V3_v32 m ρ c n, V3_v33 m ρ c n, V3_v34 m ρ c n, V3_v35 m ρ c n, V3_v36 m ρ c n, V3_v37 m ρ c n, V3_v38 m ρ c n, V3_v39 m ρ c n, V3_v40 m ρ c n, V3_v43 m ρ c n, V3_v46 m ρ c n, V3_v49 m ρ c n, V3_v52 m ρ c n]
  rfl

/-- Result 7 of 9: the second after-spike current. -/
theorem W5_asc2 (c : Dev nD) :
    (W5 m ρ c (Proc.devRef .tc main_v53_3) : FVec Ideal S1x50000 .f32) = Cert.Spec.row (args m c).outAsc2 := by
  rw [W5_of_not_written m ρ c main_v53_3 (by silent2)]
  refine ((W4_arr m ρ c 22).trans (arr1_22 (V3 m ρ) c)).trans (Cert.Spec.eq_row fun n => ?_)
  show Cert.Spec.newAsc (r1k1 (V3 m ρ) c (ix2 0 n)) (r1a2 (V3 m ρ) c (ix2 0 n)) (r1pz (V3 m ρ) c (ix2 0 n)) (r1amp1 (V3 m ρ) c (ix2 0 n)) = _
  simp only [r1nv, r1sp, r1pv, r1nr, r1v, r1r, r1a1, r1a2, r1pz, r1ic, r1vth, r1el, r1vreset, r1g, r1decay, r1cf, r1tref, r1vs, r1vo, r1k0, r1k1, r1amp0, r1amp1, V3_arg2 m ρ c n, V3_arg3 m ρ c n, V3_arg4 m ρ c n, V3_arg5 m ρ c n, V3_v0 m ρ c n, V3_v31 m ρ c n, V3_v32 m ρ c n, V3_v33 m ρ c n, V3_v34 m ρ c n, V3_v35 m ρ c n, V3_v36 m ρ c n, V3_v37 m ρ c n, V3_v38 m ρ c n, V3_v39 m ρ c n, V3_v40 m ρ c n, V3_v43 m ρ c n, V3_v46 m ρ c n, V3_v49 m ρ c n, V3_v52 m ρ c n]
  rfl

/-- The spike, as the membrane update leaves it. -/
theorem W4_z (c : Dev nD) :
    (W4 m ρ c (Proc.devRef .tc main_v53_4) : FVec Ideal S1x50000 .f32) = Cert.Spec.row (args m c).outZ := by
  refine ((W4_arr m ρ c 23).trans (arr1_23 (V3 m ρ) c)).trans (Cert.Spec.eq_row fun n => ?_)
  show r1sp (V3 m ρ) c (ix2 0 n) = _
  simp only [r1nv, r1sp, r1pv, r1nr, r1v, r1r, r1a1, r1a2, r1pz, r1ic, r1vth, r1el, r1vreset, r1g, r1decay, r1cf, r1tref, r1vs, r1vo, r1k0, r1k1, r1amp0, r1amp1, V3_arg2 m ρ c n, V3_arg3 m ρ c n, V3_arg4 m ρ c n, V3_arg5 m ρ c n, V3_v0 m ρ c n, V3_v31 m ρ c n, V3_v32 m ρ c n, V3_v33 m ρ c n, V3_v34 m ρ c n, V3_v35 m ρ c n, V3_v36 m ρ c n, V3_v37 m ρ c n, V3_v38 m ρ c n, V3_v39 m ρ c n, V3_v40 m ρ c n, V3_v43 m ρ c n, V3_v46 m ρ c n, V3_v49 m ρ c n, V3_v52 m ρ c n]
  rfl

/-- Result 1 of 9: the spike. -/
theorem W5_z (c : Dev nD) :
    (W5 m ρ c (Proc.devRef .tc main_v53_4) : FVec Ideal S1x50000 .f32) = Cert.Spec.row (args m c).outZ := by
  rw [W5_of_not_written m ρ c main_v53_4 (by silent2)]
  exact W4_z m ρ c

/-- The spike history itself is an argument: the membrane update leaves it as launched. -/
theorem W4_arg1 (c : Dev nD) : W4 m ρ c (Proc.devRef .tc main_arg1) = m ((c : Thread nD τ).loc main_arg1) :=
  (W5_of_not_written m ρ c main_arg1 (by silent2)).symm.trans (W5_main_arg1 m ρ c)

/-- Result 2 of 9: the reported potential. -/
theorem W5_outV (c : Dev nD) :
    (W5 m ρ c (Proc.devRef .tc main_v53_5) : FVec Ideal S1x50000 .f32) = Cert.Spec.row (args m c).outOutV := by
  rw [W5_of_not_written m ρ c main_v53_5 (by silent2)]
  refine ((W4_arr m ρ c 24).trans (arr1_24 (V3 m ρ) c)).trans (Cert.Spec.eq_row fun n => ?_)
  show Cert.Spec.outV (r1nv (V3 m ρ) c (ix2 0 n)) (r1vs (V3 m ρ) c (ix2 0 n)) (r1vo (V3 m ρ) c (ix2 0 n)) = _
  simp only [r1nv, r1sp, r1pv, r1nr, r1v, r1r, r1a1, r1a2, r1pz, r1ic, r1vth, r1el, r1vreset, r1g, r1decay, r1cf, r1tref, r1vs, r1vo, r1k0, r1k1, r1amp0, r1amp1, V3_arg2 m ρ c n, V3_arg3 m ρ c n, V3_arg4 m ρ c n, V3_arg5 m ρ c n, V3_v0 m ρ c n, V3_v31 m ρ c n, V3_v32 m ρ c n, V3_v33 m ρ c n, V3_v34 m ρ c n, V3_v35 m ρ c n, V3_v36 m ρ c n, V3_v37 m ρ c n, V3_v38 m ρ c n, V3_v39 m ρ c n, V3_v40 m ρ c n, V3_v43 m ρ c n, V3_v46 m ρ c n, V3_v49 m ρ c n, V3_v52 m ρ c n]
  rfl

/-- Result 8 of 9: the new rising phase, which neither the membrane update nor the host after it touches. -/
theorem W5_pscRise (c : Dev nD) :
    (W5 m ρ c (Proc.devRef .tc main_v29) : FVec Ideal S1x500000 .f32) = Cert.Spec.row (args m c).outPscRise := by
  rw [W5_of_not_written m ρ c main_v29 (by silent2), W4_of_ne m ρ c main_v29 (by decide)]
  exact Cert.Spec.eq_row fun q => V3_v29 m ρ c q

/-- Result 9 of 9: the new synaptic current, likewise. -/
theorem W5_psc (c : Dev nD) :
    (W5 m ρ c (Proc.devRef .tc main_v30) : FVec Ideal S1x500000 .f32) = Cert.Spec.row (args m c).outPsc := by
  rw [W5_of_not_written m ρ c main_v30 (by silent2), W4_of_ne m ρ c main_v30 (by decide)]
  exact Cert.Spec.eq_row fun q => V3_v30 m ρ c q

/-- Result 3 of 9: the new spike history. The host lays the new spikes in front of the old history's first four steps:
    slot p is neuron p's new spike when p < 50000 and the old slot p − 50000 otherwise. -/
theorem W5_zbuf (c : Dev nD) :
    (W5 m ρ c (Proc.devRef .tc main_v58) : FVec Ideal S1x250000 .f32) = Cert.Spec.row (args m c).outZbuf := by
  have e : (W5 m ρ c (Proc.devRef .tc main_v58) : FVec Ideal S1x250000 .f32)
      = shapeCast _ (concatenate S1x5x50000 1
          [⟨S1x1x50000, broadcastInDim S1x1x50000 ![0, 2] bcast_S1x50000_S1x1x50000_0_2
              (W4 m ρ c (Proc.devRef .tc main_v53_4) : FVec Ideal S1x50000 .f32)⟩,
           ⟨S1x4x50000, extractStridedSlice S1x4x50000 ![0, 0, 0]
              (shapeCast _ (W4 m ρ c (Proc.devRef .tc main_arg1) : FVec Ideal S1x250000 .f32) shapeCasts_S1x250000_S1x5x50000)
              slices_S1x5x50000_S1x4x50000_0_0_0⟩]
          concatenates_S1x1x50000_S1x4x50000_S1x5x50000_d1) shapeCasts_S1x5x50000_S1x250000 := by
    show StableHlo.after hostOps2 _ (Proc.devRef .tc main_v58) = _
    after_results
    rfl
  rw [e]
  refine Cert.Spec.eq_row fun p => ?_
  rw [Cert.LibHistory.shifted_apply _ _ _ _ _ _ _ p, W4_z m ρ c, W4_arg1 m ρ c]
  rfl

/-- Every weakly fair execution of the kernel program terminates, nothing faulting, with the step's nine results and
    its arguments as launched. -/
theorem run_value : θ_run (defs (F := Ideal)) (onTc (τ := τ) (main (F := Ideal))) ⟨m, fun _ => 0, ρ⟩ (fun r => ∀ c : Dev nD,
      (r.2.mem ((c.tc : Thread nD τ).loc main_v53_4) : FVec Ideal S1x50000 .f32) = Cert.Spec.row (args m c).outZ
      ∧ (r.2.mem ((c.tc : Thread nD τ).loc main_v53_5) : FVec Ideal S1x50000 .f32) = Cert.Spec.row (args m c).outOutV
      ∧ (r.2.mem ((c.tc : Thread nD τ).loc main_v58) : FVec Ideal S1x250000 .f32) = Cert.Spec.row (args m c).outZbuf
      ∧ (r.2.mem ((c.tc : Thread nD τ).loc main_v53_0) : FVec Ideal S1x50000 .f32) = Cert.Spec.row (args m c).outNewV
      ∧ (r.2.mem ((c.tc : Thread nD τ).loc main_v53_1) : FVec Ideal S1x50000 .f32) = Cert.Spec.row (args m c).outR
      ∧ (r.2.mem ((c.tc : Thread nD τ).loc main_v53_2) : FVec Ideal S1x50000 .f32) = Cert.Spec.row (args m c).outAsc1
      ∧ (r.2.mem ((c.tc : Thread nD τ).loc main_v53_3) : FVec Ideal S1x50000 .f32) = Cert.Spec.row (args m c).outAsc2
      ∧ (r.2.mem ((c.tc : Thread nD τ).loc main_v29) : FVec Ideal S1x500000 .f32) = Cert.Spec.row (args m c).outPscRise
      ∧ (r.2.mem ((c.tc : Thread nD τ).loc main_v30) : FVec Ideal S1x500000 .f32) = Cert.Spec.row (args m c).outPsc
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run (defs (F := Ideal)) _ _).mono (fun r h c => by
    obtain ⟨h0, h1, h2, h3, h4, h5, h6, h7, h8, hargs⟩ := h c
    exact ⟨h0.trans (W5_z m ρ c), h1.trans (W5_outV m ρ c), h2.trans (W5_zbuf m ρ c), h3.trans (W5_newV m ρ c),
      h4.trans (W5_newR m ρ c), h5.trans (W5_asc1 m ρ c), h6.trans (W5_asc2 m ρ c), h7.trans (W5_pscRise m ρ c),
      h8.trans (W5_psc m ρ c), hargs⟩) (run_results (F := Ideal) m ρ)

end Cert.KernelIdeal.Val

end
-- ==== Proof.RefArgs.lean ====
/-
  The reference program's argument arrays: as the record of flat functions the step's results are stated over, and
  one by one under short names (X0 … X22, in the order of the program's parameters).
-/
import proofs.«421398_j54142357733913_2_alg».proof.Proof.RefRead
import proofs.«421398_j54142357733913_2_alg».proof.Proof.Results
import Idealize.ShloMosaic.Lib.ValueIdx

noncomputable section

open scoped BigOperators

namespace Cert.ReferenceIdeal.RefValue

open Idealize.ShloMosaic Idealize.ShloMosaic.TcCoe Idealize.SL.Sem Idealize.ShloMosaic.ValueIdx
open Cert.ReferenceIdeal

/-- A memory of the reference program at the exact instance. -/
abbrev Mem := (ℓ : Loc nD τ sig) → Buf (Elt Ideal) ℓ

/-- Device c's argument arrays in the memory m, each entry by its flat position. -/
def args (m : Mem) (c : Dev nD) : Cert.Spec.Args where
  inp q := (m ((c.tc : Thread nD τ).loc main_arg0) : FVec Ideal S1x500000 .f32) (ix2 0 q)
  z p := (m ((c.tc : Thread nD τ).loc main_arg1) : FVec Ideal S1x250000 .f32) (ix2 0 p)
  v n := (m ((c.tc : Thread nD τ).loc main_arg2) : FVec Ideal S1x50000 .f32) (ix2 0 n)
  r n := (m ((c.tc : Thread nD τ).loc main_arg3) : FVec Ideal S1x50000 .f32) (ix2 0 n)
  a1 n := (m ((c.tc : Thread nD τ).loc main_arg4) : FVec Ideal S1x50000 .f32) (ix2 0 n)
  a2 n := (m ((c.tc : Thread nD τ).loc main_arg5) : FVec Ideal S1x50000 .f32) (ix2 0 n)
  pr q := (m ((c.tc : Thread nD τ).loc main_arg6) : FVec Ideal S1x500000 .f32) (ix2 0 q)
  psc q := (m ((c.tc : Thread nD τ).loc main_arg7) : FVec Ideal S1x500000 .f32) (ix2 0 q)
  w e := (m ((c.tc : Thread nD τ).loc main_arg8) : FVec Ideal S10000000 .f32) (ix1 e)
  idx e t := (m ((c.tc : Thread nD τ).loc main_arg9) : IVec S10000000x2 32) (ix2 e t)
  vth n := (m ((c.tc : Thread nD τ).loc main_arg10) : FVec Ideal S50000 .f32) (ix1 n)
  el n := (m ((c.tc : Thread nD τ).loc main_arg11) : FVec Ideal S50000 .f32) (ix1 n)
  vreset n := (m ((c.tc : Thread nD τ).loc main_arg12) : FVec Ideal S50000 .f32) (ix1 n)
  g n := (m ((c.tc : Thread nD τ).loc main_arg13) : FVec Ideal S50000 .f32) (ix1 n)
  decay n := (m ((c.tc : Thread nD τ).loc main_arg14) : FVec Ideal S50000 .f32) (ix1 n)
  cf n := (m ((c.tc : Thread nD τ).loc main_arg15) : FVec Ideal S50000 .f32) (ix1 n)
  tref n := (m ((c.tc : Thread nD τ).loc main_arg16) : FVec Ideal S50000 .f32) (ix1 n)
  k n t := (m ((c.tc : Thread nD τ).loc main_arg17) : FVec Ideal S50000x2 .f32) (ix2 n t)
  amps n t := (m ((c.tc : Thread nD τ).loc main_arg18) : FVec Ideal S50000x2 .f32) (ix2 n t)
  sd q := (m ((c.tc : Thread nD τ).loc main_arg19) : FVec Ideal S500000 .f32) (ix1 q)
  pini q := (m ((c.tc : Thread nD τ).loc main_arg20) : FVec Ideal S500000 .f32) (ix1 q)
  vs n := (m ((c.tc : Thread nD τ).loc main_arg21) : FVec Ideal S50000 .f32) (ix1 n)
  vo n := (m ((c.tc : Thread nD τ).loc main_arg22) : FVec Ideal S50000 .f32) (ix1 n)

/-- Device c's argument arrays in the memory m, one by one. -/
abbrev X0 (m : Mem) (c : Dev nD) : FVec Ideal S1x500000 .f32 := m ((c.tc : Thread nD τ).loc main_arg0)
abbrev X1 (m : Mem) (c : Dev nD) : FVec Ideal S1x250000 .f32 := m ((c.tc : Thread nD τ).loc main_arg1)
abbrev X2 (m : Mem) (c : Dev nD) : FVec Ideal S1x50000 .f32 := m ((c.tc : Thread nD τ).loc main_arg2)
abbrev X3 (m : Mem) (c : Dev nD) : FVec Ideal S1x50000 .f32 := m ((c.tc : Thread nD τ).loc main_arg3)
abbrev X4 (m : Mem) (c : Dev nD) : FVec Ideal S1x50000 .f32 := m ((c.tc : Thread nD τ).loc main_arg4)
abbrev X5 (m : Mem) (c : Dev nD) : FVec Ideal S1x50000 .f32 := m ((c.tc : Thread nD τ).loc main_arg5)
abbrev X6 (m : Mem) (c : Dev nD) : FVec Ideal S1x500000 .f32 := m ((c.tc : Thread nD τ).loc main_arg6)
abbrev X7 (m : Mem) (c : Dev nD) : FVec Ideal S1x500000 .f32 := m ((c.tc : Thread nD τ).loc main_arg7)
abbrev X8 (m : Mem) (c : Dev nD) : FVec Ideal S10000000 .f32 := m ((c.tc : Thread nD τ).loc main_arg8)
abbrev X9 (m : Mem) (c : Dev nD) : IVec S10000000x2 32 := m ((c.tc : Thread nD τ).loc main_arg9)
abbrev X10 (m : Mem) (c : Dev nD) : FVec Ideal S50000 .f32 := m ((c.tc : Thread nD τ).loc main_arg10)
abbrev X11 (m : Mem) (c : Dev nD) : FVec Ideal S50000 .f32 := m ((c.tc : Thread nD τ).loc main_arg11)
abbrev X12 (m : Mem) (c : Dev nD) : FVec Ideal S50000 .f32 := m ((c.tc : Thread nD τ).loc main_arg12)
abbrev X13 (m : Mem) (c : Dev nD) : FVec Ideal S50000 .f32 := m ((c.tc : Thread nD τ).loc main_arg13)
abbrev X14 (m : Mem) (c : Dev nD) : FVec Ideal S50000 .f32 := m ((c.tc : Thread nD τ).loc main_arg14)
abbrev X15 (m : Mem) (c : Dev nD) : FVec Ideal S50000 .f32 := m ((c.tc : Thread nD τ).loc main_arg15)
abbrev X16 (m : Mem) (c : Dev nD) : FVec Ideal S50000 .f32 := m ((c.tc : Thread nD τ).loc main_arg16)
abbrev X17 (m : Mem) (c : Dev nD) : FVec Ideal S50000x2 .f32 := m ((c.tc : Thread nD τ).loc main_arg17)
abbrev X18 (m : Mem) (c : Dev nD) : FVec Ideal S50000x2 .f32 := m ((c.tc : Thread nD τ).loc main_arg18)
abbrev X19 (m : Mem) (c : Dev nD) : FVec Ideal S500000 .f32 := m ((c.tc : Thread nD τ).loc main_arg19)
abbrev X20 (m : Mem) (c : Dev nD) : FVec Ideal S500000 .f32 := m ((c.tc : Thread nD τ).loc main_arg20)
abbrev X21 (m : Mem) (c : Dev nD) : FVec Ideal S50000 .f32 := m ((c.tc : Thread nD τ).loc main_arg21)
abbrev X22 (m : Mem) (c : Dev nD) : FVec Ideal S50000 .f32 := m ((c.tc : Thread nD τ).loc main_arg22)

end Cert.ReferenceIdeal.RefValue

end
-- ==== Proof.RefMemA.lean ====
/-
  The reference's refractory counter and its two after-spike currents after the step are Spec.lean's formulas,
  entry by entry: every operation on the way is pointwise, a broadcast of a per-neuron vector along the one row, or
  the slice that takes the newest recorded step out of the spike history.
-/
import proofs.«421398_j54142357733913_2_alg».proof.Proof.RefArgs
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal

/-! ## Where each entry is read

The history [1 × 250000] is viewed as [1 × 5 × 50000], its step 0 cut out and viewed as one row [1 × 50000]: entry
n of that row is history slot n.  A per-neuron vector [50000] broadcast along the one row is read at the neuron.  A
column of a [50000 × 2] array, cut out as [50000 × 1], flattened to [50000] and broadcast along the one row, is read
at (n, column). -/

/-- Entry n of the newest recorded step is history slot n: 0 · 50000 + n, below 250000. -/
private theorem idx_newest (n : Fin 50000) :
    ReadP.idx_main_v0 (ReadP.idx_main_v1 (ReadP.idx_main_v2 (ix2 (0 : Fin 1) n)))
      = ix2 (0 : Fin 1) (⟨n.val, by omega⟩ : Fin 250000) :=
  funext fun a => Fin.ext (by
    match a with
    | ⟨0, _⟩ => rfl
    | ⟨1, _⟩ =>
      show ((0 * 5 + 0) * 50000 + (0 * 50000 + n.val) % 50000) % 250000 = n.val
      have := n.isLt
      omega)

/-- The refractory times broadcast along the one row are read at the neuron. -/
private theorem idx_tref (n : Fin 50000) : ReadP.idx_main_v40 (ix2 (0 : Fin 1) n) = ix1 n :=
  funext fun a => Fin.ext (by match a with | ⟨0, _⟩ => rfl)

/-- Column 0 of the stored constants, flattened and broadcast along the one row, is read at (n, 0). -/
private theorem idx_k0 (n : Fin 50000) :
    ReadP.idx_main_v53 (ReadP.idx_main_v54 (ReadP.idx_main_v58 (ix2 (0 : Fin 1) n))) = ix2 n (0 : Fin 2) :=
  funext fun a => Fin.ext (by
    match a with
    | ⟨0, _⟩ => show n.val / 1 = n.val; omega
    | ⟨1, _⟩ => rfl)

/-- Column 0 of the amplitudes likewise. -/
private theorem idx_amp0 (n : Fin 50000) :
    ReadP.idx_main_v60 (ReadP.idx_main_v61 (ReadP.idx_main_v62 (ix2 (0 : Fin 1) n))) = ix2 n (0 : Fin 2) :=
  funext fun a => Fin.ext (by
    match a with
    | ⟨0, _⟩ => show n.val / 1 = n.val; omega
    | ⟨1, _⟩ => rfl)

/-- Column 1 of the stored constants is read at (n, 1): the slice starts at column 1. -/
private theorem idx_k1 (n : Fin 50000) :
    ReadP.idx_main_v65 (ReadP.idx_main_v66 (ReadP.idx_main_v70 (ix2 (0 : Fin 1) n))) = ix2 n (1 : Fin 2) :=
  funext fun a => Fin.ext (by
    match a with
    | ⟨0, _⟩ => show n.val / 1 = n.val; omega
    | ⟨1, _⟩ => rfl)

/-- Column 1 of the amplitudes likewise. -/
private theorem idx_amp1 (n : Fin 50000) :
    ReadP.idx_main_v72 (ReadP.idx_main_v73 (ReadP.idx_main_v74 (ix2 (0 : Fin 1) n))) = ix2 n (1 : Fin 2) :=
  funext fun a => Fin.ext (by
    match a with
    | ⟨0, _⟩ => show n.val / 1 = n.val; omega
    | ⟨1, _⟩ => rfl)

/-- The word of 1.0 denotes the extended real one. -/
private theorem ofBits_one_f32 : Ideal.ofBits .f32 0x3F800000#32 = (1 : EReal) :=
  IdealRules.sign_bit.ideal_onePat .f32

/-- The reference's spelling of the decay rate: 1 / (1 + exp (−k)), its ones written as the word of 1.0, is the
    logistic of k, which is that quotient by definition. -/
private theorem logistic_spelled (k : EReal) :
    Ideal.div (Ideal.ofBits .f32 0x3F800000#32) (Ideal.ofBits .f32 0x3F800000#32 + Ideal.exp (-k)) = Ideal.logistic k := by
  rw [ofBits_one_f32]
  rfl

/-- The new refractory counter. -/
theorem v46_spec (m : Mem) (c : Dev nD) :
    (ReadP.val_main_v46 (F := Ideal) (X1 m c) (X3 m c) (X16 m c) : FVec Ideal S1x50000 .f32)
      = Cert.Spec.row (args m c).outR := by
  refine Cert.Spec.eq_row fun n => ?_
  rw [ReadP.val_main_v46_apply, ReadP.val_main_v44_apply, ReadP.val_main_v42_apply, ReadP.val_main_v41_apply,
    ReadP.val_main_v2_apply, ReadP.val_main_v1_apply, ReadP.val_main_v0_apply, ReadP.val_main_v40_apply,
    ReadP.val_main_v43_apply, ReadP.val_main_cst_4_apply, ReadP.val_main_v45_apply, ReadP.val_main_cst_5_apply,
    idx_newest n, idx_tref n]
  rfl

/-- The first after-spike current: the reference spells the logistic as 1 / (1 + exp (−k)), which is its definition on the extended reals. -/
theorem v64_spec (m : Mem) (c : Dev nD) :
    (ReadP.val_main_v64 (F := Ideal) (X1 m c) (X4 m c) (X17 m c) (X18 m c) : FVec Ideal S1x50000 .f32)
      = Cert.Spec.row (args m c).outAsc1 := by
  refine Cert.Spec.eq_row fun n => ?_
  rw [ReadP.val_main_v64_apply, ReadP.val_main_v59_apply, ReadP.val_main_v58_apply, ReadP.val_main_v57_apply,
    ReadP.val_main_v56_apply, ReadP.val_main_v55_apply, ReadP.val_main_cst_8_apply, ReadP.val_main_v54_apply,
    ReadP.val_main_v53_apply, ReadP.val_main_v52_apply, ReadP.val_main_v51_apply, ReadP.val_main_cst_7_apply,
    ReadP.val_main_v50_apply, ReadP.val_main_v49_apply, ReadP.val_main_cst_6_apply, ReadP.val_main_v48_apply,
    ReadP.val_main_v47_apply, ReadP.val_main_v63_apply, ReadP.val_main_v2_apply, ReadP.val_main_v1_apply,
    ReadP.val_main_v0_apply, ReadP.val_main_v62_apply, ReadP.val_main_v61_apply, ReadP.val_main_v60_apply,
    idx_newest n, idx_k0 n, idx_amp0 n]
  simp only [Ideal.ofBits_def, Ideal.addf_def, Ideal.mulf_def, Ideal.hostDivf_def, Ideal.hostUnary_exp_def,
    Ideal.hostNegf_def, Ideal.negf_def, logistic_spelled]
  rfl

/-- The second after-spike current. -/
theorem v76_spec (m : Mem) (c : Dev nD) :
    (ReadP.val_main_v76 (F := Ideal) (X1 m c) (X5 m c) (X17 m c) (X18 m c) : FVec Ideal S1x50000 .f32)
      = Cert.Spec.row (args m c).outAsc2 := by
  refine Cert.Spec.eq_row fun n => ?_
  rw [ReadP.val_main_v76_apply, ReadP.val_main_v71_apply, ReadP.val_main_v70_apply, ReadP.val_main_v69_apply,
    ReadP.val_main_v68_apply, ReadP.val_main_v67_apply, ReadP.val_main_cst_9_apply, ReadP.val_main_v66_apply,
    ReadP.val_main_v65_apply, ReadP.val_main_v52_apply, ReadP.val_main_v51_apply, ReadP.val_main_cst_7_apply,
    ReadP.val_main_v50_apply, ReadP.val_main_v49_apply, ReadP.val_main_cst_6_apply, ReadP.val_main_v48_apply,
    ReadP.val_main_v47_apply, ReadP.val_main_v75_apply, ReadP.val_main_v2_apply, ReadP.val_main_v1_apply,
    ReadP.val_main_v0_apply, ReadP.val_main_v74_apply, ReadP.val_main_v73_apply, ReadP.val_main_v72_apply,
    idx_newest n, idx_k1 n, idx_amp1 n]
  simp only [Ideal.ofBits_def, Ideal.addf_def, Ideal.mulf_def, Ideal.hostDivf_def, Ideal.hostUnary_exp_def,
    Ideal.hostNegf_def, Ideal.negf_def, logistic_spelled]
  rfl

end Cert.ReferenceIdeal.RefValue

end
-- ==== Proof.RefMemB.lean ====
/-
  The reference's spike, its membrane potential after the reset and the reported potential are Spec.lean's formulas,
  entry by entry. The input current is a sum over the ten receptors of a neuron, read out of the [1 × 500000] synaptic
  current laid out as [1 × 50000 × 10].
-/
import proofs.«421398_j54142357733913_2_alg».proof.Proof.RefArgs
import proofs.«421398_j54142357733913_2_alg».proof.Proof.RefMemA
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal

/-! ## Where the layout operations read

A per-neuron vector broadcast along the one row is read, at the row's entry n, at n. -/

private theorem e79 (n : Fin 50000) : ReadP.idx_main_v79 (ix2 (0 : Fin 1) n) = ix1 n :=
  funext fun a => Fin.ext (by match a with | ⟨0, _⟩ => rfl)
private theorem e84 (n : Fin 50000) : ReadP.idx_main_v84 (ix2 (0 : Fin 1) n) = ix1 n :=
  funext fun a => Fin.ext (by match a with | ⟨0, _⟩ => rfl)
private theorem e86 (n : Fin 50000) : ReadP.idx_main_v86 (ix2 (0 : Fin 1) n) = ix1 n :=
  funext fun a => Fin.ext (by match a with | ⟨0, _⟩ => rfl)
private theorem e89 (n : Fin 50000) : ReadP.idx_main_v89 (ix2 (0 : Fin 1) n) = ix1 n :=
  funext fun a => Fin.ext (by match a with | ⟨0, _⟩ => rfl)
private theorem e92 (n : Fin 50000) : ReadP.idx_main_v92 (ix2 (0 : Fin 1) n) = ix1 n :=
  funext fun a => Fin.ext (by match a with | ⟨0, _⟩ => rfl)
private theorem e102 (n : Fin 50000) : ReadP.idx_main_v102 (ix2 (0 : Fin 1) n) = ix1 n :=
  funext fun a => Fin.ext (by match a with | ⟨0, _⟩ => rfl)
private theorem e108 (n : Fin 50000) : ReadP.idx_main_v108 (ix2 (0 : Fin 1) n) = ix1 n :=
  funext fun a => Fin.ext (by match a with | ⟨0, _⟩ => rfl)
private theorem e110 (n : Fin 50000) : ReadP.idx_main_v110 (ix2 (0 : Fin 1) n) = ix1 n :=
  funext fun a => Fin.ext (by match a with | ⟨0, _⟩ => rfl)

/-- Receptor k of neuron n, in the [1 × 50000 × 10] arrangement, is slot 10 n + k of the flat synaptic current. -/
private theorem e77 (n : Fin 50000) (k : Fin 10) :
    ReadP.idx_main_v77 (ReadP.idx_main_v78 (ix2 (0 : Fin 1) n) k)
      = ix2 (0 : Fin 1) (⟨10 * n.val + k.val, by omega⟩ : Fin 500000) :=
  funext fun a => Fin.ext (by
    match a with
    | ⟨0, _⟩ => rfl
    | ⟨1, _⟩ =>
      show (((0 : Fin 1).val * 50000 + n.val) * 10 + k.val) % 500000 = 10 * n.val + k.val
      have h0 : (0 : Fin 1).val = 0 := rfl
      rw [h0]; omega)

/-- A one-bit word widened to 32 bits and read signed is, as a real, the bit read unsigned. -/
private theorem bit_real (b : BitVec 1) : (((b.setWidth 32).toInt : ℝ) : EReal) = ((b.toNat : ℝ) : EReal) := by
  have h : ∀ b : BitVec 1, (b.setWidth 32).toInt = (b.toNat : ℤ) := by decide
  rw [h b]
  norm_cast

/-! ## The entries -/

/-- The input current of neuron n: the float sum over the last axis starts from the zero word and adds the ten
    receptors' slots. -/
private theorem inCur_at (m : Mem) (c : Dev nD) (n : Fin 50000) :
    (ReadP.val_main_v78 (F := Ideal) (X7 m c) : FVec Ideal S1x50000 .f32) (ix2 (0 : Fin 1) n)
      = Cert.Spec.inCur (args m c).psc n := by
  rw [ReadP.val_main_v78_apply]
  unfold Cert.Spec.inCur
  refine congrArg₂ (· + ·) rfl (Finset.sum_congr rfl fun k _ => ?_)
  rw [ReadP.val_main_v77_apply, e77]
  rfl

/-- The membrane potential before the reset: decay · v + cf · (input current + the two after-spike currents + g · el),
    every factor a per-neuron vector read at n or a one-row array read at its entry n. -/
private theorem pv_at (m : Mem) (c : Dev nD) (n : Fin 50000) :
    (ReadP.val_main_v88 (F := Ideal) (X2 m c) (X4 m c) (X5 m c) (X7 m c) (X11 m c) (X13 m c) (X14 m c) (X15 m c) : FVec Ideal S1x50000 .f32) (ix2 (0 : Fin 1) n)
      = (args m c).pv n := by
  rw [ReadP.val_main_v88_apply, ReadP.val_main_v80_apply, ReadP.val_main_v79_apply, ReadP.val_main_v87_apply,
    ReadP.val_main_v86_apply, ReadP.val_main_v85_apply, ReadP.val_main_v82_apply, ReadP.val_main_v81_apply, inCur_at,
    ReadP.val_main_v84_apply, ReadP.val_main_v83_apply, e79, e86, e84]
  rfl

/-- The spike. -/
theorem v99_spec (m : Mem) (c : Dev nD) :
    (ReadP.val_main_v99 (F := Ideal) (X1 m c) (X2 m c) (X3 m c) (X4 m c) (X5 m c) (X7 m c) (X10 m c) (X11 m c) (X13 m c) (X14 m c) (X15 m c) (X16 m c) : FVec Ideal S1x50000 .f32)
      = Cert.Spec.row (args m c).outZ := by
  refine Cert.Spec.eq_row fun n => ?_
  -- the guard compares the new refractory counter with the zero word; the value is the compare
  -- (pv − vth) / (vth − el) > 0, its bit made a float
  rw [ReadP.val_main_v99_apply, ReadP.val_main_v98_apply, congrFun (v46_spec m c) (ix2 (0 : Fin 1) n),
    ReadP.val_main_v97_apply, ReadP.val_main_call0_v1_apply, ReadP.val_main_v96_apply, ReadP.val_main_v95_apply,
    ReadP.val_main_v93_apply, ReadP.val_main_v90_apply, pv_at, ReadP.val_main_v89_apply, ReadP.val_main_v92_apply,
    ReadP.val_main_v91_apply, ReadP.val_main_v94_apply, e89, e92]
  show Scalar.select (Ideal.cmp .ogt ((args m c).outR n) Cert.Spec.zero) Cert.Spec.zero
      (((Ideal.cmp .ogt (Ideal.div ((args m c).pv n - (args m c).vth n) ((args m c).vth n - (args m c).el n)) Cert.Spec.zero).toNat : ℝ) : EReal)
    = Cert.Spec.spike ((args m c).pv n) ((args m c).vth n) ((args m c).el n) ((args m c).outR n)
  -- the bit read unsigned is the bit widened to a word and read signed
  unfold Cert.Spec.spike
  rw [bit_real]

/-- The membrane potential after the reset. -/
theorem v103_spec (m : Mem) (c : Dev nD) :
    (ReadP.val_main_v103 (F := Ideal) (X1 m c) (X2 m c) (X3 m c) (X4 m c) (X5 m c) (X7 m c) (X10 m c) (X11 m c) (X12 m c) (X13 m c) (X14 m c) (X15 m c) (X16 m c) : FVec Ideal S1x50000 .f32)
      = Cert.Spec.row (args m c).outNewV := by
  refine Cert.Spec.eq_row fun n => ?_
  -- the reset value where the spike exceeds one half, else the potential before the reset
  rw [ReadP.val_main_v103_apply, ReadP.val_main_v101_apply, congrFun (v99_spec m c) (ix2 (0 : Fin 1) n),
    ReadP.val_main_v100_apply, ReadP.val_main_v102_apply, pv_at, e102]
  rfl

/-- The reported potential. -/
theorem v111_spec (m : Mem) (c : Dev nD) :
    (ReadP.val_main_v111 (F := Ideal) (X1 m c) (X2 m c) (X3 m c) (X4 m c) (X5 m c) (X7 m c) (X10 m c) (X11 m c) (X12 m c) (X13 m c) (X14 m c) (X15 m c) (X16 m c) (X21 m c) (X22 m c) : FVec Ideal S1x50000 .f32)
      = Cert.Spec.row (args m c).outOutV := by
  refine Cert.Spec.eq_row fun n => ?_
  -- the potential after the reset, scaled and shifted by two per-neuron vectors
  rw [ReadP.val_main_v111_apply, ReadP.val_main_v109_apply, congrFun (v103_spec m c) (ix2 (0 : Fin 1) n),
    ReadP.val_main_v108_apply, ReadP.val_main_v110_apply, e108, e110]
  rfl

end Cert.ReferenceIdeal.RefValue

end
-- ==== Proof.RefSyn.lean ====
/-
  The reference's two synaptic results are Spec.lean's formulas, entry by entry.

  The arriving current gathers history entries along the edges and scatters the weighted values onto the synapse
  slots. The reference reads the history through z ↦ (z − z · c) + z · c for a constant c, which is z itself on every
  real number but not at an infinity: so the history's entries being real numbers is asked of the memory.
-/
import proofs.«421398_j54142357733913_2_alg».proof.Proof.RefArgs
import proofs.«421398_j54142357733913_2_alg».proof.Proof.LibScatterGather
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal

open Idealize.ShloMosaic.StableHlo.Predicate (ixP)

/-- The literal the reference multiplies the history by denotes a real number (its exponent field is neither all
    ones nor zero, so it is a normal number). -/
private theorem lit_real : ∃ r : ℝ, Ideal.ofBits .f32 0x3ECCCCCD#32 = (r : EReal) := by
  simp only [Ideal.ofBits, Ideal.ieee]
  rw [if_neg (by decide), if_neg (by decide)]
  exact ⟨_, rfl⟩

/-- On real numbers (z − z · c) + z · c = z: the coercion into the extended reals commutes with the three operations,
    and the identity holds in ℝ. -/
private theorem hist_id (z k : EReal) (hz : ∃ x : ℝ, z = (x : EReal)) (hk : ∃ r : ℝ, k = (r : EReal)) :
    (z - z * k) + z * k = z := by
  obtain ⟨x, rfl⟩ := hz
  obtain ⟨r, rfl⟩ := hk
  rw [← EReal.coe_mul, ← EReal.coe_sub, ← EReal.coe_add]
  congr 1
  ring

/-- The slot number the gather is given for edge e: the edge's second entry, with 250000 added when it is negative. -/
private theorem v16_at (x9 : IVec S10000000x2 32) (e : Fin 10000000) :
    ReadP.val_main_v16 (F := Ideal) x9 (ixP e)
      = Scalar.select (IntOp.cmpi .slt (x9 (ix2 e (1 : Fin 2))) 0#32) (IntOp.addi (x9 (ix2 e (1 : Fin 2))) 250000#32)
          (x9 (ix2 e (1 : Fin 2))) := by
  have h16 : ReadP.idx_main_v16 (ixP e) = ix1 e :=
    funext fun a => Fin.ext (by match a with | ⟨0, _⟩ => rfl)
  have h10 : ReadP.idx_main_v9 (ReadP.idx_main_v10 (ix1 e)) = ix2 e (1 : Fin 2) :=
    funext fun a => Fin.ext (by match a with | ⟨0, _⟩ => exact Nat.div_one _ | ⟨1, _⟩ => rfl)
  rw [ReadP.val_main_v16_apply, h16, ReadP.val_main_v15_apply, ReadP.val_main_v12_apply, ReadP.val_main_v14_apply,
    ReadP.val_main_v10_apply, ReadP.val_main_v9_apply, h10, ReadP.val_main_v11_apply, ReadP.val_main_c_apply,
    ReadP.val_main_v13_apply, ReadP.val_main_c_0_apply]

/-- The position the scatter is given for edge e: the edge's first entry. -/
private theorem v22_at (x9 : IVec S10000000x2 32) (e : Fin 10000000) :
    ReadP.val_main_v22 (F := Ideal) x9 (ixP e) = x9 (ix2 e (0 : Fin 2)) := by
  have h : ReadP.idx_main_v19 (ReadP.idx_main_v20 (ReadP.idx_main_v22 (ixP e))) = ix2 e (0 : Fin 2) :=
    funext fun a => Fin.ext (by match a with | ⟨0, _⟩ => exact Nat.div_one _ | ⟨1, _⟩ => rfl)
  rw [ReadP.val_main_v22_apply, ReadP.val_main_v20_apply, ReadP.val_main_v19_apply, h]

/-- The weight column at edge e is the edge's weight. -/
private theorem v7_at (x8 : FVec Ideal S10000000 .f32) (e : Fin 10000000) :
    ReadP.val_main_v7 (F := Ideal) x8 (ix2 e (0 : Fin 1)) = x8 (ix1 e) := by
  have h : ReadP.idx_main_v7 (ix2 e (0 : Fin 1)) = ix1 e :=
    funext fun a => Fin.ext (by match a with | ⟨0, _⟩ => rfl)
  rw [ReadP.val_main_v7_apply, h]

/-- The history column at slot p is the history's entry p, when that entry is a real number. -/
private theorem v8_at (x1 : FVec Ideal S1x250000 .f32) (p : Fin 250000)
    (hp : ∃ x : ℝ, x1 (ix2 (0 : Fin 1) p) = (x : EReal)) :
    ReadP.val_main_v8 (F := Ideal) x1 (ix2 p (0 : Fin 1)) = x1 (ix2 (0 : Fin 1) p) := by
  have h8 : ReadP.idx_main_v8 (ix2 p (0 : Fin 1)) = ix2 (0 : Fin 1) p :=
    funext fun a => Fin.ext (by match a with | ⟨0, _⟩ => rfl | ⟨1, _⟩ => rfl)
  rw [ReadP.val_main_v8_apply, h8, ReadP.val_main_v6_apply, ReadP.val_main_v5_apply, ReadP.val_main_v4_apply,
    ReadP.val_main_v3_apply, ReadP.val_main_cst_apply]
  simp only [Ideal.addf_def, Ideal.subf_def, Ideal.mulf_def, Ideal.ofBits_def]
  exact hist_id _ _ hp lit_real

/-- The gather at edge e: the history column at the slot number, read signed and clamped into the 250000 slots. -/
private theorem v17_at (x1 : FVec Ideal S1x250000 .f32) (x9 : IVec S10000000x2 32) (e : Fin 10000000) :
    ReadP.val_main_v17 (F := Ideal) x1 x9 (ix2 e (0 : Fin 1))
      = ReadP.val_main_v8 (F := Ideal) x1
          (ix2 (⟨min (ReadP.val_main_v16 (F := Ideal) x9 (ixP e)).toInt.toNat (250000 - 1), by omega⟩ : Fin 250000)
            (0 : Fin 1)) :=
  Cert.LibSG.gather_rows _ rfl rfl rfl rfl rfl rfl rfl _ _ e (0 : Fin 1) (by decide)

/-- The scatter at slot q: zero plus the weighted history entries of the edges whose first entry is q. -/
private theorem v23_at (m : Mem) (c : Dev nD)
    (hz : ∀ p : Fin 250000, ∃ x : ℝ, (args m c).z p = (x : EReal)) (q : Fin 500000) :
    ReadP.val_main_v23 (F := Ideal) (X1 m c) (X8 m c) (X9 m c) (ix2 q (0 : Fin 1))
      = Cert.Spec.zero
        + ∑ e ∈ Finset.univ.filter (fun e : Fin 10000000 => ((args m c).idx e 0).toInt = (q.val : ℤ)),
            (args m c).w e * (args m c).z (Cert.Spec.col (args m c).idx e) := by
  have h21 : ReadP.val_main_v21 (F := Ideal) (ix2 q (0 : Fin 1)) = Cert.Spec.zero := by
    rw [ReadP.val_main_v21_apply, ReadP.val_main_cst_1_apply]
    rfl
  unfold ReadP.val_main_v23
  rw [Cert.LibSG.scatterAdd_rows _ rfl rfl rfl rfl, h21]
  simp only [v22_at]
  refine congrArg (fun s => Cert.Spec.zero + s) (Finset.sum_congr rfl (fun e _ => ?_))
  rw [ReadP.val_main_v18_apply, v7_at, v17_at, v8_at (X1 m c) _ (hz _)]
  simp only [v16_at]
  rfl

/-- The new rising phase of the synaptic current. -/
theorem v32_spec (m : Mem) (c : Dev nD)
    (hz : ∀ p : Fin 250000, ∃ x : ℝ, (args m c).z p = (x : EReal)) :
    (ReadP.val_main_v32 (F := Ideal) (X0 m c) (X1 m c) (X6 m c) (X8 m c) (X9 m c) (X19 m c) (X20 m c) : FVec Ideal S1x500000 .f32)
      = Cert.Spec.row (args m c).outPscRise := by
  refine Cert.Spec.eq_row (fun q => ?_)
  have h24 : ReadP.idx_main_v24 (ix2 (0 : Fin 1) q) = ix2 q (0 : Fin 1) :=
    funext fun a => Fin.ext (by match a with | ⟨0, _⟩ => rfl | ⟨1, _⟩ => rfl)
  have h28 : ReadP.idx_main_v28 (ix2 (0 : Fin 1) q) = ix1 q :=
    funext fun a => Fin.ext (by match a with | ⟨0, _⟩ => rfl)
  have h30 : ReadP.idx_main_v30 (ix2 (0 : Fin 1) q) = ix1 q :=
    funext fun a => Fin.ext (by match a with | ⟨0, _⟩ => rfl)
  rw [ReadP.val_main_v32_apply, ReadP.val_main_v29_apply, ReadP.val_main_v28_apply, h28, ReadP.val_main_v31_apply,
    ReadP.val_main_v30_apply, h30, ReadP.val_main_v27_apply, ReadP.val_main_v26_apply, ReadP.val_main_v25_apply,
    ReadP.val_main_cst_2_apply, ReadP.val_main_v24_apply, h24, v23_at m c hz q]
  rfl

/-- The new synaptic current. -/
theorem v39_spec (m : Mem) (c : Dev nD) :
    (ReadP.val_main_v39 (F := Ideal) (X6 m c) (X7 m c) (X19 m c) : FVec Ideal S1x500000 .f32)
      = Cert.Spec.row (args m c).outPsc := by
  refine Cert.Spec.eq_row (fun q => ?_)
  have h33 : ReadP.idx_main_v33 (ix2 (0 : Fin 1) q) = ix1 q :=
    funext fun a => Fin.ext (by match a with | ⟨0, _⟩ => rfl)
  have h37 : ReadP.idx_main_v37 (ix2 (0 : Fin 1) q) = ix1 q :=
    funext fun a => Fin.ext (by match a with | ⟨0, _⟩ => rfl)
  rw [ReadP.val_main_v39_apply, ReadP.val_main_v34_apply, ReadP.val_main_v33_apply, h33, ReadP.val_main_v38_apply,
    ReadP.val_main_v37_apply, h37, ReadP.val_main_v36_apply, ReadP.val_main_v35_apply, ReadP.val_main_cst_3_apply]
  rfl

end Cert.ReferenceIdeal.RefValue

end
-- ==== Proof.RefZbuf.lean ====
/-
  The reference's new spike history, entry by entry: the new spikes in the first 50000 slots, then the four newest
  old steps (the old history moved back by 50000 slots, its oldest step dropped).
-/
import proofs.«421398_j54142357733913_2_alg».proof.Proof.RefArgs
import proofs.«421398_j54142357733913_2_alg».proof.Proof.LibHistory
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal

/-- Slot p of the new history is the new spike of neuron p when p < 50000, and slot p − 50000 of the old history
    otherwise. -/
theorem v107_apply (m : Mem) (c : Dev nD) (p : Fin 250000) :
    (ReadP.val_main_v107 (F := Ideal) (X1 m c) (X2 m c) (X3 m c) (X4 m c) (X5 m c) (X7 m c) (X10 m c) (X11 m c) (X13 m c) (X14 m c) (X15 m c) (X16 m c) : FVec Ideal S1x250000 .f32) (ix2 0 p)
      = if h : p.val < 50000 then
          (ReadP.val_main_v99 (F := Ideal) (X1 m c) (X2 m c) (X3 m c) (X4 m c) (X5 m c) (X7 m c) (X10 m c) (X11 m c) (X13 m c) (X14 m c) (X15 m c) (X16 m c) : FVec Ideal S1x50000 .f32) (ix2 0 ⟨p.val, h⟩)
        else (X1 m c) (ix2 0 ⟨p.val - 50000, by omega⟩) := by
  unfold ReadP.val_main_v107 ReadP.val_main_v106 ReadP.val_main_v104 ReadP.val_main_v105 ReadP.val_main_v0
  exact Cert.LibHistory.shifted_apply _ _ _ _ _ _ _ p

end Cert.ReferenceIdeal.RefValue

end
-- ==== Proof.RefValue.lean ====
/-
  The reference program ends with the step's nine results (Results.lean), entry by entry.

  Its one departure from the plain formulas: it reads the spike history through z ↦ (z − z · c) + z · c for a
  constant c, which is z itself on every real number but not at an infinity; so the history's entries being real
  numbers is what this module asks of its memory.
-/
import proofs.«421398_j54142357733913_2_alg».proof.Defs
import proofs.«421398_j54142357733913_2_alg».proof.Proof.RefArgs
import proofs.«421398_j54142357733913_2_alg».proof.Proof.RefMemA
import proofs.«421398_j54142357733913_2_alg».proof.Proof.RefMemB
import proofs.«421398_j54142357733913_2_alg».proof.Proof.RefSyn
import proofs.«421398_j54142357733913_2_alg».proof.Proof.RefZbuf
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.SL.Sem Idealize.ShloMosaic.ValueIdx
open Cert.ReferenceIdeal

/-- From a memory whose spike history is real-valued, every weakly fair execution of the reference ends with the step's
    nine results, its arguments unchanged. -/
theorem run_spec (m : Mem) (ρ : Dev nD → PrngReg)
    (hz : ∀ (c : Dev nD) (p : Fin 250000), ∃ x : ℝ, (args m c).z p = (x : EReal)) :
    θ_run (defs (F := Ideal)) (onTc (τ := τ) (main (F := Ideal))) ⟨m, fun _ => 0, ρ⟩ fun r => ∀ c : Dev nD,
      (r.2.mem ((c.tc : Thread nD τ).loc main_v99) : FVec Ideal S1x50000 .f32) = Cert.Spec.row (args m c).outZ
      ∧ (r.2.mem ((c.tc : Thread nD τ).loc main_v111) : FVec Ideal S1x50000 .f32) = Cert.Spec.row (args m c).outOutV
      ∧ (r.2.mem ((c.tc : Thread nD τ).loc main_v107) : FVec Ideal S1x250000 .f32) = Cert.Spec.row (args m c).outZbuf
      ∧ (r.2.mem ((c.tc : Thread nD τ).loc main_v103) : FVec Ideal S1x50000 .f32) = Cert.Spec.row (args m c).outNewV
      ∧ (r.2.mem ((c.tc : Thread nD τ).loc main_v46) : FVec Ideal S1x50000 .f32) = Cert.Spec.row (args m c).outR
      ∧ (r.2.mem ((c.tc : Thread nD τ).loc main_v64) : FVec Ideal S1x50000 .f32) = Cert.Spec.row (args m c).outAsc1
      ∧ (r.2.mem ((c.tc : Thread nD τ).loc main_v76) : FVec Ideal S1x50000 .f32) = Cert.Spec.row (args m c).outAsc2
      ∧ (r.2.mem ((c.tc : Thread nD τ).loc main_v32) : FVec Ideal S1x500000 .f32) = Cert.Spec.row (args m c).outPscRise
      ∧ (r.2.mem ((c.tc : Thread nD τ).loc main_v39) : FVec Ideal S1x500000 .f32) = Cert.Spec.row (args m c).outPsc
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run (defs (F := Ideal)) _ _).mono (fun r h c => by
    obtain ⟨h0, h1, h2, h3, h4, h5, h6, h7, h8, hargs⟩ := h c
    refine ⟨h0.trans (v99_spec m c), h1.trans (v111_spec m c), ?_, h3.trans (v103_spec m c), h4.trans (v46_spec m c),
      h5.trans (v64_spec m c), h6.trans (v76_spec m c), h7.trans (v32_spec m c (hz c)), h8.trans (v39_spec m c), hargs⟩
    -- the new history: its first 50000 slots are the spike just shown, the rest the old history moved back
    have e107 : (r.2.mem ((c.tc : Thread nD τ).loc main_v107) : FVec Ideal S1x250000 .f32)
        = ReadP.val_main_v107 (F := Ideal) (X1 m c) (X2 m c) (X3 m c) (X4 m c) (X5 m c) (X7 m c) (X10 m c) (X11 m c) (X13 m c) (X14 m c) (X15 m c) (X16 m c) := h2
    refine e107.trans (Cert.Spec.eq_row fun p => ?_)
    rw [v107_apply m c p, v99_spec m c]
    rfl) (ValueP.run (F := Ideal) m ρ)

end Cert.ReferenceIdeal.RefValue

end
-- ==== Proof.Finite.lean ====
/-
  Under the precondition every entry of the spike history is a real number (neither infinity).
-/
import proofs.«421398_j54142357733913_2_alg».proof.Defs
import proofs.«421398_j54142357733913_2_alg».proof.Proof.KernelArgs
import Idealize.ShloMosaic.Lib.ReduceAll
import Idealize.ShloMosaic.PureOps.Ideal.Laws

noncomputable section

open scoped BigOperators

namespace Cert.KernelIdeal.Val

open Idealize.ShloMosaic Idealize.ShloMosaic.TcCoe Idealize.SL.Sem Idealize.ShloMosaic.ValueIdx
open Cert.KernelIdeal

/-- The f32 pattern of +inf (exponent all ones, significand zero, sign clear) denotes the top element
    of the extended reals. -/
private theorem inf_eq_top : Ideal.ofBits .f32 0x7F800000#32 = (⊤ : EReal) := by
  simp [Ideal.ofBits, Ideal.ieee]

/-- An extended real whose absolute value max x (-x) lies strictly below the top element is a real number:
    at the top element the maximum is the top, and at the bottom element -x is the top. -/
private theorem real_of_abs_lt_top (x : EReal) (h : max x (-x) < ⊤) : ∃ r : ℝ, x = (r : EReal) := by
  induction x using EReal.rec with
  | bot => simp at h
  | coe r => exact ⟨r, rfl⟩
  | top => simp at h

/-- A boolean whose one-bit word is 1 is true. -/
private theorem ofBool_one {b : Bool} (h : BitVec.ofBool b = 1#1) : b = true := by
  cases b
  · exact absurd h (by decide)
  · rfl

/-- One element of the comparison |x| < +inf being 1: the absolute value is max x (-x), the constant is the
    top element, and the ordered less-than is the strict order of the extended reals; so the entry is real. -/
private theorem real_of_cmp (x : Ideal .f32)
    (h : FloatOps.cmpf (F := Ideal) .olt (FloatOps.hostAbsf x) (FloatOps.ofBits .f32 0x7F800000#32) = 1#1) :
    ∃ r : ℝ, x = (r : EReal) := by
  rw [Ideal.hostAbsf_def, Ideal.absf_def, Ideal.ofBits_def, inf_eq_top, Ideal.cmpf_def] at h
  simp only [Ideal.cmp] at h
  exact real_of_abs_lt_top x (of_decide_eq_true (ofBool_one h))

/-- The conjunction over all entries of |x| < +inf (a reduction by "and" over every axis, into the one
    scalar index) being 1, over an array of any shape: every entry of x is a real number. A conjunction that
    is 1 has a 1 at every position; the scalar shape has one index, so every position reduces into it. -/
private theorem real_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel) (init : IVec ⟨0, ![]⟩ 1)
    (e : Host.reduce IntOp.andi
          (cmpf .olt (Host.absf x) (broadcastInDim s ![] hb (constant ⟨0, ![]⟩ .f32 0x7F800000#32)))
          init hr h0 ix0 = 1#1)
    (i : s.Idx) : ∃ r : ℝ, x i = (r : EReal) := by
  haveI : Subsingleton (⟨0, ![]⟩ : Shape).Idx := ⟨fun a b => funext fun d => d.elim0⟩
  exact real_of_cmp (x i) (Host.reduce_andi_all _ init hr h0 ix0 e i)

/-- The precondition, over any twenty-three arrays: it is the left-nested conjunction
    ((…((all₀ ∧ all₁) ∧ all₂) ∧ …) ∧ all₂₂) of one "every entry is below +inf in absolute value" per float
    array (the integer array, the tenth, has none). If it is 1 then every conjunct is 1; the second conjunct
    is the second array's, reached by taking the left side twenty times and then the right side; and that
    conjunct says every entry of the second array is real. -/
private theorem arg1_real [Cert.Pre_finite_inputs.Facts] (a0 : FVec Ideal Cert.Pre_finite_inputs.S1x500000 .f32) (a1 : FVec Ideal Cert.Pre_finite_inputs.S1x250000 .f32) (a2 : FVec Ideal Cert.Pre_finite_inputs.S1x50000 .f32) (a3 : FVec Ideal Cert.Pre_finite_inputs.S1x50000 .f32) (a4 : FVec Ideal Cert.Pre_finite_inputs.S1x50000 .f32) (a5 : FVec Ideal Cert.Pre_finite_inputs.S1x50000 .f32) (a6 : FVec Ideal Cert.Pre_finite_inputs.S1x500000 .f32) (a7 : FVec Ideal Cert.Pre_finite_inputs.S1x500000 .f32) (a8 : FVec Ideal Cert.Pre_finite_inputs.S10000000 .f32) (a9 : IVec Cert.Pre_finite_inputs.S10000000x2 32) (a10 : FVec Ideal Cert.Pre_finite_inputs.S50000 .f32) (a11 : FVec Ideal Cert.Pre_finite_inputs.S50000 .f32) (a12 : FVec Ideal Cert.Pre_finite_inputs.S50000 .f32) (a13 : FVec Ideal Cert.Pre_finite_inputs.S50000 .f32) (a14 : FVec Ideal Cert.Pre_finite_inputs.S50000 .f32) (a15 : FVec Ideal Cert.Pre_finite_inputs.S50000 .f32) (a16 : FVec Ideal Cert.Pre_finite_inputs.S50000 .f32) (a17 : FVec Ideal Cert.Pre_finite_inputs.S50000x2 .f32) (a18 : FVec Ideal Cert.Pre_finite_inputs.S50000x2 .f32) (a19 : FVec Ideal Cert.Pre_finite_inputs.S500000 .f32) (a20 : FVec Ideal Cert.Pre_finite_inputs.S500000 .f32) (a21 : FVec Ideal Cert.Pre_finite_inputs.S50000 .f32) (a22 : FVec Ideal Cert.Pre_finite_inputs.S50000 .f32)
    (h : Cert.Pre_finite_inputs.fn (F := Ideal) a0 a1 a2 a3 a4 a5 a6 a7 a8 a9 a10 a11 a12 a13 a14 a15 a16 a17 a18 a19 a20 a21 a22 = fun _ => 1#1)
    (p : Fin 250000) : ∃ r : ℝ, a1 (ix2 0 p) = (r : EReal) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Idealize.ShloMosaic.andi] at h0
  simp only [IntOp.andi_eq_one] at h0
  exact real_of_all a1 _ _ _ _ h0.1.1.1.1.1.1.1.1.1.1.1.1.1.1.1.1.1.1.1.1.2 (ix2 0 p)

theorem z_finite [hP : Cert.Pre_finite_inputs.Facts] (m : Mem) (h : Cert.Pre_KernelIdeal m) (c : Dev nD) (p : Fin 250000) :
    ∃ x : ℝ, (args m c).z p = (x : EReal) := by
  -- The precondition on device c is the printed predicate at that device's twenty-three argument arrays;
  -- entry p of the spike history is the second array at row 0, column p.
  have key := arg1_real _ _ _ _ _ _ _ _ _ _ _ _ _ _ _ _ _ _ _ _ _ _ _ (h c) p
  exact key

end Cert.KernelIdeal.Val

end
-- ==== Proof.lean ====
/-
  One time step of a column of 50000 leaky integrate-and-fire neurons: a two-kernel program (a synapse update over ten
  blocks of rows, then a membrane update over whole rows, with host operations that gather and scatter along ten
  million edges and re-lay arrays around them) against a plain array program.

  Both programs end with the same nine arrays, each entry one formula of the argument arrays (Proof/Spec.lean,
  Proof/Results.lean): the kernel program by Proof/KernelValue.lean, the array program by Proof/RefValue.lean. The two
  texts differ in one place that matters on the extended reals: the array program reads the spike history through
  z ↦ (z − z · c) + z · c, which is z only where z is a real number; that every input is finite is what the
  precondition gives (Proof/Finite.lean). The three frames are the runs with their results dropped, and the
  idealized kernel program is the kernel program's own text, so nothing is owed for it.
-/
import proofs.«421398_j54142357733913_2_alg».proof.Defs
import proofs.«421398_j54142357733913_2_alg».proof.Proof.Gen.Kernel
import proofs.«421398_j54142357733913_2_alg».proof.Proof.Gen.KernelIdeal
import proofs.«421398_j54142357733913_2_alg».proof.Proof.Gen.ReferenceIdeal
import proofs.«421398_j54142357733913_2_alg».proof.Proof.Gen.Pre_finite_inputs
import proofs.«421398_j54142357733913_2_alg».proof.Proof.KernelFrame
import proofs.«421398_j54142357733913_2_alg».proof.Proof.KernelIdealFrame
import proofs.«421398_j54142357733913_2_alg».proof.Proof.KernelValue
import proofs.«421398_j54142357733913_2_alg».proof.Proof.RefValue
import proofs.«421398_j54142357733913_2_alg».proof.Proof.Finite
import Idealize.ShloMosaic.Adequacy
import Idealize.ShloMosaic.Init

noncomputable section

namespace Cert.Proof

open Idealize.ShloMosaic Idealize.SL.Sem

/-- Memories that agree on the twenty-three arguments give the two programs the same record of argument arrays. -/
theorem args_eq (m : Cert.KernelIdeal.Val.Mem) (m' : Cert.ReferenceIdeal.RefValue.Mem) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    Cert.ReferenceIdeal.RefValue.args m' c = Cert.KernelIdeal.Val.args m c := by
  obtain ⟨e0, e1, e2, e3, e4, e5, e6, e7, e8, e9, e10, e11, e12, e13, e14, e15, e16, e17, e18, e19, e20, e21, e22⟩ := h
  simp only [Cert.ReferenceIdeal.RefValue.args, Cert.KernelIdeal.Val.args, e0, e1, e2, e3, e4, e5, e6, e7, e8, e9, e10, e11, e12, e13, e14, e15, e16, e17, e18, e19, e20, e21, e22]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2.2.2.2.2.2.2.2.2)
    (Cert.ReferenceIdeal.ValueP.run (F := Ideal) m ρ),
  trivial,
  fun m ρ m' ρ' hpre hagree => by
    have hargs : ∀ c, Cert.ReferenceIdeal.RefValue.args m' c = Cert.KernelIdeal.Val.args m c :=
      fun c => args_eq m m' c (hagree c)
    refine ⟨fun c => Cert.Spec.row (Cert.KernelIdeal.Val.args m c).outZ,
      fun c => Cert.Spec.row (Cert.KernelIdeal.Val.args m c).outOutV,
      fun c => Cert.Spec.row (Cert.KernelIdeal.Val.args m c).outZbuf,
      fun c => Cert.Spec.row (Cert.KernelIdeal.Val.args m c).outNewV,
      fun c => Cert.Spec.row (Cert.KernelIdeal.Val.args m c).outR,
      fun c => Cert.Spec.row (Cert.KernelIdeal.Val.args m c).outAsc1,
      fun c => Cert.Spec.row (Cert.KernelIdeal.Val.args m c).outAsc2,
      fun c => Cert.Spec.row (Cert.KernelIdeal.Val.args m c).outPscRise,
      fun c => Cert.Spec.row (Cert.KernelIdeal.Val.args m c).outPsc,
      Cert.KernelIdeal.Val.run_value m ρ, ?_⟩
    -- the array program, run from the agreeing memory: its record of arguments is the kernel program's, and its
    -- history is real-valued because the kernel program's is
    refine (θ_run Cert.ReferenceIdeal.defs _ _).mono (fun r h c => ?_)
      (Cert.ReferenceIdeal.RefValue.run_spec m' ρ' fun c p => by
        rw [hargs c]; exact Cert.KernelIdeal.Val.z_finite m hpre c p)
    have h' := h c
    rw [hargs c] at h'
    exact h'⟩

end Cert.Proof

end
